-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x16 .f32) (main_arg4 : FVec F S16 .f32) (main_arg5 : FVec F S16x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S10000x128 : Shape := ⟨2, ![10000, 128]⟩
abbrev S10000x16 : Shape := ⟨2, ![10000, 16]⟩
abbrev S1700000x16 : Shape := ⟨2, ![1700000, 16]⟩
abbrev S1x16 : Shape := ⟨2, ![1, 16]⟩
abbrev S100000x1 : Shape := ⟨2, ![100000, 1]⟩
abbrev S1x128 : Shape := ⟨2, ![1, 128]⟩
abbrev S1x2 : Shape := ⟨2, ![1, 2]⟩
abbrev S5000x16 : Shape := ⟨2, ![5000, 16]⟩
abbrev S5000x1 : Shape := ⟨2, ![5000, 1]⟩
abbrev S128x1 : Shape := ⟨2, ![128, 1]⟩
abbrev S5000x128 : Shape := ⟨2, ![5000, 128]⟩

abbrev nBuf : Space → Nat
  | .hbm => 94
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x16, .bf16⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x16, .bf16⟩
  | .hbm, ⟨57, _⟩ => ⟨S1700000x1, .f32⟩
  | .hbm, ⟨58, _⟩ => ⟨S1700000x16, .f32⟩
  | .hbm, ⟨59, _⟩ => ⟨S1700000x16, .f32⟩
  | .hbm, ⟨60, _⟩ => ⟨S1700000x16, .f32⟩
  | .hbm, ⟨61, _⟩ => ⟨S_, .f32⟩
  | .hbm, ⟨62, _⟩ => ⟨S100000x16, .f32⟩
  | .hbm, ⟨63, _⟩ => ⟨S1700000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .bf16⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x16, .bf16⟩
  | .hbm, ⟨81, _⟩ => ⟨S1700000x1, .f32⟩
  | .hbm, ⟨82, _⟩ => ⟨S1700000x16, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S100000x1, .i32⟩
  | .hbm, ⟨90, _⟩ => ⟨S1x128, .f32⟩
  | .hbm, ⟨91, _⟩ => ⟨S1x128, .f32⟩
  | .hbm, ⟨92, _⟩ => ⟨S1x2, .f32⟩
  | .hbm, ⟨93, _⟩ => ⟨S128x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .bf16⟩
  | .local _ .vmem, ⟨4, _⟩ => ⟨S10000x16, .bf16⟩
  | .local _ .vmem, ⟨5, _⟩ => ⟨S5000x16, .f32⟩
  | .local _ .vmem, ⟨6, _⟩ => ⟨S5000x16, .f32⟩
  | .local _ .vmem, ⟨7, _⟩ => ⟨S5000x1, .i32⟩
  | .local _ .vmem, ⟨8, _⟩ => ⟨S5000x1, .i32⟩
  | .local _ .vmem, ⟨9, _⟩ => ⟨S16x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x2, .f32⟩
  | .local _ .vmem, ⟨14, _⟩ => ⟨S1x2, .f32⟩
  | .local _ .vmem, ⟨15, _⟩ => ⟨S128x2, .f32⟩
  | .local _ .vmem, ⟨16, _⟩ => ⟨S128x128, .f32⟩
  | .local _ .vmem, ⟨17, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_20 : BitVec 32 := 0#32
  let v39 : BitVec 1 := Scalar.cmpi .ne v38 c0_i32_20
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S100000_S100000x1 : S100000.ShapeCasts S100000x1
  shapeCasts_S128_S1x128 : S128.ShapeCasts S1x128
  shapeCasts_S2_S1x2 : S2.ShapeCasts S1x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  broadcasts_S128x1_S128x128 : S128x1.Broadcasts S128x128
  broadcasts_S1x128_S128x128 : S1x128.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  reduces_S128x2_S128 : S128x2.Reduces [1] S128
  shapeCasts_S128_S128x1 : S128.ShapeCasts S128x1
  broadcasts_S128x1_S128x2 : S128x1.Broadcasts S128x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x128_S5000x128_1_0_0_1_n_n_wf : DotDims.WF S5000x16 S16x128 S5000x128 [1] [0] [0] [1] [] []
  dot_S5000x128_S5000x128_S128x128_0_0_1_1_n_n_wf : DotDims.WF S5000x128 S5000x128 S128x128 [0] [0] [1] [1] [] []
  dot_S5000x128_S5000x1_S128x1_0_0_1_1_n_n_wf : DotDims.WF S5000x128 S5000x1 S128x1 [0] [0] [1] [1] [] []
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .bf16 = 32 ∨ (Rect.block (s := S100000x16) S10000x16.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S128x2.size a
  hwx1_8 : ∀ i : grid1.Coords, EltTy.bits .f32 = 32 ∨ (Rect.block (s := S128x2) S128x2.size (cc1_transform_8 i) (hinb1_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v67) S128x2.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x16 : Shape := ⟨2, ![100000, 16]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x16, .f32⟩
  | 4 => ⟨S16, .f32⟩
  | 5 => ⟨S16x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S100000x16, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x16, .f32⟩
  | 57 => ⟨S1700000x1, .f32⟩
  | 58 => ⟨S1700000x16, .f32⟩
  | 59 => ⟨S1700000x16, .f32⟩
  | 60 => ⟨S_, .f32⟩
  | 61 => ⟨S100000x16, .f32⟩
  | 62 => ⟨S1700000x1, .i32⟩
  | 63 => ⟨S100000x16, .f32⟩
  | 64 => ⟨S1x16, .f32⟩
  | 65 => ⟨S100000x16, .f32⟩
  | 66 => ⟨S100000x16, .f32⟩
  | 67 => ⟨S_, .f32⟩
  | 68 => ⟨S100000x16, .f32⟩
  | 69 => ⟨S100000x16, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S128x128, .f32⟩
  | 127 => ⟨S100000x1, .i32⟩
  | _ => ⟨S100000x128, .f32⟩

abbrev hbmTy0_1 (i : Nat) : BufTy := match i % 128 with
  | 0 => ⟨S128x128, .f32⟩
  | 1 => ⟨S_, .f32⟩
  | 2 => ⟨S100000, .f32⟩
  | 3 => ⟨S_, .f32⟩
  | 4 => ⟨S128, .f32⟩
  | 5 => ⟨S100000x1, .i32⟩
  | 6 => ⟨S128, .f32⟩
  | 7 => ⟨S_, .f32⟩
  | 8 => ⟨S128, .f32⟩
  | 9 => ⟨S128, .f32⟩
  | 10 => ⟨S128x1, .f32⟩
  | 11 => ⟨S128x128, .f32⟩
  | 12 => ⟨S128x128, .f32⟩
  | 13 => ⟨S128x128, .f32⟩
  | 14 => ⟨S1x128, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S128x2, .f32⟩
  | 21 => ⟨S1x2, .f32⟩
  | 22 => ⟨S128x2, .f32⟩
  | 23 => ⟨S128x2, .f32⟩
  | 24 => ⟨S_, .f32⟩
  | 25 => ⟨S128, .f32⟩
  | 26 => ⟨S_, .f32⟩
  | 27 => ⟨S128, .f32⟩
  | 28 => ⟨S128, .f32⟩
  | 29 => ⟨S128x1, .f32⟩
  | 30 => ⟨S128x2, .f32⟩
  | 31 => ⟨S128x2, .f32⟩
  | 32 => ⟨S128x2, .f32⟩
  | 33 => ⟨S_, .f32⟩
  | 34 => ⟨S128, .f32⟩
  | 35 => ⟨S128x1, .f32⟩
  | 36 => ⟨S128x1, .f32⟩
  | 37 => ⟨S128x2, .f32⟩
  | 38 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call2_cst : Ref sig .tc := ⟨.hbm, 145, rfl⟩
abbrev main_call2_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v111 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S128x1_S128x2_0_1 : S128x1.BroadcastsInDim S128x2 (![0, 1] : Fin 2 → Fin S128x2.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.K.Defs.lean ====
/-
  Region-level vocabulary for the two kernel regions of the program, at a parameter `V` (the TensorCore's buffer
  contents when a region is entered).

  Region 0 multiplies each block of 10000 rows of the node features by the 128×16 weight matrix. Region 1 walks the
  100000 rows of the second layer's aggregated features in 20 blocks of 5000 rows: at every block it adds to a 128×128
  accumulator (and a 128×1 counter) the one-hot pooling of that block's activated rows by graph id; at the last block
  it divides, applies the two dense layers and the log-softmax. What the accumulators hold after block `n` is the
  recursion `accAt1`; what the last block stores into the result is `out1_8`.
-/
import proofs.«423774_j65060164600241_3_alg».proof.Proof.Gen.Kernel.Launch
import proofs.«423774_j65060164600241_3_alg».proof.Proof.Gen.Kernel.Skeleton
import proofs.«423774_j65060164600241_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 10000×128 block of features, the whole 128×16 weight matrix, the whole 10000×16 product block. -/
abbrev r0_x : Rect S10000x128 := Rect.unit (s := S10000x128) ![0, 0] S10000x128.size inb_S10000x128_S10000x128_0_0
abbrev r0_w : Rect S128x16 := Rect.unit (s := S128x16) ![0, 0] S128x16.size inb_S128x16_S128x16_0_0
abbrev r0_o : Rect S10000x16 := Rect.unit (s := S10000x16) ![0, 0] S10000x16.size inb_S10000x16_S10000x16_0_0

/-- What region 0's body leaves in the product window's buffer: its one store, of the product of the two loaded blocks. -/
def out0_2 (x0 : Vec F S10000x128 .f32) (x1 : Vec F S128x16 .f32) : Vec F S10000x16 .bf16 :=
  View.canon [⟨r0_o, k0_pay1 (View.ld x0 r0_x) (View.ld x1 r0_w)⟩]

/-- Region 0's proof data on core `c`: the arrays as the region finds them; after the body each input's buffer at its
    block and the product window's at `out0_2` of the two; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pooled sums (128×128) and counts (128×1) after block `n`: the first block adds its contribution to zeros, every
    later block to what the block before left. -/
def accAt1 (c : Dev nD) : (n : ℕ) → n < cfg1.N → Vec F S128x128 .f32 × Vec F S128x1 .f32
  | 0, hn =>
    (k1_pay6 (iblk1 V c 0 ⟨0, hn⟩) (iblk1 V c 2 ⟨0, hn⟩) (iblk1 V c 3 ⟨0, hn⟩) (iblk1 V c 1 ⟨0, hn⟩) k1_pay3,
     k1_pay1 (k1_pay7 (iblk1 V c 1 ⟨0, hn⟩) k1_pay4))
  | n + 1, hn =>
    (k1_pay6 (iblk1 V c 0 ⟨n + 1, hn⟩) (iblk1 V c 2 ⟨n + 1, hn⟩) (iblk1 V c 3 ⟨n + 1, hn⟩) (iblk1 V c 1 ⟨n + 1, hn⟩)
        (accAt1 c n (Nat.lt_of_succ_lt hn)).1,
     k1_pay1 (k1_pay7 (iblk1 V c 1 ⟨n + 1, hn⟩) (accAt1 c n (Nat.lt_of_succ_lt hn)).2))

/-- What the body stores into the result window at point `t` when it stores there (the last point): the pooled mean
    through the two dense layers and the log-softmax, from the accumulators as this point leaves them. -/
def out1_8 (c : Dev nD) (t : Fin cfg1.N) : Vec F S128x2 .f32 :=
  k1_pay2 (accAt1 V c t.val t.isLt).1 (accAt1 V c t.val t.isLt).2 (iblk1 V c 4 t) (iblk1 V c 5 t) (iblk1 V c 6 t) (iblk1 V c 7 t)

end Cert.Kernel.Hand

end
-- ==== Proof.K.Fold.lean ====
/-
  The TensorCore's buffer contents at the boundaries between the items of the program: the launch memory, then each
  stretch of host operations applied in order, and at a kernel region's exit its arrays at what the pipeline's
  write-backs leave (every other buffer as the region found it).
-/
import proofs.«423774_j65060164600241_3_alg».proof.Proof.K.Defs

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the blocks' write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the three stretches between the regions (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

end Cert.Kernel.Hand

end
-- ==== Proof.K.Region0.lean ====
/-
  Region 0 of the program, at a parameter `V` (the TensorCore's buffer contents when the region is entered): the body
  obligation of its pipeline, for any float family.

  The region walks the node features in blocks of 10000 rows. At every point its body reads the current 10000×128
  block of features and the 128×16 weight matrix, multiplies them (both rounded to bf16, accumulated in f32 from zero),
  rounds the product to bf16 and stores it over the whole 10000×16 product block. The features' window moves to a new
  block at every point; the weights' window has one block, copied in at the first point of a walk and found in place at
  the others. So at every point each input's staging buffer holds that input's block (`before0_0`, `before0_1`), the
  body's triple (`sound_kernel0`) applies at those two blocks, and it leaves the product's buffer at `out0_2` of
  them, which is what the proof data `dat0` records (`body_obligation0`).
-/
import proofs.«423774_j65060164600241_3_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's staging buffer holds that window's block at every point, whether or not the block was copied in
    there: where it was not, the block index is the one of the point before, whose block the body left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- The body's one store of the product block is the whole 10000×16 rectangle, so every element of the block lies in it. -/
theorem cover0_2 (p0 : Vec F S10000x16 .bf16) (y : S10000x16.Idx) :
    ∃ pc ∈ ([⟨r0_o, p0⟩] : List (View.Piece (Elt F) S10000x16 .bf16)), y ∈ pc.1.set :=
  View.cover_of_tiled [⟨r0_o, p0⟩] S10000x16.size (by rfl) y

set_option maxHeartbeats 1000000 in
/-- The body's triple. On whole memrefs, the features' holding `x0`, the weights' holding `x1` and the product's
    holding anything, the body reads the two input blocks whole, reads the product block (a value it never uses), and
    stores over the whole product block the product of the two blocks read, rounded to bf16. Both inputs are left as
    found, and the product memref reads `out0_2 x0 x1`: its single store covers the block, so nothing of what it held
    before remains. -/
theorem sound_kernel0 (c : Dev nD) (E : Set ℕ) (i : grid0.Coords)
    (arg1 : Memref sig .tc .vmem S10000x128 .f32) (harg1 : arg1.IsWhole)
    (arg2 : Memref sig .tc .vmem S128x16 .f32) (harg2 : arg2.IsWhole)
    (arg3 : Memref sig .tc .vmem S10000x16 .bf16) (harg3 : arg3.IsWhole)
    (x0 : Vec F S10000x128 .f32) (x1 : Vec F S128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mm1_kernel i arg1 harg1 arg2 harg2 arg3 harg3) K := by
  simp only [cc0__mm1_kernel_eq_skeleton]; unfold cc0__mm1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is entered with at point `t`: the invariant, the core's debt, and the three windows' current staging
    buffers, each at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks there (`before0_0`, `before0_1`), the product's
    holds something, so the body's triple applies at those two blocks; the invariant and the debt are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point: its conjunction over the three windows written out. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1, block by block: its proof data and its body obligation, at a parameter `V` (the buffer contents when the
  region is entered) and at any float family.

  The region walks the 100000 aggregated rows in 20 blocks of 5000. Two accumulators live beside the staged windows and
  are carried from block to block: 128×128 pooled sums and 128×1 counts. At the first block the body zeroes them and adds
  that block's one-hot pooling; at every later block it adds to what the block before left; at the last block it also
  reads them back, divides the sums by the counts clamped below at one, applies the two dense layers (the first followed
  by a rectifier) and the log-softmax, and stores the 128×2 result.
  So the body has three cases, told apart by the block's position alone:

    first block      zero, then accumulate;
    a middle block   accumulate;
    last block       accumulate, then finalize and store the result window.

  What the accumulators hold after block `n` is `accAt1 V c n`; what the last block stores is `out1_8 V c t`. The
  result window is idle off the last block: there the body hands its buffer back as found and the pipeline does not
  write it back. The invariant carried between blocks owns the two accumulators at `accAt1` of the block before, every
  other scoped buffer of the core at anything, and the generator register at some state.

  Per case the body is run once on arbitrary whole staging memrefs holding arbitrary blocks (`run1_A`, `run1_B`,
  `run1_C`): every store goes through the whole-buffer rectangle, so a buffer reads afterwards as its last store's
  payload, and a load after a store into the same accumulator reads that store. `sound_body1` picks the case from the
  closed forms of the two conditions and threads the invariant through; `body_obligation1` is the obligation as the
  pipeline rule states it.
-/
import proofs.«423774_j65060164600241_3_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form -/

/-- The condition of the first conditional (the accumulators are zeroed under it), from the grid coordinate. -/
abbrev cond1_0 (i : grid1.Coords) : Prop :=
  (Scalar.cmpi .ne (Scalar.extui (Scalar.cmpi .eq (BitVec.ofNat 32 (i 0).val) 0#32)) 0#32) = 1#1
/-- It holds at the first block only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (the result is computed and stored under it). -/
abbrev cond1_1 (i : grid1.Coords) : Prop := k1_cond2 i = 1#1
/-- It holds at the last block only. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Off the last block the result window is idle, -/
theorem idleAt1_8 : ∀ t : Fin cfg1.N, ¬cond1_1 (grid1.coords t) → cfg1.idle 8 (grid1.coords t) = true := by decide +kernel
/-- and is not written back; -/
theorem noFlush1_8 : ∀ t : Fin cfg1.N, ¬cond1_1 (grid1.coords t) → (cfg1.win 8).flush t = false := by decide +kernel
/-- at the last block it is live. -/
theorem liveAt1_8 : ∀ t : Fin cfg1.N, cond1_1 (grid1.coords t) → cfg1.idle 8 (grid1.coords t) = false := by decide +kernel

/-! ## The memrefs the body is called with -/

abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x2 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S128x128 .f32 := Memref.whole cc1_scratch0
abbrev scM1_1 : Memref sig .tc .vmem S128x1 .f32 := Memref.whole cc1_scratch1

/-- The class invariant with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## Whole-buffer stores and loads -/

/-- The whole-buffer rectangle of a rank-2 shape starts at zero on both axes. -/
theorem zero2 : (![0, 0] : Fin 2 → ℕ) = fun _ => 0 := funext fun a => by fin_cases a <;> rfl

/-- A buffer whose last store went through the whole-shape rectangle reads as that store's payload, whatever it
    held and whatever was stored before. -/
theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (Or.inl rfl), View.mem_set_unit_zero h inb y⟩).trans
    (View.canon_cons_unit_zero h inb w L)

/-- A load through the whole-shape rectangle of a whole memref reads its contents. -/
theorem readAt_unread {sp : Space} {S : Shape} {e : EltTy} {M : Memref sig .tc sp S e} (hM : M.IsWhole)
    {off : Fin S.rank → ℕ} (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread]; exact View.ld_unit_zero h inb X

set_option maxHeartbeats 1000000 in
/-- The first block: the body zeroes the two accumulators, whatever they held, and adds the block's pooled
    contribution; it touches nothing else. -/
theorem run1_A (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : cond1_0 i) (hc1 : ¬cond1_1 i)
    (x0 : Vec F S5000x16 .f32) (x1 : Vec F S5000x1 .i32) (x2 : Vec F S16x128 .f32) (x3 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay6 x0 x2 x3 x1 k1_pay3) ∗ owns (c : Thread nD τ) arg11 fullShare (k1_pay1 (k1_pay7 x1 k1_pay4))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d0, %fs0, -, HS0⟩, ⟨%d1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    refine (read_writes_whole _ _ zero2 _ _ _).trans ?_
    sl_unfold_words
    simp only [readAt_unread harg1 zero2, readAt_unread harg2 zero2, readAt_unread harg3 zero2, readAt_unread harg4 zero2, View.readCov_unit_zero (S := S128x128) _ zero2]
  · iexists _; isplitr
    swap; · iexact HS1
    ipureintro
    refine (read_writes_whole _ _ zero2 _ _ _).trans ?_
    sl_unfold_words
    simp only [readAt_unread harg1 zero2, readAt_unread harg2 zero2, readAt_unread harg3 zero2, readAt_unread harg4 zero2, View.readCov_unit_zero (S := S128x1) _ zero2]

set_option maxHeartbeats 1000000 in
/-- A block that is neither the first nor the last: the body adds the block's pooled contribution to the two
    accumulators, which it finds at `a0`, `a1`, and touches nothing else. -/
theorem run1_B (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : ¬cond1_0 i) (hc1 : ¬cond1_1 i)
    (x0 : Vec F S5000x16 .f32) (x1 : Vec F S5000x1 .i32) (x2 : Vec F S16x128 .f32) (x3 : Vec F S1x128 .f32)
    (a0 : Vec F S128x128 .f32) (a1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg10 fullShare a0 ∗ owns (c : Thread nD τ) arg11 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay6 x0 x2 x3 x1 a0) ∗ owns (c : Thread nD τ) arg11 fullShare (k1_pay1 (k1_pay7 x1 a1))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    refine (read_writes_whole _ _ zero2 _ _ _).trans ?_
    simp only [readAt_unread harg1 zero2, readAt_unread harg2 zero2, readAt_unread harg3 zero2, readAt_unread harg4 zero2,
      readAt_unread harg10 zero2, readAt_unread harg11 zero2]
  · iexists _; isplitr
    swap; · iexact HS1
    ipureintro
    refine (read_writes_whole _ _ zero2 _ _ _).trans ?_
    simp only [readAt_unread harg1 zero2, readAt_unread harg2 zero2, readAt_unread harg3 zero2, readAt_unread harg4 zero2,
      readAt_unread harg10 zero2, readAt_unread harg11 zero2]

set_option maxHeartbeats 1000000 in
/-- The last block: the body adds the block's pooled contribution to the two accumulators, which it finds at `a0`,
    `a1`, then reads them back, divides the sums by the counts clamped below at one, applies the two dense layers (the
    first followed by a rectifier) and the log-softmax, and stores the result into the result window, whatever that
    held. -/
theorem run1_C (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : ¬cond1_0 i) (hc1 : cond1_1 i)
    (x0 : Vec F S5000x16 .f32) (x1 : Vec F S5000x1 .i32) (x2 : Vec F S16x128 .f32) (x3 : Vec F S1x128 .f32)
    (x4 : Vec F S128x128 .f32) (x5 : Vec F S1x128 .f32) (x6 : Vec F S128x2 .f32) (x7 : Vec F S1x2 .f32)
    (a0 : Vec F S128x128 .f32) (a1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare a0 ∗ owns (c : Thread nD τ) arg11 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay2 (k1_pay6 x0 x2 x3 x1 a0) (k1_pay1 (k1_pay7 x1 a1)) x4 x5 x6 x7)
            ∗ owns (c : Thread nD τ) arg10 fullShare (k1_pay6 x0 x2 x3 x1 a0) ∗ owns (c : Thread nD τ) arg11 fullShare (k1_pay1 (k1_pay7 x1 a1))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]
  isplitl [HS0]
  · iexists _; isplitr
    swap; · iexact HS0
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]
  · iexists _; isplitr
    swap; · iexact HS1
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]

/-! ## The invariant and the proof data -/

/-- The region's invariant before position `n`: before the first block the class's (every scoped buffer that is no
    staging buffer at anything, the generator register at some state); afterwards the same with the two accumulators
    at what block `n - 1` left in them. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c n hn).1 ∗ owns (c : Thread nD τ) scM1_1 fullShare (accAt1 V c n hn).2) ∗ (∃ r, prngReg c r))

theorem Phi1_zero (c : Dev nD) (n : ℕ) (h : n ≤ cfg1.N) (hz : n = 0) : Phi1 V c n h = Pipeline.ΦA spec1 c := by
  subst hz; rfl

/-- After block `n`: the accumulators at that block's sums. -/
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c n hn).1 ∗ owns (c : Thread nD τ) scM1_1 fullShare (accAt1 V c n hn).2) ∗ (∃ r, prngReg c r)) := rfl

/-- Before a block that is not the first: the accumulators at what the block before left. -/
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c (n - 1) (by omega)).1 ∗ owns (c : Thread nD τ) scM1_1 fullShare (accAt1 V c (n - 1) (by omega)).2) ∗ (∃ r, prngReg c r)) := by
  cases n with
  | zero => exact absurd rfl hz
  | succ n => rfl

/-- Region 1's proof data on core `c`: the arrays as the region finds them; after the body each input's buffer at its
    block and the result window's at `out1_8` (consulted at the last block only: elsewhere the window is idle); the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

/-- The invariant at a block's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-! ## The inputs' staging buffers hold their blocks

An input's current staging buffer holds its block at every point, fetched there or not: where it is not fetched its
block index has not moved since the point before, and the body leaves the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## Entry and exit -/

/-- What the launch hands the region is the invariant before the first block. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After any block the invariant gives the class's back: what the accumulators hold is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A1, A2, A3, A4, A5, HS0, HS1⟩, Hg⟩
  isplitr [Hg]
  · isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

theorem hout1 (c : Dev nD) : (dat1 V c).Φ (Fin.last cfg1.N) ⊢ Pipeline.ΦA spec1 c :=
  Phi1_out V c _ (by rw [Fin.val_last]; have : cfg1.N = 20 := N_1; omega)

/-! ## The accumulators' recursion, case by case -/

/-- After the first block: that block's contribution over zeros. -/
theorem accAt1_first_1 (c : Dev nD) (t : Fin cfg1.N) (h0 : t.val = 0) :
    (accAt1 V c t.val t.isLt).1 = k1_pay6 (iblk1 V c 0 t) (iblk1 V c 2 t) (iblk1 V c 3 t) (iblk1 V c 1 t) k1_pay3 := by
  obtain ⟨n, hn⟩ := t
  cases n with
  | zero => rfl
  | succ n => exact absurd h0 (Nat.succ_ne_zero n)
theorem accAt1_first_2 (c : Dev nD) (t : Fin cfg1.N) (h0 : t.val = 0) :
    (accAt1 V c t.val t.isLt).2 = k1_pay1 (k1_pay7 (iblk1 V c 1 t) k1_pay4) := by
  obtain ⟨n, hn⟩ := t
  cases n with
  | zero => rfl
  | succ n => exact absurd h0 (Nat.succ_ne_zero n)

/-- After a later block: that block's contribution over what the block before left. -/
theorem accAt1_later_1 (c : Dev nD) (t : Fin cfg1.N) (h0 : t.val ≠ 0) :
    (accAt1 V c t.val t.isLt).1 = k1_pay6 (iblk1 V c 0 t) (iblk1 V c 2 t) (iblk1 V c 3 t) (iblk1 V c 1 t)
      (accAt1 V c (t.val - 1) (Nat.lt_of_le_of_lt (Nat.sub_le _ _) t.isLt)).1 := by
  obtain ⟨n, hn⟩ := t
  cases n with
  | zero => exact absurd rfl h0
  | succ n => rfl
theorem accAt1_later_2 (c : Dev nD) (t : Fin cfg1.N) (h0 : t.val ≠ 0) :
    (accAt1 V c t.val t.isLt).2 = k1_pay1 (k1_pay7 (iblk1 V c 1 t)
      (accAt1 V c (t.val - 1) (Nat.lt_of_le_of_lt (Nat.sub_le _ _) t.isLt)).2) := by
  obtain ⟨n, hn⟩ := t
  cases n with
  | zero => exact absurd rfl h0
  | succ n => rfl

/-! ## The body obligation -/

/-- What the body is called with at block `t`: the invariant, the tallies, each window's current staging buffer at
    what it holds there; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any block. Each input's buffer holds its block; the position of the block says which of the three
    cases runs; the invariant hands the body the accumulators (at anything at the first block, else at what the block
    before left) and takes them back at this block's sums; the result window is handed back untouched except at the
    last block, where it is left at `out1_8`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val = 0
  · have h1 : ¬cond1_1 (grid1.coords t) := fun h => by have := (hcond1_1 t).mp h; omega
    rw [Dat.leavesExact_idle (dat1 V c) 8 t (idleAt1_8 t h1) (noFlush1_8 t h1)]
    rw [accAt1_first_1 V c t h0, accAt1_first_2 V c t h0]
    rw [Phi1_castSucc V c t, Phi1_zero V c _ _ h0, PhiA1_eq]
    iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) _ _ _ _ _ _ _ _ _ _ _ _ _ _ _ _ _ _ _ _ _ _ ((hcond1_0 t).mpr h0) h1
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [A1 A2 A3 A4 A5 HS0 HS1 Hg]
    · isplitr [Hg]
      · isplitl [A1]; · iexact A1
        isplitl [A2]; · iexact A2
        isplitl [A3]; · iexact A3
        isplitl [A4]; · iexact A4
        isplitl [A5]; · iexact A5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond1_0 (grid1.coords t) := fun h => h0 ((hcond1_0 t).mp h)
    rw [accAt1_later_1 V c t h0, accAt1_later_2 V c t h0]
    rw [Phi1_castSucc V c t, Phi1_pos V c _ _ h0]
    by_cases h19 : t.val = 19
    · have hc1 : cond1_1 (grid1.coords t) := (hcond1_1 t).mpr h19
      rw [show (dat1 V c).leavesExact 8 t = owns (c : Thread nD τ) (ms1_8 t) fullShare ((dat1 V c).after 8 t) from by
        unfold Dat.leavesExact; rw [liveAt1_8 t hc1], after1_8]
      unfold out1_8
      rw [accAt1_later_1 V c t h0, accAt1_later_2 V c t h0]
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c (grid1.coords t) _ _ _ _ _ _ _ _ _ _ _ _ _ _ _ _ _ _ _ _ _ _ hc0 hc1
        (iblk1 V c 0 t) (iblk1 V c 1 t) (iblk1 V c 2 t) (iblk1 V c 3 t) (iblk1 V c 4 t) (iblk1 V c 5 t) (iblk1 V c 6 t) (iblk1 V c 7 t)
        (accAt1 V c (t.val - 1) (Nat.lt_of_le_of_lt (Nat.sub_le _ _) t.isLt)).1
        (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1_1 (grid1.coords t) := fun h => h19 ((hcond1_1 t).mp h)
      rw [Dat.leavesExact_idle (dat1 V c) 8 t (idleAt1_8 t hc1) (noFlush1_8 t hc1)]
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_B c (grid1.coords t) _ _ _ _ _ _ _ _ _ _ _ _ _ _ _ _ _ _ _ _ _ _ hc0 hc1
        (iblk1 V c 0 t) (iblk1 V c 1 t) (iblk1 V c 2 t) (iblk1 V c 3 t)
        (accAt1 V c (t.val - 1) (Nat.lt_of_le_of_lt (Nat.sub_le _ _) t.isLt)).1
        (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every block. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: its items — a stretch of host operations, kernel region 0, three stretches, kernel
  region 1 — composed in order over the buffer contents of KI/Fold.lean, each region entered from what the item
  before it left. Every weakly fair execution terminates, and every unscoped buffer ends at the last boundary's
  contents: the arguments as launched, the result at what region 1's last write-back leaves.
-/
import proofs.«423774_j65060164600241_3_alg».proof.Proof.K.Fold
import proofs.«423774_j65060164600241_3_alg».proof.Proof.K.Region0
import proofs.«423774_j65060164600241_3_alg».proof.Proof.K.Region1
import proofs.«423774_j65060164600241_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1's exit, and what each item leaves unchanged -/

/-- At region 1's exit: the result array at what the last point's write-back leaves, everything else as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A stretch of host operations leaves alone every buffer it does not write. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
/-- A region leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))

/-! ## The arguments end as launched -/

theorem W6_main_arg0 (c : Dev nD) : W6 m c (Proc.devRef .tc main_arg0) = m ((c.tc : Thread nD τ).loc main_arg0) :=
  (W6_of_ne m c main_arg0 (by decide)).trans <| (W5_of m c main_arg0 (by decide)).trans <| (W4_of m c main_arg0 (by decide)).trans <|
    (W3_of m c main_arg0 (by decide)).trans <| (W2_in m c 0 rfl).trans <| (W1_of m c main_arg0 (by decide)).trans rfl
theorem W6_main_arg1 (c : Dev nD) : W6 m c (Proc.devRef .tc main_arg1) = m ((c.tc : Thread nD τ).loc main_arg1) :=
  (W6_of_ne m c main_arg1 (by decide)).trans <| (W5_of m c main_arg1 (by decide)).trans <| (W4_of m c main_arg1 (by decide)).trans <|
    (W3_of m c main_arg1 (by decide)).trans <| (W2_of_ne m c main_arg1 (by decide)).trans <| (W1_of m c main_arg1 (by decide)).trans rfl
theorem W6_main_arg2 (c : Dev nD) : W6 m c (Proc.devRef .tc main_arg2) = m ((c.tc : Thread nD τ).loc main_arg2) :=
  (W6_of_ne m c main_arg2 (by decide)).trans <| (W5_of m c main_arg2 (by decide)).trans <| (W4_of m c main_arg2 (by decide)).trans <|
    (W3_of m c main_arg2 (by decide)).trans <| (W2_of_ne m c main_arg2 (by decide)).trans <| (W1_of m c main_arg2 (by decide)).trans rfl
theorem W6_main_arg3 (c : Dev nD) : W6 m c (Proc.devRef .tc main_arg3) = m ((c.tc : Thread nD τ).loc main_arg3) :=
  (W6_of_ne m c main_arg3 (by decide)).trans <| (W5_of m c main_arg3 (by decide)).trans <| (W4_of m c main_arg3 (by decide)).trans <|
    (W3_of m c main_arg3 (by decide)).trans <| (W2_in m c 1 rfl).trans <| (W1_of m c main_arg3 (by decide)).trans rfl
theorem W6_main_arg4 (c : Dev nD) : W6 m c (Proc.devRef .tc main_arg4) = m ((c.tc : Thread nD τ).loc main_arg4) :=
  (W6_of_ne m c main_arg4 (by decide)).trans <| (W5_of m c main_arg4 (by decide)).trans <| (W4_of m c main_arg4 (by decide)).trans <|
    (W3_of m c main_arg4 (by decide)).trans <| (W2_of_ne m c main_arg4 (by decide)).trans <| (W1_of m c main_arg4 (by decide)).trans rfl
theorem W6_main_arg5 (c : Dev nD) : W6 m c (Proc.devRef .tc main_arg5) = m ((c.tc : Thread nD τ).loc main_arg5) :=
  (W6_in m c 2 rfl).trans <| (W5_of m c main_arg5 (by decide)).trans <| (W4_of m c main_arg5 (by decide)).trans <|
    (W3_of m c main_arg5 (by decide)).trans <| (W2_of_ne m c main_arg5 (by decide)).trans <| (W1_of m c main_arg5 (by decide)).trans rfl
theorem W6_main_arg6 (c : Dev nD) : W6 m c (Proc.devRef .tc main_arg6) = m ((c.tc : Thread nD τ).loc main_arg6) :=
  (W6_of_ne m c main_arg6 (by decide)).trans <| (W5_of m c main_arg6 (by decide)).trans <| (W4_of m c main_arg6 (by decide)).trans <|
    (W3_of m c main_arg6 (by decide)).trans <| (W2_of_ne m c main_arg6 (by decide)).trans <| (W1_of m c main_arg6 (by decide)).trans rfl
theorem W6_main_arg7 (c : Dev nD) : W6 m c (Proc.devRef .tc main_arg7) = m ((c.tc : Thread nD τ).loc main_arg7) :=
  (W6_in m c 4 rfl).trans <| (W5_of m c main_arg7 (by decide)).trans <| (W4_of m c main_arg7 (by decide)).trans <|
    (W3_of m c main_arg7 (by decide)).trans <| (W2_of_ne m c main_arg7 (by decide)).trans <| (W1_of m c main_arg7 (by decide)).trans rfl
theorem W6_main_arg8 (c : Dev nD) : W6 m c (Proc.devRef .tc main_arg8) = m ((c.tc : Thread nD τ).loc main_arg8) :=
  (W6_of_ne m c main_arg8 (by decide)).trans <| (W5_of m c main_arg8 (by decide)).trans <| (W4_of m c main_arg8 (by decide)).trans <|
    (W3_of m c main_arg8 (by decide)).trans <| (W2_of_ne m c main_arg8 (by decide)).trans <| (W1_of m c main_arg8 (by decide)).trans rfl
theorem W6_main_arg9 (c : Dev nD) : W6 m c (Proc.devRef .tc main_arg9) = m ((c.tc : Thread nD τ).loc main_arg9) :=
  (W6_in m c 6 rfl).trans <| (W5_of m c main_arg9 (by decide)).trans <| (W4_of m c main_arg9 (by decide)).trans <|
    (W3_of m c main_arg9 (by decide)).trans <| (W2_of_ne m c main_arg9 (by decide)).trans <| (W1_of m c main_arg9 (by decide)).trans rfl
theorem W6_main_arg10 (c : Dev nD) : W6 m c (Proc.devRef .tc main_arg10) = m ((c.tc : Thread nD τ).loc main_arg10) :=
  (W6_of_ne m c main_arg10 (by decide)).trans <| (W5_of m c main_arg10 (by decide)).trans <| (W4_of m c main_arg10 (by decide)).trans <|
    (W3_of m c main_arg10 (by decide)).trans <| (W2_of_ne m c main_arg10 (by decide)).trans <| (W1_of m c main_arg10 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, entered from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W6 m c) ∗ ∃ r, prngReg c r)

/-! ## The regions as items -/

set_option backward.isDefEq.respectTransparency.types false in
/-- Region 0 over the thread state: entered from every unscoped buffer at its entry contents, left with its arrays
    at what the pipeline's write-backs leave and every other buffer untouched; the generator register passes through
    the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (show Pipeline.ΦA spec0 c ⊢ (pdats m 0 c).Φ 0 from .rfl)
  hout c := by
    rw [Pipeline.ownSems0_none]
    have h : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (show (pdats m 0 c).Φ (Fin.last _) ⊢ Pipeline.ΦA spec0 c from .rfl).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its arrays
    at what the pipeline's write-backs leave and every other buffer untouched; the generator register passes through
    the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m 1 c).Φ 0 from hin1 (V5 m) c)
  hout c := by
    rw [Pipeline.ownSems0_none]
    have h : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()) ] from rfl]
  rfl

set_option backward.isDefEq.respectTransparency.types false in
/-- From any memory with zero counters every weakly fair execution of the program terminates, nothing faulting, and
    every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩)
    (run_all m ρ)

/-- The result array ends at what region 1's proof data say its last write-back leaves. -/
theorem run_result : θ_run defs (onTc (τ := τ) (main (F := F))) ⟨m, fun _ => 0, ρ⟩ (fun r => ∀ c : Dev nD,
      r.2.mem ((c.tc : Thread nD τ).loc main_v67) = (dat1 (V5 m) c).arrAt 8 cfg1.N) :=
  (θ_run defs _ _).mono (fun r h c => (h c _ (mem_uc main_v67 (by decide))).trans (W6_arr m c 8)) (run_all m ρ)

end Cert.Kernel.Hand

end
-- ==== Proof.KI.Defs.lean ====
/-
  Region-level vocabulary for the two kernel regions of the program, at a parameter `V` (the TensorCore's buffer
  contents when a region is entered).

  Region 0 multiplies each block of 10000 rows of the node features by the 128×16 weight matrix. Region 1 walks the
  100000 rows of the second layer's aggregated features in 20 blocks of 5000 rows: at every block it adds to a 128×128
  accumulator (and a 128×1 counter) the one-hot pooling of that block's activated rows by graph id; at the last block
  it divides, applies the two dense layers and the log-softmax. What the accumulators hold after block `n` is the
  recursion `accAt1`; what the last block stores into the result is `out1_8`.
-/
import proofs.«423774_j65060164600241_3_alg».proof.Proof.Gen.KernelIdeal.Launch
import proofs.«423774_j65060164600241_3_alg».proof.Proof.Gen.KernelIdeal.Skeleton
import proofs.«423774_j65060164600241_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 10000×128 block of features, the whole 128×16 weight matrix, the whole 10000×16 product block. -/
abbrev r0_x : Rect S10000x128 := Rect.unit (s := S10000x128) ![0, 0] S10000x128.size inb_S10000x128_S10000x128_0_0
abbrev r0_w : Rect S128x16 := Rect.unit (s := S128x16) ![0, 0] S128x16.size inb_S128x16_S128x16_0_0
abbrev r0_o : Rect S10000x16 := Rect.unit (s := S10000x16) ![0, 0] S10000x16.size inb_S10000x16_S10000x16_0_0

/-- What region 0's body leaves in the product window's buffer: its one store, of the product of the two loaded blocks. -/
def out0_2 (x0 : Vec F S10000x128 .f32) (x1 : Vec F S128x16 .f32) : Vec F S10000x16 .bf16 :=
  View.canon [⟨r0_o, k0_pay1 (View.ld x0 r0_x) (View.ld x1 r0_w)⟩]

/-- Region 0's proof data on core `c`: the arrays as the region finds them; after the body each input's buffer at its
    block and the product window's at `out0_2` of the two; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pooled sums (128×128) and counts (128×1) after block `n`: the first block adds its contribution to zeros, every
    later block to what the block before left. -/
def accAt1 (c : Dev nD) : (n : ℕ) → n < cfg1.N → Vec F S128x128 .f32 × Vec F S128x1 .f32
  | 0, hn =>
    (k1_pay6 (iblk1 V c 0 ⟨0, hn⟩) (iblk1 V c 2 ⟨0, hn⟩) (iblk1 V c 3 ⟨0, hn⟩) (iblk1 V c 1 ⟨0, hn⟩) k1_pay3,
     k1_pay1 (k1_pay7 (iblk1 V c 1 ⟨0, hn⟩) k1_pay4))
  | n + 1, hn =>
    (k1_pay6 (iblk1 V c 0 ⟨n + 1, hn⟩) (iblk1 V c 2 ⟨n + 1, hn⟩) (iblk1 V c 3 ⟨n + 1, hn⟩) (iblk1 V c 1 ⟨n + 1, hn⟩)
        (accAt1 c n (Nat.lt_of_succ_lt hn)).1,
     k1_pay1 (k1_pay7 (iblk1 V c 1 ⟨n + 1, hn⟩) (accAt1 c n (Nat.lt_of_succ_lt hn)).2))

/-- What the body stores into the result window at point `t` when it stores there (the last point): the pooled mean
    through the two dense layers and the log-softmax, from the accumulators as this point leaves them. -/
def out1_8 (c : Dev nD) (t : Fin cfg1.N) : Vec F S128x2 .f32 :=
  k1_pay2 (accAt1 V c t.val t.isLt).1 (accAt1 V c t.val t.isLt).2 (iblk1 V c 4 t) (iblk1 V c 5 t) (iblk1 V c 6 t) (iblk1 V c 7 t)

end Cert.KernelIdeal.Hand

end
-- ==== Proof.KI.Fold.lean ====
/-
  The TensorCore's buffer contents at the boundaries between the items of the program: the launch memory, then each
  stretch of host operations applied in order, and at a kernel region's exit its arrays at what the pipeline's
  write-backs leave (every other buffer as the region found it).
-/
import proofs.«423774_j65060164600241_3_alg».proof.Proof.KI.Defs

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the blocks' write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the three stretches between the regions (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

end Cert.KernelIdeal.Hand

end
-- ==== Proof.KI.Region0.lean ====
/-
  Region 0 of the program, at a parameter `V` (the TensorCore's buffer contents when the region is entered): the body
  obligation of its pipeline, for any float family.

  The region walks the node features in blocks of 10000 rows. At every point its body reads the current 10000×128
  block of features and the 128×16 weight matrix, multiplies them (both rounded to bf16, accumulated in f32 from zero),
  rounds the product to bf16 and stores it over the whole 10000×16 product block. The features' window moves to a new
  block at every point; the weights' window has one block, copied in at the first point of a walk and found in place at
  the others. So at every point each input's staging buffer holds that input's block (`before0_0`, `before0_1`), the
  body's triple (`sound_kernel0`) applies at those two blocks, and it leaves the product's buffer at `out0_2` of
  them, which is what the proof data `dat0` records (`body_obligation0`).
-/
import proofs.«423774_j65060164600241_3_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's staging buffer holds that window's block at every point, whether or not the block was copied in
    there: where it was not, the block index is the one of the point before, whose block the body left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- The body's one store of the product block is the whole 10000×16 rectangle, so every element of the block lies in it. -/
theorem cover0_2 (p0 : Vec F S10000x16 .bf16) (y : S10000x16.Idx) :
    ∃ pc ∈ ([⟨r0_o, p0⟩] : List (View.Piece (Elt F) S10000x16 .bf16)), y ∈ pc.1.set :=
  View.cover_of_tiled [⟨r0_o, p0⟩] S10000x16.size (by rfl) y

set_option maxHeartbeats 1000000 in
/-- The body's triple. On whole memrefs, the features' holding `x0`, the weights' holding `x1` and the product's
    holding anything, the body reads the two input blocks whole, reads the product block (a value it never uses), and
    stores over the whole product block the product of the two blocks read, rounded to bf16. Both inputs are left as
    found, and the product memref reads `out0_2 x0 x1`: its single store covers the block, so nothing of what it held
    before remains. -/
theorem sound_kernel0 (c : Dev nD) (E : Set ℕ) (i : grid0.Coords)
    (arg1 : Memref sig .tc .vmem S10000x128 .f32) (harg1 : arg1.IsWhole)
    (arg2 : Memref sig .tc .vmem S128x16 .f32) (harg2 : arg2.IsWhole)
    (arg3 : Memref sig .tc .vmem S10000x16 .bf16) (harg3 : arg3.IsWhole)
    (x0 : Vec F S10000x128 .f32) (x1 : Vec F S128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mm1_kernel i arg1 harg1 arg2 harg2 arg3 harg3) K := by
  simp only [cc0__mm1_kernel_eq_skeleton]; unfold cc0__mm1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is entered with at point `t`: the invariant, the core's debt, and the three windows' current staging
    buffers, each at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks there (`before0_0`, `before0_1`), the product's
    holds something, so the body's triple applies at those two blocks; the invariant and the debt are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point: its conjunction over the three windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1, block by block: its proof data and its body obligation, at a parameter `V` (the buffer contents when the
  region is entered) and at any float family.

  The region walks the 100000 aggregated rows in 20 blocks of 5000. Two accumulators live beside the staged windows and
  are carried from block to block: 128×128 pooled sums and 128×1 counts. At the first block the body zeroes them and adds
  that block's one-hot pooling; at every later block it adds to what the block before left; at the last block it also
  reads them back, divides the sums by the counts clamped below at one, applies the two dense layers (the first followed
  by a rectifier) and the log-softmax, and stores the 128×2 result.
  So the body has three cases, told apart by the block's position alone:

    first block      zero, then accumulate;
    a middle block   accumulate;
    last block       accumulate, then finalize and store the result window.

  What the accumulators hold after block `n` is `accAt1 V c n`; what the last block stores is `out1_8 V c t`. The
  result window is idle off the last block: there the body hands its buffer back as found and the pipeline does not
  write it back. The invariant carried between blocks owns the two accumulators at `accAt1` of the block before, every
  other scoped buffer of the core at anything, and the generator register at some state.

  Per case the body is run once on arbitrary whole staging memrefs holding arbitrary blocks (`run1_A`, `run1_B`,
  `run1_C`): every store goes through the whole-buffer rectangle, so a buffer reads afterwards as its last store's
  payload, and a load after a store into the same accumulator reads that store. `sound_body1` picks the case from the
  closed forms of the two conditions and threads the invariant through; `body_obligation1` is the obligation as the
  pipeline rule states it.
-/
import proofs.«423774_j65060164600241_3_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form -/

/-- The condition of the first conditional (the accumulators are zeroed under it), from the grid coordinate. -/
abbrev cond1_0 (i : grid1.Coords) : Prop :=
  (Scalar.cmpi .ne (Scalar.extui (Scalar.cmpi .eq (BitVec.ofNat 32 (i 0).val) 0#32)) 0#32) = 1#1
/-- It holds at the first block only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (the result is computed and stored under it). -/
abbrev cond1_1 (i : grid1.Coords) : Prop := k1_cond2 i = 1#1
/-- It holds at the last block only. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Off the last block the result window is idle, -/
theorem idleAt1_8 : ∀ t : Fin cfg1.N, ¬cond1_1 (grid1.coords t) → cfg1.idle 8 (grid1.coords t) = true := by decide +kernel
/-- and is not written back; -/
theorem noFlush1_8 : ∀ t : Fin cfg1.N, ¬cond1_1 (grid1.coords t) → (cfg1.win 8).flush t = false := by decide +kernel
/-- at the last block it is live. -/
theorem liveAt1_8 : ∀ t : Fin cfg1.N, cond1_1 (grid1.coords t) → cfg1.idle 8 (grid1.coords t) = false := by decide +kernel

/-! ## The memrefs the body is called with -/

abbrev ms1_0 (t : Fin cfg1.N) : Memref sig .tc .vmem S5000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x2 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S128x128 .f32 := Memref.whole cc1_scratch0
abbrev scM1_1 : Memref sig .tc .vmem S128x1 .f32 := Memref.whole cc1_scratch1

/-- The class invariant with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## Whole-buffer stores and loads -/

/-- The whole-buffer rectangle of a rank-2 shape starts at zero on both axes. -/
theorem zero2 : (![0, 0] : Fin 2 → ℕ) = fun _ => 0 := funext fun a => by fin_cases a <;> rfl

/-- A buffer whose last store went through the whole-shape rectangle reads as that store's payload, whatever it
    held and whatever was stored before. -/
theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (Or.inl rfl), View.mem_set_unit_zero h inb y⟩).trans
    (View.canon_cons_unit_zero h inb w L)

/-- A load through the whole-shape rectangle of a whole memref reads its contents. -/
theorem readAt_unread {sp : Space} {S : Shape} {e : EltTy} {M : Memref sig .tc sp S e} (hM : M.IsWhole)
    {off : Fin S.rank → ℕ} (h : off = fun _ => 0) (inb : ∀ a, off a + S.size a ≤ S.size a) (X : S.Idx → Elt F e) :
    M.view.readAt (Elt F) (Rect.unit off S.size inb).toLoadRect (hM.unread X) = X := by
  rw [View.readAt_eq_ld, hM.read_unread]; exact View.ld_unit_zero h inb X

set_option maxHeartbeats 1000000 in
/-- The first block: the body zeroes the two accumulators, whatever they held, and adds the block's pooled
    contribution; it touches nothing else. -/
theorem run1_A (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : cond1_0 i) (hc1 : ¬cond1_1 i)
    (x0 : Vec F S5000x16 .f32) (x1 : Vec F S5000x1 .i32) (x2 : Vec F S16x128 .f32) (x3 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay6 x0 x2 x3 x1 k1_pay3) ∗ owns (c : Thread nD τ) arg11 fullShare (k1_pay1 (k1_pay7 x1 k1_pay4))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d0, %fs0, -, HS0⟩, ⟨%d1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    refine (read_writes_whole _ _ zero2 _ _ _).trans ?_
    sl_unfold_words
    simp only [readAt_unread harg1 zero2, readAt_unread harg2 zero2, readAt_unread harg3 zero2, readAt_unread harg4 zero2, View.readCov_unit_zero (S := S128x128) _ zero2]
  · iexists _; isplitr
    swap; · iexact HS1
    ipureintro
    refine (read_writes_whole _ _ zero2 _ _ _).trans ?_
    sl_unfold_words
    simp only [readAt_unread harg1 zero2, readAt_unread harg2 zero2, readAt_unread harg3 zero2, readAt_unread harg4 zero2, View.readCov_unit_zero (S := S128x1) _ zero2]

set_option maxHeartbeats 1000000 in
/-- A block that is neither the first nor the last: the body adds the block's pooled contribution to the two
    accumulators, which it finds at `a0`, `a1`, and touches nothing else. -/
theorem run1_B (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : ¬cond1_0 i) (hc1 : ¬cond1_1 i)
    (x0 : Vec F S5000x16 .f32) (x1 : Vec F S5000x1 .i32) (x2 : Vec F S16x128 .f32) (x3 : Vec F S1x128 .f32)
    (a0 : Vec F S128x128 .f32) (a1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg10 fullShare a0 ∗ owns (c : Thread nD τ) arg11 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay6 x0 x2 x3 x1 a0) ∗ owns (c : Thread nD τ) arg11 fullShare (k1_pay1 (k1_pay7 x1 a1))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    refine (read_writes_whole _ _ zero2 _ _ _).trans ?_
    simp only [readAt_unread harg1 zero2, readAt_unread harg2 zero2, readAt_unread harg3 zero2, readAt_unread harg4 zero2,
      readAt_unread harg10 zero2, readAt_unread harg11 zero2]
  · iexists _; isplitr
    swap; · iexact HS1
    ipureintro
    refine (read_writes_whole _ _ zero2 _ _ _).trans ?_
    simp only [readAt_unread harg1 zero2, readAt_unread harg2 zero2, readAt_unread harg3 zero2, readAt_unread harg4 zero2,
      readAt_unread harg10 zero2, readAt_unread harg11 zero2]

set_option maxHeartbeats 1000000 in
/-- The last block: the body adds the block's pooled contribution to the two accumulators, which it finds at `a0`,
    `a1`, then reads them back, divides the sums by the counts clamped below at one, applies the two dense layers (the
    first followed by a rectifier) and the log-softmax, and stores the result into the result window, whatever that
    held. -/
theorem run1_C (c : Dev nD) (i : grid1.Coords) (arg1 : Memref sig .tc .vmem S5000x16 .f32) (harg1 : arg1.IsWhole) (arg2 : Memref sig .tc .vmem S5000x1 .i32) (harg2 : arg2.IsWhole) (arg3 : Memref sig .tc .vmem S16x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x1 .f32) (harg11 : arg11.IsWhole) (hc0 : ¬cond1_0 i) (hc1 : cond1_1 i)
    (x0 : Vec F S5000x16 .f32) (x1 : Vec F S5000x1 .i32) (x2 : Vec F S16x128 .f32) (x3 : Vec F S1x128 .f32)
    (x4 : Vec F S128x128 .f32) (x5 : Vec F S1x128 .f32) (x6 : Vec F S128x2 .f32) (x7 : Vec F S1x2 .f32)
    (a0 : Vec F S128x128 .f32) (a1 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare a0 ∗ owns (c : Thread nD τ) arg11 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay2 (k1_pay6 x0 x2 x3 x1 a0) (k1_pay1 (k1_pay7 x1 a1)) x4 x5 x6 x7)
            ∗ owns (c : Thread nD τ) arg10 fullShare (k1_pay6 x0 x2 x3 x1 a0) ∗ owns (c : Thread nD τ) arg11 fullShare (k1_pay1 (k1_pay7 x1 a1))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hfs0; obtain rfl := harg11.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]
  isplitl [HS0]
  · iexists _; isplitr
    swap; · iexact HS0
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]
  · iexists _; isplitr
    swap; · iexact HS1
    ipureintro
    refine (read_writes_whole _ _ zero2 _ _ _).trans ?_
    sl_unfold_words
    simp only [readAt_unread harg1 zero2, readAt_unread harg2 zero2, readAt_unread harg3 zero2, readAt_unread harg4 zero2,
      readAt_unread harg5 zero2, readAt_unread harg6 zero2, readAt_unread harg7 zero2, readAt_unread harg8 zero2,
      readAt_unread harg10 zero2, readAt_unread harg11 zero2,
      View.readCov_unit_zero (S := S128x128) _ zero2, View.readCov_unit_zero (S := S128x1) _ zero2]

/-! ## The invariant and the proof data -/

/-- The region's invariant before position `n`: before the first block the class's (every scoped buffer that is no
    staging buffer at anything, the generator register at some state); afterwards the same with the two accumulators
    at what block `n - 1` left in them. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c n hn).1 ∗ owns (c : Thread nD τ) scM1_1 fullShare (accAt1 V c n hn).2) ∗ (∃ r, prngReg c r))

theorem Phi1_zero (c : Dev nD) (n : ℕ) (h : n ≤ cfg1.N) (hz : n = 0) : Phi1 V c n h = Pipeline.ΦA spec1 c := by
  subst hz; rfl

/-- After block `n`: the accumulators at that block's sums. -/
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c n hn).1 ∗ owns (c : Thread nD τ) scM1_1 fullShare (accAt1 V c n hn).2) ∗ (∃ r, prngReg c r)) := rfl

/-- Before a block that is not the first: the accumulators at what the block before left. -/
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare (accAt1 V c (n - 1) (by omega)).1 ∗ owns (c : Thread nD τ) scM1_1 fullShare (accAt1 V c (n - 1) (by omega)).2) ∗ (∃ r, prngReg c r)) := by
  cases n with
  | zero => exact absurd rfl hz
  | succ n => rfl

/-- Region 1's proof data on core `c`: the arrays as the region finds them; after the body each input's buffer at its
    block and the result window's at `out1_8` (consulted at the last block only: elsewhere the window is idle); the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

/-- The invariant at a block's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-! ## The inputs' staging buffers hold their blocks

An input's current staging buffer holds its block at every point, fetched there or not: where it is not fetched its
block index has not moved since the point before, and the body leaves the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## Entry and exit -/

/-- What the launch hands the region is the invariant before the first block. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After any block the invariant gives the class's back: what the accumulators hold is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A1, A2, A3, A4, A5, HS0, HS1⟩, Hg⟩
  isplitr [Hg]
  · isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

theorem hout1 (c : Dev nD) : (dat1 V c).Φ (Fin.last cfg1.N) ⊢ Pipeline.ΦA spec1 c :=
  Phi1_out V c _ (by rw [Fin.val_last]; have : cfg1.N = 20 := N_1; omega)

/-! ## The accumulators' recursion, case by case -/

/-- After the first block: that block's contribution over zeros. -/
theorem accAt1_first_1 (c : Dev nD) (t : Fin cfg1.N) (h0 : t.val = 0) :
    (accAt1 V c t.val t.isLt).1 = k1_pay6 (iblk1 V c 0 t) (iblk1 V c 2 t) (iblk1 V c 3 t) (iblk1 V c 1 t) k1_pay3 := by
  obtain ⟨n, hn⟩ := t
  cases n with
  | zero => rfl
  | succ n => exact absurd h0 (Nat.succ_ne_zero n)
theorem accAt1_first_2 (c : Dev nD) (t : Fin cfg1.N) (h0 : t.val = 0) :
    (accAt1 V c t.val t.isLt).2 = k1_pay1 (k1_pay7 (iblk1 V c 1 t) k1_pay4) := by
  obtain ⟨n, hn⟩ := t
  cases n with
  | zero => rfl
  | succ n => exact absurd h0 (Nat.succ_ne_zero n)

/-- After a later block: that block's contribution over what the block before left. -/
theorem accAt1_later_1 (c : Dev nD) (t : Fin cfg1.N) (h0 : t.val ≠ 0) :
    (accAt1 V c t.val t.isLt).1 = k1_pay6 (iblk1 V c 0 t) (iblk1 V c 2 t) (iblk1 V c 3 t) (iblk1 V c 1 t)
      (accAt1 V c (t.val - 1) (Nat.lt_of_le_of_lt (Nat.sub_le _ _) t.isLt)).1 := by
  obtain ⟨n, hn⟩ := t
  cases n with
  | zero => exact absurd rfl h0
  | succ n => rfl
theorem accAt1_later_2 (c : Dev nD) (t : Fin cfg1.N) (h0 : t.val ≠ 0) :
    (accAt1 V c t.val t.isLt).2 = k1_pay1 (k1_pay7 (iblk1 V c 1 t)
      (accAt1 V c (t.val - 1) (Nat.lt_of_le_of_lt (Nat.sub_le _ _) t.isLt)).2) := by
  obtain ⟨n, hn⟩ := t
  cases n with
  | zero => exact absurd rfl h0
  | succ n => rfl

/-! ## The body obligation -/

/-- What the body is called with at block `t`: the invariant, the tallies, each window's current staging buffer at
    what it holds there; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any block. Each input's buffer holds its block; the position of the block says which of the three
    cases runs; the invariant hands the body the accumulators (at anything at the first block, else at what the block
    before left) and takes them back at this block's sums; the result window is handed back untouched except at the
    last block, where it is left at `out1_8`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val = 0
  · have h1 : ¬cond1_1 (grid1.coords t) := fun h => by have := (hcond1_1 t).mp h; omega
    rw [Dat.leavesExact_idle (dat1 V c) 8 t (idleAt1_8 t h1) (noFlush1_8 t h1)]
    rw [accAt1_first_1 V c t h0, accAt1_first_2 V c t h0]
    rw [Phi1_castSucc V c t, Phi1_zero V c _ _ h0, PhiA1_eq]
    iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) _ _ _ _ _ _ _ _ _ _ _ _ _ _ _ _ _ _ _ _ _ _ ((hcond1_0 t).mpr h0) h1
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [A1 A2 A3 A4 A5 HS0 HS1 Hg]
    · isplitr [Hg]
      · isplitl [A1]; · iexact A1
        isplitl [A2]; · iexact A2
        isplitl [A3]; · iexact A3
        isplitl [A4]; · iexact A4
        isplitl [A5]; · iexact A5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond1_0 (grid1.coords t) := fun h => h0 ((hcond1_0 t).mp h)
    rw [accAt1_later_1 V c t h0, accAt1_later_2 V c t h0]
    rw [Phi1_castSucc V c t, Phi1_pos V c _ _ h0]
    by_cases h19 : t.val = 19
    · have hc1 : cond1_1 (grid1.coords t) := (hcond1_1 t).mpr h19
      rw [show (dat1 V c).leavesExact 8 t = owns (c : Thread nD τ) (ms1_8 t) fullShare ((dat1 V c).after 8 t) from by
        unfold Dat.leavesExact; rw [liveAt1_8 t hc1], after1_8]
      unfold out1_8
      rw [accAt1_later_1 V c t h0, accAt1_later_2 V c t h0]
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c (grid1.coords t) _ _ _ _ _ _ _ _ _ _ _ _ _ _ _ _ _ _ _ _ _ _ hc0 hc1
        (iblk1 V c 0 t) (iblk1 V c 1 t) (iblk1 V c 2 t) (iblk1 V c 3 t) (iblk1 V c 4 t) (iblk1 V c 5 t) (iblk1 V c 6 t) (iblk1 V c 7 t)
        (accAt1 V c (t.val - 1) (Nat.lt_of_le_of_lt (Nat.sub_le _ _) t.isLt)).1
        (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1_1 (grid1.coords t) := fun h => h19 ((hcond1_1 t).mp h)
      rw [Dat.leavesExact_idle (dat1 V c) 8 t (idleAt1_8 t hc1) (noFlush1_8 t hc1)]
      iintro ⟨⟨⟨A1, A2, A3, A4, A5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_B c (grid1.coords t) _ _ _ _ _ _ _ _ _ _ _ _ _ _ _ _ _ _ _ _ _ _ hc0 hc1
        (iblk1 V c 0 t) (iblk1 V c 1 t) (iblk1 V c 2 t) (iblk1 V c 3 t)
        (accAt1 V c (t.val - 1) (Nat.lt_of_le_of_lt (Nat.sub_le _ _) t.isLt)).1
        (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [A1 A2 A3 A4 A5 HS0 HS1 Hg]
      · isplitr [Hg]
        · isplitl [A1]; · iexact A1
          isplitl [A2]; · iexact A2
          isplitl [A3]; · iexact A3
          isplitl [A4]; · iexact A4
          isplitl [A5]; · iexact A5
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every block. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: its items — a stretch of host operations, kernel region 0, three stretches, kernel
  region 1 — composed in order over the buffer contents of KI/Fold.lean, each region entered from what the item
  before it left. Every weakly fair execution terminates, and every unscoped buffer ends at the last boundary's
  contents: the arguments as launched, the result at what region 1's last write-back leaves.
-/
import proofs.«423774_j65060164600241_3_alg».proof.Proof.KI.Fold
import proofs.«423774_j65060164600241_3_alg».proof.Proof.KI.Region0
import proofs.«423774_j65060164600241_3_alg».proof.Proof.KI.Region1
import proofs.«423774_j65060164600241_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1's exit, and what each item leaves unchanged -/

/-- At region 1's exit: the result array at what the last point's write-back leaves, everything else as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A stretch of host operations leaves alone every buffer it does not write. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
/-- A region leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))

/-! ## The arguments end as launched -/

theorem W6_main_arg0 (c : Dev nD) : W6 m c (Proc.devRef .tc main_arg0) = m ((c.tc : Thread nD τ).loc main_arg0) :=
  (W6_of_ne m c main_arg0 (by decide)).trans <| (W5_of m c main_arg0 (by decide)).trans <| (W4_of m c main_arg0 (by decide)).trans <|
    (W3_of m c main_arg0 (by decide)).trans <| (W2_in m c 0 rfl).trans <| (W1_of m c main_arg0 (by decide)).trans rfl
theorem W6_main_arg1 (c : Dev nD) : W6 m c (Proc.devRef .tc main_arg1) = m ((c.tc : Thread nD τ).loc main_arg1) :=
  (W6_of_ne m c main_arg1 (by decide)).trans <| (W5_of m c main_arg1 (by decide)).trans <| (W4_of m c main_arg1 (by decide)).trans <|
    (W3_of m c main_arg1 (by decide)).trans <| (W2_of_ne m c main_arg1 (by decide)).trans <| (W1_of m c main_arg1 (by decide)).trans rfl
theorem W6_main_arg2 (c : Dev nD) : W6 m c (Proc.devRef .tc main_arg2) = m ((c.tc : Thread nD τ).loc main_arg2) :=
  (W6_of_ne m c main_arg2 (by decide)).trans <| (W5_of m c main_arg2 (by decide)).trans <| (W4_of m c main_arg2 (by decide)).trans <|
    (W3_of m c main_arg2 (by decide)).trans <| (W2_of_ne m c main_arg2 (by decide)).trans <| (W1_of m c main_arg2 (by decide)).trans rfl
theorem W6_main_arg3 (c : Dev nD) : W6 m c (Proc.devRef .tc main_arg3) = m ((c.tc : Thread nD τ).loc main_arg3) :=
  (W6_of_ne m c main_arg3 (by decide)).trans <| (W5_of m c main_arg3 (by decide)).trans <| (W4_of m c main_arg3 (by decide)).trans <|
    (W3_of m c main_arg3 (by decide)).trans <| (W2_in m c 1 rfl).trans <| (W1_of m c main_arg3 (by decide)).trans rfl
theorem W6_main_arg4 (c : Dev nD) : W6 m c (Proc.devRef .tc main_arg4) = m ((c.tc : Thread nD τ).loc main_arg4) :=
  (W6_of_ne m c main_arg4 (by decide)).trans <| (W5_of m c main_arg4 (by decide)).trans <| (W4_of m c main_arg4 (by decide)).trans <|
    (W3_of m c main_arg4 (by decide)).trans <| (W2_of_ne m c main_arg4 (by decide)).trans <| (W1_of m c main_arg4 (by decide)).trans rfl
theorem W6_main_arg5 (c : Dev nD) : W6 m c (Proc.devRef .tc main_arg5) = m ((c.tc : Thread nD τ).loc main_arg5) :=
  (W6_in m c 2 rfl).trans <| (W5_of m c main_arg5 (by decide)).trans <| (W4_of m c main_arg5 (by decide)).trans <|
    (W3_of m c main_arg5 (by decide)).trans <| (W2_of_ne m c main_arg5 (by decide)).trans <| (W1_of m c main_arg5 (by decide)).trans rfl
theorem W6_main_arg6 (c : Dev nD) : W6 m c (Proc.devRef .tc main_arg6) = m ((c.tc : Thread nD τ).loc main_arg6) :=
  (W6_of_ne m c main_arg6 (by decide)).trans <| (W5_of m c main_arg6 (by decide)).trans <| (W4_of m c main_arg6 (by decide)).trans <|
    (W3_of m c main_arg6 (by decide)).trans <| (W2_of_ne m c main_arg6 (by decide)).trans <| (W1_of m c main_arg6 (by decide)).trans rfl
theorem W6_main_arg7 (c : Dev nD) : W6 m c (Proc.devRef .tc main_arg7) = m ((c.tc : Thread nD τ).loc main_arg7) :=
  (W6_in m c 4 rfl).trans <| (W5_of m c main_arg7 (by decide)).trans <| (W4_of m c main_arg7 (by decide)).trans <|
    (W3_of m c main_arg7 (by decide)).trans <| (W2_of_ne m c main_arg7 (by decide)).trans <| (W1_of m c main_arg7 (by decide)).trans rfl
theorem W6_main_arg8 (c : Dev nD) : W6 m c (Proc.devRef .tc main_arg8) = m ((c.tc : Thread nD τ).loc main_arg8) :=
  (W6_of_ne m c main_arg8 (by decide)).trans <| (W5_of m c main_arg8 (by decide)).trans <| (W4_of m c main_arg8 (by decide)).trans <|
    (W3_of m c main_arg8 (by decide)).trans <| (W2_of_ne m c main_arg8 (by decide)).trans <| (W1_of m c main_arg8 (by decide)).trans rfl
theorem W6_main_arg9 (c : Dev nD) : W6 m c (Proc.devRef .tc main_arg9) = m ((c.tc : Thread nD τ).loc main_arg9) :=
  (W6_in m c 6 rfl).trans <| (W5_of m c main_arg9 (by decide)).trans <| (W4_of m c main_arg9 (by decide)).trans <|
    (W3_of m c main_arg9 (by decide)).trans <| (W2_of_ne m c main_arg9 (by decide)).trans <| (W1_of m c main_arg9 (by decide)).trans rfl
theorem W6_main_arg10 (c : Dev nD) : W6 m c (Proc.devRef .tc main_arg10) = m ((c.tc : Thread nD τ).loc main_arg10) :=
  (W6_of_ne m c main_arg10 (by decide)).trans <| (W5_of m c main_arg10 (by decide)).trans <| (W4_of m c main_arg10 (by decide)).trans <|
    (W3_of m c main_arg10 (by decide)).trans <| (W2_of_ne m c main_arg10 (by decide)).trans <| (W1_of m c main_arg10 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, entered from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W6 m c) ∗ ∃ r, prngReg c r)

/-! ## The regions as items -/

set_option backward.isDefEq.respectTransparency.types false in
/-- Region 0 over the thread state: entered from every unscoped buffer at its entry contents, left with its arrays
    at what the pipeline's write-backs leave and every other buffer untouched; the generator register passes through
    the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (show Pipeline.ΦA spec0 c ⊢ (pdats m 0 c).Φ 0 from .rfl)
  hout c := by
    rw [Pipeline.ownSems0_none]
    have h : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (show (pdats m 0 c).Φ (Fin.last _) ⊢ Pipeline.ΦA spec0 c from .rfl).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its arrays
    at what the pipeline's write-backs leave and every other buffer untouched; the generator register passes through
    the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m 1 c).Φ 0 from hin1 (V5 m) c)
  hout c := by
    rw [Pipeline.ownSems0_none]
    have h : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()) ] from rfl]
  rfl

set_option backward.isDefEq.respectTransparency.types false in
/-- From any memory with zero counters every weakly fair execution of the program terminates, nothing faulting, and
    every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩)
    (run_all m ρ)

/-- The result array ends at what region 1's proof data say its last write-back leaves. -/
theorem run_result : θ_run defs (onTc (τ := τ) (main (F := F))) ⟨m, fun _ => 0, ρ⟩ (fun r => ∀ c : Dev nD,
      r.2.mem ((c.tc : Thread nD τ).loc main_v67) = (dat1 (V5 m) c).arrAt 8 cfg1.N) :=
  (θ_run defs _ _).mono (fun r h c => (h c _ (mem_uc main_v67 (by decide))).trans (W6_arr m c 8)) (run_all m ρ)

end Cert.KernelIdeal.Hand

end
-- ==== Proof.KI.Value0.lean ====
/-
  Region 0's array after the run is the whole matrix product, at the ideal values.

  The region walks the 100000 rows of the node features in ten blocks of 10000 rows. At every point its body stores
  into the product window's buffer the product of the current 10000×128 block of features with the 128×16 weight
  matrix; at the ideal values every rounding is the identity and the product accumulates from zero, so the stored
  element at row `r`, column `j` of the block is `∑ k, features (r, k) * weights (k, j)` (`pay0_apply`). The features'
  block at a point is the product block's rows of the features' array, and the weights' block is the whole weight
  matrix (`iblk0_0_apply`, `iblk0_1_apply`), so what a point writes back is its block of ONE function of the array
  index: the matrix product of the two arrays (`flushed0_eq`). The ten blocks fill the product array (`cover0`), so
  after the run the array is that product (`final0`).
-/
import proofs.«423774_j65060164600241_3_alg».proof.Proof.KI.Defs
import proofs.«423774_j65060164600241_3_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-! ## The body's payload at an element: a row of the features' block against a column of the weights -/

theorem lhs_blk0_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_blk0_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_blk0_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_blk0_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- Row `i 0`, column `k` of a 10000×128 block; row `k`, column `i 1` of the weights. -/
abbrev lblk0 (i : S10000x16.Idx) (k : Fin 128) : S10000x128.Idx := fun a => match a with
  | ⟨0, _⟩ => ⟨(i 0).val, (i 0).isLt⟩
  | ⟨1, _⟩ => ⟨k.val, k.isLt⟩
abbrev rblk0 (i : S10000x16.Idx) (k : Fin 128) : S128x16.Idx := fun a => match a with
  | ⟨0, _⟩ => ⟨k.val, k.isLt⟩
  | ⟨1, _⟩ => ⟨(i 1).val, (i 1).isLt⟩

/-- At the ideal values the roundings are the identity and the product accumulates from zero, so the payload at row
    `r`, column `j` is `∑ k, v0 (r, k) * v2 (k, j)`. -/
theorem pay0_apply (v0 : Vec Ideal S10000x128 .f32) (v2 : Vec Ideal S128x16 .f32) (i : S10000x16.Idx) :
    k0_pay1 (F := Ideal) v0 v2 i = ∑ k : Fin 128, v0 (lblk0 i k) * v2 (rblk0 i k) := by
  unfold k0_pay1
  rw [ValueIdx.truncf_apply]
  refine (Ideal.matmul_constant_zero_apply dot_S10000x128_S128x16_S10000x16_1_0_0_1_n_n none _ _ i).trans ?_
  rw [← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx i ((ValueIdx.contrEquiv1 dot_S10000x128_S128x16_S10000x16_1_0_0_1_n_n 128 rfl rfl).symm k) = lblk0 i k := funext fun a => Fin.ext (by
    match a with
    | ⟨0, _⟩ => exact lhs_blk0_0 _ _
    | ⟨1, _⟩ => exact (lhs_blk0_1 _ _).trans hk)
  have er : dot_S10000x128_S128x16_S10000x16_1_0_0_1_n_n.rhsIdx i ((ValueIdx.contrEquiv1 dot_S10000x128_S128x16_S10000x16_1_0_0_1_n_n 128 rfl rfl).symm k) = rblk0 i k := funext fun a => Fin.ext (by
    match a with
    | ⟨0, _⟩ => exact (rhs_blk0_0 _ _).trans hk
    | ⟨1, _⟩ => exact rhs_blk0_1 _ _)
  rw [ValueIdx.truncf_apply, ValueIdx.truncf_apply, el, er]

/-! ## The windows' blocks in their arrays -/

variable (V : (c : Dev nD) → (b : Ref sig .tc) → Buf (Elt Ideal) ((c : Thread nD τ).loc b))

theorem hz0 : (![0, 0] : Fin 2 → Nat) = fun _ => 0 := funext fun a => by fin_cases a <;> rfl

/-- The three index maps over the ten points of the walk: the features' block moves down its array with the product's
    block, neither moves sideways, the weights' block never moves, and the product's block index is at most 9. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the product array is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- Element `x` of the features' block at point `t` is the element of the features' array `10000 ·` (the product
    block's index) rows further down, in the same column. -/
theorem iblk0_0_apply (c : Dev nD) (t : Fin cfg0.N) (x : S10000x128.Idx) (i : S100000x128.Idx)
    (h0 : (i 0).val = win0_2.index t (0 : Fin 2) * 10000 + (x 0).val) (h1 : (i 1).val = (x 1).val) :
    (iblk0 V c 0 t : Vec Ideal S10000x128 .f32) x = (V c main_arg0 : S100000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (x 0).val = (i 0).val; omega
  | ⟨1, _⟩ => show win0_0.index t (1 : Fin 2) * 128 + 1 * (x 1).val = (i 1).val; omega

/-- The weights' block at any point is the whole weight matrix. -/
theorem iblk0_1_apply (c : Dev nD) (t : Fin cfg0.N) (x : S128x16.Idx) (i : S128x16.Idx)
    (h0 : (i 0).val = (x 0).val) (h1 : (i 1).val = (x 1).val) :
    (iblk0 V c 1 t : Vec Ideal S128x16 .f32) x = (V c main_arg3 : S128x16.Idx → EReal) i := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (x 0).val = (i 0).val; omega
  | ⟨1, _⟩ => show win0_1.index t (1 : Fin 2) * 16 + 1 * (x 1).val = (i 1).val; omega

/-! ## What a point writes back is its block of the matrix product -/

/-- Element `j` of what the body stores at point `t` is the matrix product's element at the array index `i` where
    `j` sits: the same row of the features (taken `10000 ·` the block index further down) against the same column
    of the weights. -/
theorem stored0_apply (c : Dev nD) (t : Fin cfg0.N) (j : S10000x16.Idx) (i : S100000x16.Idx)
    (h0 : (i 0).val = win0_2.index t (0 : Fin 2) * 10000 + (j 0).val) (h1 : (i 1).val = (j 1).val) :
    k0_pay1 (F := Ideal) (iblk0 V c 0 t) (iblk0 V c 1 t) j
      = Cert.ReferenceIdeal.Read.val_main_v4 (F := Ideal) (V c main_arg0) (V c main_arg3) i := by
  refine (pay0_apply _ _ j).trans ?_
  rw [Cert.ReferenceIdeal.Read.val_main_v4_apply]
  refine Finset.sum_congr rfl fun k _ => ?_
  exact congrArg₂ (· * ·)
    (iblk0_0_apply V c t (lblk0 j k) (Cert.ReferenceIdeal.Read.lidx_main_v4 i k) h0 rfl)
    (iblk0_1_apply V c t (rblk0 j k) (Cert.ReferenceIdeal.Read.ridx_main_v4 i k) rfl h1)

/-- What point `t` writes back to the product array is block `t` of the matrix product of the two argument arrays as
    the region finds them. -/
theorem flushed0_eq (c : Dev nD) (t : Fin cfg0.N) :
    (dat0 V c).flushed 2 t = ((cfg0.win 2).blk t).view.read (Elt Ideal)
      (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x16) hz0]
  funext j
  refine stored0_apply V c t j _ ?_ ?_
  · show win0_2.index t (0 : Fin 2) * 10000 + 1 * (j 0).val = win0_2.index t (0 : Fin 2) * 10000 + (j 0).val
    omega
  · obtain ⟨-, -, -, -, e4, -⟩ := idx_facts0 t
    show win0_2.index t (1 : Fin 2) * 16 + 1 * (j 1).val = (j 1).val
    omega

/-! ## The ten blocks fill the product array -/

/-- An index of the product array is in point `t`'s block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v29).slice (win0_2.rect t)).set ↔ _
  rw [View.set_slice_whole, Rect.mem_set_unit]
  exact Iff.rfl

/-- Row `r` of the product array lies in the block of the point whose block index is `r / 10000`; every point writes
    its block back. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-! ## The product array after the run -/

/-- After the ten points the product array holds, at the ideal values, the whole matrix product of the features' array
    and the weights' array as the region found them: every point wrote its block of it, and the blocks fill the array. -/
theorem final0 (c : Dev nD) :
    ((dat0 (F := Ideal) V c).arrAt 2 cfg0.N : S100000x16.Idx → EReal)
      = Cert.ReferenceIdeal.Read.val_main_v4 (F := Ideal) (V c main_arg0) (V c main_arg3) :=
  (dat0 V c).arrAt_eq_of_cover 2 _ (fun t _ => flushed0_eq V c t) cover0

end Cert.KernelIdeal.Hand

end
-- ==== Proof.KI.Blocks1.lean ====
/-
  Where region 1's window blocks sit in their arrays, and what its result array holds after the run.

  Region 1 walks twenty points. Its first two windows move down their arrays with the point: at point `t` the block of
  the 100000×16 array is rows `5000 t … 5000 t + 4999`, all 16 columns, and the block of the 100000×1 integer
  array is the same rows of its one column (`iblk1_0`, `iblk1_1`). The next six windows never move and their
  block is as large as their array, so at every point the block IS the array (`iblk1_2` … `iblk1_7`). The last
  window is the 128×2 result: its block is the whole array too, and it is written back at one point only, the last
  (point 19). The array after the run is the entry contents overwritten, in point order, by what the writing points
  stored; one point writes and its block covers every index, so the array ends holding exactly what the body stored at
  point 19 (`final1`).
-/
import proofs.«423774_j65060164600241_3_alg».proof.Proof.KI.Defs
import proofs.«423774_j65060164600241_3_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-! ## The index maps over the twenty points -/

/-- Window 0's block index is the point's number down the rows and 0 across the columns. -/
theorem idx1_0 : ∀ t : Fin cfg1.N, win1_0.index t (0 : Fin 2) = t.val ∧ win1_0.index t (1 : Fin 2) = 0 :=
  (by decide +kernel : ∀ t : Fin grid1.N, _)

/-- So is window 1's. -/
theorem idx1_1 : ∀ t : Fin cfg1.N, win1_1.index t (0 : Fin 2) = t.val ∧ win1_1.index t (1 : Fin 2) = 0 :=
  (by decide +kernel : ∀ t : Fin grid1.N, _)

/-- Window 2's block index is 0 on both axes at every point. -/
theorem idx1_2 : ∀ t : Fin cfg1.N, win1_2.index t (0 : Fin 2) = 0 ∧ win1_2.index t (1 : Fin 2) = 0 :=
  (by decide +kernel : ∀ t : Fin grid1.N, _)

/-- Window 3's block index is 0 on both axes at every point. -/
theorem idx1_3 : ∀ t : Fin cfg1.N, win1_3.index t (0 : Fin 2) = 0 ∧ win1_3.index t (1 : Fin 2) = 0 :=
  (by decide +kernel : ∀ t : Fin grid1.N, _)

/-- Window 4's block index is 0 on both axes at every point. -/
theorem idx1_4 : ∀ t : Fin cfg1.N, win1_4.index t (0 : Fin 2) = 0 ∧ win1_4.index t (1 : Fin 2) = 0 :=
  (by decide +kernel : ∀ t : Fin grid1.N, _)

/-- Window 5's block index is 0 on both axes at every point. -/
theorem idx1_5 : ∀ t : Fin cfg1.N, win1_5.index t (0 : Fin 2) = 0 ∧ win1_5.index t (1 : Fin 2) = 0 :=
  (by decide +kernel : ∀ t : Fin grid1.N, _)

/-- Window 6's block index is 0 on both axes at every point. -/
theorem idx1_6 : ∀ t : Fin cfg1.N, win1_6.index t (0 : Fin 2) = 0 ∧ win1_6.index t (1 : Fin 2) = 0 :=
  (by decide +kernel : ∀ t : Fin grid1.N, _)

/-- Window 7's block index is 0 on both axes at every point. -/
theorem idx1_7 : ∀ t : Fin cfg1.N, win1_7.index t (0 : Fin 2) = 0 ∧ win1_7.index t (1 : Fin 2) = 0 :=
  (by decide +kernel : ∀ t : Fin grid1.N, _)

/-- Window 8's block index is 0 on both axes at every point. -/
theorem idx1_8 : ∀ t : Fin cfg1.N, win1_8.index t (0 : Fin 2) = 0 ∧ win1_8.index t (1 : Fin 2) = 0 :=
  (by decide +kernel : ∀ t : Fin grid1.N, _)

/-! ## The two moving windows: rows `5000 t … 5000 t + 4999` of their arrays -/

/-- Row `r`, column `k` of window 0's block at point `t` is row `5000 t + r`, column `k` of the 100000×16 array. -/
theorem iblk1_0 (c : Dev nD) (t : Fin cfg1.N) (r : Fin 5000) (k : Fin 16) (h : 5000 * t.val + r.val < 100000) :
    iblk1 V c 0 t (ValueIdx.ix2 r k) = V c main_v62 (ValueIdx.ix2 ⟨5000 * t.val + r.val, h⟩ k) := by
  obtain ⟨e0, e1⟩ := idx1_0 t
  unfold iblk1
  rw [View.read_apply]
  show V c main_v62 _ = V c main_v62 _
  congr 1
  funext a
  apply Fin.ext
  match a with
  | ⟨0, _⟩ => show win1_0.index t (0 : Fin 2) * 5000 + 1 * r.val = 5000 * t.val + r.val; omega
  | ⟨1, _⟩ => show win1_0.index t (1 : Fin 2) * 16 + 1 * k.val = k.val; omega

/-- Row `r` of window 1's block at point `t` is row `5000 t + r` of the 100000×1 integer array. -/
theorem iblk1_1 (c : Dev nD) (t : Fin cfg1.N) (r : Fin 5000) (h : 5000 * t.val + r.val < 100000) :
    iblk1 V c 1 t (ValueIdx.ix2 r (0 : Fin 1)) = V c main_v63 (ValueIdx.ix2 ⟨5000 * t.val + r.val, h⟩ (0 : Fin 1)) := by
  obtain ⟨e0, e1⟩ := idx1_1 t
  unfold iblk1
  rw [View.read_apply]
  show V c main_v63 _ = V c main_v63 _
  congr 1
  funext a
  apply Fin.ext
  match a with
  | ⟨0, _⟩ => show win1_1.index t (0 : Fin 2) * 5000 + 1 * r.val = 5000 * t.val + r.val; omega
  | ⟨1, _⟩ => show win1_1.index t (1 : Fin 2) * 1 + 1 * (0 : Fin 1).val = (0 : Fin 1).val; omega

/-! ## The six windows that never move: the block is the array -/

/-- Window 2's block at any point is all of the 16×128 array it reads. -/
theorem iblk1_2 (c : Dev nD) (t : Fin cfg1.N) : (iblk1 V c 2 t : S16x128.Idx → Elt F .f32) = V c main_arg5 := by
  obtain ⟨e0, e1⟩ := idx1_2 t
  funext x
  unfold iblk1
  rw [View.read_apply]
  show V c main_arg5 _ = V c main_arg5 _
  congr 1
  funext a
  apply Fin.ext
  match a with
  | ⟨0, _⟩ => show win1_2.index t (0 : Fin 2) * 16 + 1 * (x 0).val = (x 0).val; omega
  | ⟨1, _⟩ => show win1_2.index t (1 : Fin 2) * 128 + 1 * (x 1).val = (x 1).val; omega

/-- Window 3's block at any point is all of the 1×128 array it reads. -/
theorem iblk1_3 (c : Dev nD) (t : Fin cfg1.N) : (iblk1 V c 3 t : S1x128.Idx → Elt F .f32) = V c main_v64 := by
  obtain ⟨e0, e1⟩ := idx1_3 t
  funext x
  unfold iblk1
  rw [View.read_apply]
  show V c main_v64 _ = V c main_v64 _
  congr 1
  funext a
  apply Fin.ext
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- Window 4's block at any point is all of the 128×128 array it reads. -/
theorem iblk1_4 (c : Dev nD) (t : Fin cfg1.N) : (iblk1 V c 4 t : S128x128.Idx → Elt F .f32) = V c main_arg7 := by
  obtain ⟨e0, e1⟩ := idx1_4 t
  funext x
  unfold iblk1
  rw [View.read_apply]
  show V c main_arg7 _ = V c main_arg7 _
  congr 1
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- Window 5's block at any point is all of the 1×128 array it reads. -/
theorem iblk1_5 (c : Dev nD) (t : Fin cfg1.N) : (iblk1 V c 5 t : S1x128.Idx → Elt F .f32) = V c main_v65 := by
  obtain ⟨e0, e1⟩ := idx1_5 t
  funext x
  unfold iblk1
  rw [View.read_apply]
  show V c main_v65 _ = V c main_v65 _
  congr 1
  funext a
  apply Fin.ext
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- Window 6's block at any point is all of the 128×2 array it reads. -/
theorem iblk1_6 (c : Dev nD) (t : Fin cfg1.N) : (iblk1 V c 6 t : S128x2.Idx → Elt F .f32) = V c main_arg9 := by
  obtain ⟨e0, e1⟩ := idx1_6 t
  funext x
  unfold iblk1
  rw [View.read_apply]
  show V c main_arg9 _ = V c main_arg9 _
  congr 1
  funext a
  apply Fin.ext
  match a with
  | ⟨0, _⟩ => show win1_6.index t (0 : Fin 2) * 128 + 1 * (x 0).val = (x 0).val; omega
  | ⟨1, _⟩ => show win1_6.index t (1 : Fin 2) * 2 + 1 * (x 1).val = (x 1).val; omega

/-- Window 7's block at any point is all of the 1×2 array it reads. -/
theorem iblk1_7 (c : Dev nD) (t : Fin cfg1.N) : (iblk1 V c 7 t : S1x2.Idx → Elt F .f32) = V c main_v66 := by
  obtain ⟨e0, e1⟩ := idx1_7 t
  funext x
  unfold iblk1
  rw [View.read_apply]
  show V c main_v66 _ = V c main_v66 _
  congr 1
  funext a
  apply Fin.ext
  match a with
  | ⟨0, _⟩ => show win1_7.index t (0 : Fin 2) * 1 + 1 * (x 0).val = (x 0).val; omega
  | ⟨1, _⟩ => show win1_7.index t (1 : Fin 2) * 2 + 1 * (x 1).val = (x 1).val; omega

/-! ## The result array after the run -/

/-- An index of the result array is in point `t`'s block iff each coordinate is in the block's range on its axis. -/
theorem mem_blk1_8 (t : Fin cfg1.N) (i : S128x2.Idx) :
    i ∈ ((cfg1.win 8).blk t).view.set ↔ ∀ a : Fin 2, win1_8.index t a * S128x2.size a ≤ (i a).val ∧ (i a).val < win1_8.index t a * S128x2.size a + S128x2.size a := by
  show i ∈ ((View.whole main_v67).slice (win1_8.rect t)).set ↔ _
  rw [View.set_slice_whole, Rect.mem_set_unit]
  exact Iff.rfl

/-- Every index of the 128×2 result array lies in the block of every point: the block starts at the array's corner
    and is as large as the array. -/
theorem mem_blk1_8_all (t : Fin cfg1.N) (i : S128x2.Idx) : i ∈ ((cfg1.win 8).blk t).view.set := by
  obtain ⟨e0, e1⟩ := idx1_8 t
  have hi0 : (i 0).val < 128 := (i 0).isLt
  have hi1 : (i 1).val < 2 := (i 1).isLt
  rw [mem_blk1_8]
  intro a
  match a with
  | ⟨0, _⟩ => show win1_8.index t (0 : Fin 2) * 128 ≤ (i 0).val ∧ (i 0).val < win1_8.index t (0 : Fin 2) * 128 + 128; omega
  | ⟨1, _⟩ => show win1_8.index t (1 : Fin 2) * 2 ≤ (i 1).val ∧ (i 1).val < win1_8.index t (1 : Fin 2) * 2 + 2; omega

/-- The only point that writes the result back is the last of the twenty. -/
theorem flush1_8_val (t : Fin cfg1.N) (hf : (cfg1.win 8).flush t = true) : t.val = 19 := by
  have h1 : t.val % 20 = 19 := (flush1_8 t).mp hf
  have h2 : t.val < 20 := lt_of_lt_of_eq t.isLt N_1
  omega

/-- What a point writes back to the result array, read as a block of the array, is the window's contents after the body
    there: the block is the whole array, element for element. -/
theorem flushed1_8_eq (c : Dev nD) (t : Fin cfg1.N) :
    (dat1 V c).flushed 8 t = ((cfg1.win 8).blk t).view.read (Elt F) (out1_8 V c t) := by
  obtain ⟨e0, e1⟩ := idx1_8 t
  show (cfg1.win 8).cut (grid1.coords t) ((dat1 V c).after 8 t) = _
  rw [after1_8]
  funext j
  rw [View.read_apply]
  show out1_8 V c t _ = out1_8 V c t _
  congr 1
  funext a
  apply Fin.ext
  match a with
  | ⟨0, _⟩ => show (j 0).val = win1_8.index t (0 : Fin 2) * 128 + 1 * (j 0).val; omega
  | ⟨1, _⟩ => show (j 1).val = win1_8.index t (1 : Fin 2) * 2 + 1 * (j 1).val; omega

/-- After the twenty points the result array holds what the body stored into the result window at point 19: that point
    alone writes back, and its block is the whole array. -/
theorem final1 (c : Dev nD) (t19 : Fin cfg1.N) (h19 : t19.val = 19) :
    ((dat1 V c).arrAt 8 cfg1.N : S128x2.Idx → Elt F .f32) = out1_8 V c t19 := by
  have hfl : (cfg1.win 8).flush t19 = true := (flush1_8 t19).mpr (by omega)
  refine (dat1 V c).arrAt_eq_of_cover 8 (out1_8 V c t19) (fun t hf => ?_) (fun i => ⟨t19, hfl, mem_blk1_8_all t19 i⟩)
  have ht : t = t19 := Fin.ext ((flush1_8_val t hf).trans h19.symm)
  subst ht
  exact flushed1_8_eq V c t

end Cert.KernelIdeal.Hand

end
-- ==== Proof.Bridge.Spec.lean ====
/-
  Shared vocabulary for comparing the two programs at the ideal instance (every float an extended real), over the
  reference's stage functions `val_main_vN` of the argument arrays `x0 … x10`.

  `agg2` is the kernel's second-layer aggregation: the normalised neighbourhood sum of the 16-wide activations
  `h1 = val_main_v46`, taken BEFORE the 16→128 weights are applied (the reference applies the weights first and
  aggregates 128-wide rows). `tailR` is the reference's pooled mean, two dense layers and log-softmax as a function of
  abstract pooled sums `S` and counts `C`.
-/
import proofs.«423774_j65060164600241_3_alg».proof.Proof.Gen.ReferenceIdeal.Read

noncomputable section

namespace Cert.Bridge

open Cert.ReferenceIdeal Cert.ReferenceIdeal.Gen Cert.ReferenceIdeal.Read Idealize.ShloMosaic Idealize.ShloMosaic.TcCoe
  Idealize.ShloMosaic.StableHlo

/-- The neighbourhood sum of the activations `h1`, each message scaled by its edge's normalisation: the reference's
    first-layer scatter with `h1` in place of the transformed features. -/
def agg2 (x0 : FVec Ideal S100000x128 .f32) (x1 : IVec S2x1600000 32) (x3 : FVec Ideal S128x16 .f32) (x4 : FVec Ideal S16 .f32) : FVec Ideal S100000x16 .f32 :=
  Host.scatterAdd (F := Ideal) scatter_S100000x16_S1700000x1_S1700000x16_1_0_0_1 (val_main_v40 (F := Ideal)) (val_main_v41 (F := Ideal) x1)
    (mulf (F := Ideal) (Host.gather gather_S100000x16_S1700000x1_S1700000x16_1_0_n_n_0_1_116 (val_main_v46 (F := Ideal) x0 x1 x3 x4)
      (val_main_v35 (F := Ideal) x1)) (val_main_v38 (F := Ideal) x1))

/-- The reference's tail over abstract pooled sums `S` (128×128) and counts `C` (128): the mean `S / max C 1`, the
    dense layer with `x7, x8` and a rectifier, the dense layer with `x9, x10`, the log-softmax along the two classes. -/
def tailR (S : FVec Ideal S128x128 .f32) (C : FVec Ideal S128 .f32) (x7 : FVec Ideal S128x128 .f32) (x8 : FVec Ideal S128 .f32) (x9 : FVec Ideal S128x2 .f32)
    (x10 : FVec Ideal S2 .f32) : FVec Ideal S128x2 .f32 :=
  let pooled : FVec Ideal S128x128 .f32 := Host.divf (F := Ideal) S
    (broadcastInDim S128x128 ![0, 1] bcast_S128x1_S128x128_0_1
      (broadcastInDim S128x1 ![0] bcast_S128_S128x1_0 (maximumf (F := Ideal) C (val_main_v97 (F := Ideal)))))
  let z1 : FVec Ideal S128x128 .f32 := maximumf (F := Ideal)
    (addf (F := Ideal) (Host.dotGeneral (F := Ideal) dot_S128x128_S128x128_S128x128_1_0_0_1_n_n none pooled x7) (val_main_v104 (F := Ideal) x8))
    (val_main_call2_v0 (F := Ideal))
  let z2 : FVec Ideal S128x2 .f32 :=
    addf (F := Ideal) (Host.dotGeneral (F := Ideal) dot_S128x128_S128x2_S128x2_1_0_0_1_n_n none z1 x9) (val_main_v109 (F := Ideal) x10)
  let mx : FVec Ideal S128 .f32 := maximumf (F := Ideal) (val_main_call3_v1 (F := Ideal))
    (Host.reduce (FloatOps.maximumf (F := Ideal)) z2 (val_main_call3_cst (F := Ideal)) reducesTo_S128x2_S128_d1 h_S_)
  let sh : FVec Ideal S128x2 .f32 := subf (F := Ideal) z2
    (broadcastInDim S128x2 ![0, 1] bcast_S128x1_S128x2_0_1 (broadcastInDim S128x1 ![0] bcast_S128_S128x1_0 mx))
  let lse : FVec Ideal S128x1 .f32 := Host.log (F := Ideal) (broadcastInDim S128x1 ![0] bcast_S128_S128x1_0
    (Host.reduceAdd (F := Ideal) (Host.exp (F := Ideal) sh) (val_main_call3_cst_1 (F := Ideal)) reducesTo_S128x2_S128_d1 h_S_))
  subf (F := Ideal) sh (broadcastInDim S128x2 ![0, 1] bcast_S128x1_S128x2_0_1 lse)

/-- The reference's result is its tail at its own pooled sums and counts. -/
theorem ref_eq_tailR (x0 : FVec Ideal S100000x128 .f32) (x1 : IVec S2x1600000 32) (x2 : IVec S100000 32) (x3 : FVec Ideal S128x16 .f32)
    (x4 : FVec Ideal S16 .f32) (x5 : FVec Ideal S16x128 .f32) (x6 : FVec Ideal S128 .f32) (x7 : FVec Ideal S128x128 .f32) (x8 : FVec Ideal S128 .f32)
    (x9 : FVec Ideal S128x2 .f32) (x10 : FVec Ideal S2 .f32) :
    val_main_v111 (F := Ideal) x0 x1 x2 x3 x4 x5 x6 x7 x8 x9 x10
      = tailR (val_main_v92 (F := Ideal) x0 x1 x2 x3 x4 x5 x6) (val_main_v96 (F := Ideal) x2) x7 x8 x9 x10 := by
  unfold tailR val_main_v111 val_main_call3_v5 val_main_call3_v10 val_main_call3_v9 val_main_call3_v8 val_main_call3_v7
    val_main_call3_v6 val_main_call3_v4 val_main_call3_v3 val_main_call3_v2 val_main_call3_v0 val_main_v110 val_main_v107
    val_main_v106 val_main_v105 val_main_v102 val_main_v101 val_main_v100 val_main_v99 val_main_v98
  rfl

end Cert.Bridge

end
-- ==== Proof.KI.HostVals.lean ====
/-
  What the host stretches of the kernel program compute, in the reference's vocabulary.

  Before the first kernel region the program builds the two edge lists with one self-loop appended per node (sources %5,
  destinations %6), counts the destinations into the degrees, takes the inverse square root of `max degree 1`, and
  multiplies its values at the two (wrapped) endpoints of every edge into the normalisation %28. These are the same
  operations on the same operand, the edge index array, as the reference's stages %6, %7 and %29: the buffers hold
  `val_main_v6`, `val_main_v7`, `val_main_v29` of that array, at every float instance.

  Between the two regions the program gathers the rows of the first region's product at the wrapped sources, scales
  each row by its edge's normalisation, sums the rows at their destinations onto zeros, adds the bias and applies the
  rectifier; then it gathers, scales and sums the activated rows in the same way. At the ideal instance a change of
  float format is the identity. So, once the product array holds the reference's `x · W1` (hypothesis `hOUT`), %46 is
  the reference's first layer before the rectifier (`val_main_v45`), %47 the activations (`val_main_v46`), and %62 the
  normalised neighbourhood sum `agg2` of the activations.

  The four reshapes before the second region view a vector as a matrix with one column or one row: the view's entry
  `(n, 0)`, or `(0, j)`, is the vector's entry `n`, or `j`. No stretch and no region writes an argument array, so each
  argument holds its launch contents at every boundary.
-/
import proofs.«423774_j65060164600241_3_alg».proof.Proof.KI.Fold
import proofs.«423774_j65060164600241_3_alg».proof.Proof.Gen.KernelIdeal.Regions
import proofs.«423774_j65060164600241_3_alg».proof.Proof.Bridge.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Cert.KernelIdeal Cert.KernelIdeal.Gen
open Cert.ReferenceIdeal.Read

/-! ## At every float instance -/

section Generic
variable {F : FTy → Type} [FloatOps F]
variable (m : (ℓ : Loc nD τ sig) → Buf (Elt F) ℓ) (c : Dev nD)

/-! ### A buffer a stretch does not write keeps its contents -/

theorem W1_unwritten (r : Ref sig .tc) (h : r ∉ hostOps0_W) : W1 m c (Proc.devRef .tc r) = m ((c.tc : Thread nD τ).loc r) :=
  StableHlo.after_of_writes_sub hostOps0 _ hostOps0_writes h
theorem W3_unwritten (r : Ref sig .tc) (h : r ∉ hostOps1_W) : W3 m c (Proc.devRef .tc r) = W2 m c (Proc.devRef .tc r) :=
  StableHlo.after_of_writes_sub hostOps1 _ hostOps1_writes h
theorem W4_unwritten (r : Ref sig .tc) (h : r ∉ hostOps1_1_W) : W4 m c (Proc.devRef .tc r) = W3 m c (Proc.devRef .tc r) :=
  StableHlo.after_of_writes_sub hostOps1_1 _ hostOps1_1_writes h
theorem W5_unwritten (r : Ref sig .tc) (h : r ∉ hostOps1_2_W) : W5 m c (Proc.devRef .tc r) = W4 m c (Proc.devRef .tc r) :=
  StableHlo.after_of_writes_sub hostOps1_2 _ hostOps1_2_writes h

/-! ### The first stretch: edge lists with self-loops, and the normalisation -/

/-- %5, the sources followed by one self-loop per node, is the reference's %6. -/
theorem W1_v5 : W1 m c (Proc.devRef .tc main_v5) = val_main_v6 (F := F) (m ((c.tc : Thread nD τ).loc main_arg1)) := by
  show StableHlo.after hostOps0 _ _ = _
  after_results
  rfl
/-- %6, the destinations followed by one self-loop per node, is the reference's %7. -/
theorem W1_v6 : W1 m c (Proc.devRef .tc main_v6) = val_main_v7 (F := F) (m ((c.tc : Thread nD τ).loc main_arg1)) := by
  show StableHlo.after hostOps0 _ _ = _
  after_results
  rfl
/-- %28, the product of the inverse square roots of the degrees at an edge's two endpoints, is the reference's %29. -/
theorem W1_v28 : W1 m c (Proc.devRef .tc main_v28) = val_main_v29 (F := F) (m ((c.tc : Thread nD τ).loc main_arg1)) := by
  show StableHlo.after hostOps0 _ _ = _
  after_results_simp
  rfl

/-- The first region's two input arrays hold their launch contents when it is entered. -/
theorem W1_arg0 : W1 m c (Proc.devRef .tc main_arg0) = m ((c.tc : Thread nD τ).loc main_arg0) := W1_unwritten m c main_arg0 (by decide)
theorem W1_arg3 : W1 m c (Proc.devRef .tc main_arg3) = m ((c.tc : Thread nD τ).loc main_arg3) := W1_unwritten m c main_arg3 (by decide)

/-! ### Across the first region, which writes its product array only -/

theorem W2_v5 : W2 m c (Proc.devRef .tc main_v5) = val_main_v6 (F := F) (m ((c.tc : Thread nD τ).loc main_arg1)) := by
  rw [W2_of_ne m c main_v5 (by decide), W1_v5]
theorem W2_v6 : W2 m c (Proc.devRef .tc main_v6) = val_main_v7 (F := F) (m ((c.tc : Thread nD τ).loc main_arg1)) := by
  rw [W2_of_ne m c main_v6 (by decide), W1_v6]
theorem W2_v28 : W2 m c (Proc.devRef .tc main_v28) = val_main_v29 (F := F) (m ((c.tc : Thread nD τ).loc main_arg1)) := by
  rw [W2_of_ne m c main_v28 (by decide), W1_v28]
theorem W2_arg (r : Ref sig .tc) (h0 : r ∉ hostOps0_W) (hb : ∀ w, Pipeline.arrRef spec0 w ≠ r) :
    W2 m c (Proc.devRef .tc r) = m ((c.tc : Thread nD τ).loc r) := by
  rw [W2_of_ne m c r hb, W1_unwritten m c r h0]

/-! ### Up to the last stretch: the edge lists and the normalisation are written once, the arguments never -/

theorem W4_v5 : W4 m c (Proc.devRef .tc main_v5) = val_main_v6 (F := F) (m ((c.tc : Thread nD τ).loc main_arg1)) := by
  rw [W4_unwritten m c main_v5 (by decide), W3_unwritten m c main_v5 (by decide), W2_v5]
theorem W4_v6 : W4 m c (Proc.devRef .tc main_v6) = val_main_v7 (F := F) (m ((c.tc : Thread nD τ).loc main_arg1)) := by
  rw [W4_unwritten m c main_v6 (by decide), W3_unwritten m c main_v6 (by decide), W2_v6]
theorem W4_v28 : W4 m c (Proc.devRef .tc main_v28) = val_main_v29 (F := F) (m ((c.tc : Thread nD τ).loc main_arg1)) := by
  rw [W4_unwritten m c main_v28 (by decide), W3_unwritten m c main_v28 (by decide), W2_v28]
theorem W4_arg (r : Ref sig .tc) (h0 : r ∉ hostOps0_W) (hb : ∀ w, Pipeline.arrRef spec0 w ≠ r) (h1 : r ∉ hostOps1_W) (h2 : r ∉ hostOps1_1_W) :
    W4 m c (Proc.devRef .tc r) = m ((c.tc : Thread nD τ).loc r) := by
  rw [W4_unwritten m c r h2, W3_unwritten m c r h1, W2_arg m c r h0 hb]
theorem W5_arg (r : Ref sig .tc) (h0 : r ∉ hostOps0_W) (hb : ∀ w, Pipeline.arrRef spec0 w ≠ r) (h1 : r ∉ hostOps1_W) (h2 : r ∉ hostOps1_1_W)
    (h3 : r ∉ hostOps1_2_W) : W5 m c (Proc.devRef .tc r) = m ((c.tc : Thread nD τ).loc r) := by
  rw [W5_unwritten m c r h3, W4_arg m c r h0 hb h1 h2]

/-- The second layer's weights and the two dense layers' weights hold their launch contents when the second region is entered. -/
theorem W5_arg5 : W5 m c (Proc.devRef .tc main_arg5) = m ((c.tc : Thread nD τ).loc main_arg5) :=
  W5_arg m c main_arg5 (by decide) (by decide) (by decide) (by decide) (by decide)
theorem W5_arg7 : W5 m c (Proc.devRef .tc main_arg7) = m ((c.tc : Thread nD τ).loc main_arg7) :=
  W5_arg m c main_arg7 (by decide) (by decide) (by decide) (by decide) (by decide)
theorem W5_arg9 : W5 m c (Proc.devRef .tc main_arg9) = m ((c.tc : Thread nD τ).loc main_arg9) :=
  W5_arg m c main_arg9 (by decide) (by decide) (by decide) (by decide) (by decide)

/-! ### The reshapes before the second region

A vector of `N` entries viewed as an `N × 1` or a `1 × N` matrix: both orders of the entries are the row-major one, and
the matrix index `(n, 0)`, or `(0, j)`, has the row-major position `n · 1 + 0`, or `0 · N + j`, of the vector's index. -/
theorem W5_v63 (n : Fin 100000) :
    W5 m c (Proc.devRef .tc main_v63) (ValueIdx.ix2 n (0 : Fin 1)) = m ((c.tc : Thread nD τ).loc main_arg2) (ValueIdx.ix1 n) := by
  have ha := W4_arg m c main_arg2 (by decide) (by decide) (by decide) (by decide)
  show StableHlo.after hostOps1_2 (W4 m c) _ _ = _
  generalize W4 m c = V at ha ⊢
  after_results_simp
  rw [ha]
  exact shapeCast_apply _ shapeCasts_S100000_S100000x1 (ValueIdx.ix2 n (0 : Fin 1)) (ValueIdx.ix1 n)
    (by rewrite [Shape.rowMajor_val_two, Shape.rowMajor_val_one]; show n.val = n.val * 1 + 0; omega)

theorem W5_v64 (j : Fin 128) :
    W5 m c (Proc.devRef .tc main_v64) (ValueIdx.ix2 (0 : Fin 1) j) = m ((c.tc : Thread nD τ).loc main_arg6) (ValueIdx.ix1 j) := by
  have ha := W4_arg m c main_arg6 (by decide) (by decide) (by decide) (by decide)
  show StableHlo.after hostOps1_2 (W4 m c) _ _ = _
  generalize W4 m c = V at ha ⊢
  after_results_simp
  rw [ha]
  exact shapeCast_apply _ shapeCasts_S128_S1x128 (ValueIdx.ix2 (0 : Fin 1) j) (ValueIdx.ix1 j)
    (by rewrite [Shape.rowMajor_val_two, Shape.rowMajor_val_one]; show j.val = 0 * 128 + j.val; omega)

theorem W5_v65 (j : Fin 128) :
    W5 m c (Proc.devRef .tc main_v65) (ValueIdx.ix2 (0 : Fin 1) j) = m ((c.tc : Thread nD τ).loc main_arg8) (ValueIdx.ix1 j) := by
  have ha := W4_arg m c main_arg8 (by decide) (by decide) (by decide) (by decide)
  show StableHlo.after hostOps1_2 (W4 m c) _ _ = _
  generalize W4 m c = V at ha ⊢
  after_results_simp
  rw [ha]
  exact shapeCast_apply _ shapeCasts_S128_S1x128 (ValueIdx.ix2 (0 : Fin 1) j) (ValueIdx.ix1 j)
    (by rewrite [Shape.rowMajor_val_two, Shape.rowMajor_val_one]; show j.val = 0 * 128 + j.val; omega)

theorem W5_v66 (j : Fin 2) :
    W5 m c (Proc.devRef .tc main_v66) (ValueIdx.ix2 (0 : Fin 1) j) = m ((c.tc : Thread nD τ).loc main_arg10) (ValueIdx.ix1 j) := by
  have ha := W4_arg m c main_arg10 (by decide) (by decide) (by decide) (by decide)
  show StableHlo.after hostOps1_2 (W4 m c) _ _ = _
  generalize W4 m c = V at ha ⊢
  after_results_simp
  rw [ha]
  exact shapeCast_apply _ shapeCasts_S2_S1x2 (ValueIdx.ix2 (0 : Fin 1) j) (ValueIdx.ix1 j)
    (by rewrite [Shape.rowMajor_val_two, Shape.rowMajor_val_one]; show j.val = 0 * 2 + j.val; omega)

end Generic

/-! ## At the ideal instance -/

section AtIdeal
variable (m : (ℓ : Loc nD τ sig) → Buf (Elt Ideal) ℓ) (c : Dev nD)

/-- At the ideal instance a widening of the float format leaves every entry as it is. -/
theorem extf_ideal {s : Shape} (a : s.Idx → EReal) (h : FTy.bits .bf16 < FTy.bits .f32) :
    (extf (F := Ideal) (φ := .bf16) .f32 a h : s.Idx → EReal) = a := rfl
/-- At the ideal instance a narrowing of the float format leaves every entry as it is. -/
theorem truncf_ideal {s : Shape} (a : s.Idx → EReal) (h : FTy.bits .bf16 < FTy.bits .f32) :
    (truncf (F := Ideal) (φ := .f32) .bf16 a h : s.Idx → EReal) = a := rfl

/-- %46: the rows of the product gathered at the wrapped sources, each scaled by its edge's normalisation, summed at
    the destinations onto zeros, plus the bias. With the product array at the reference's `x · W1` this is the reference's
    first layer before the rectifier, operation by operation; the one format change on the way is the identity. -/
theorem W3_v46 (hOUT : ((dat0 (F := Ideal) (V1 m) c).arrAt 2 cfg0.N : S100000x16.Idx → EReal)
      = val_main_v4 (F := Ideal) (m ((c.tc : Thread nD τ).loc main_arg0)) (m ((c.tc : Thread nD τ).loc main_arg3))) :
    (W3 m c (Proc.devRef .tc main_v46) : S100000x16.Idx → EReal)
      = val_main_v45 (F := Ideal) (m ((c.tc : Thread nD τ).loc main_arg0)) (m ((c.tc : Thread nD τ).loc main_arg1))
          (m ((c.tc : Thread nD τ).loc main_arg3)) (m ((c.tc : Thread nD τ).loc main_arg4)) := by
  have e29 : W2 m c (Proc.devRef .tc main_v29) = (dat0 (F := Ideal) (V1 m) c).arrAt 2 cfg0.N := W2_arr m c 2
  have h5 := W2_v5 m c
  have h6 := W2_v6 m c
  have h28 := W2_v28 m c
  have h4 := W2_arg m c main_arg4 (by decide) (by decide)
  show StableHlo.after hostOps1 (W2 m c) _ = _
  generalize W2 m c = V at e29 h5 h6 h28 h4 ⊢
  after_results_simp
  rw [h5, h6, h28, h4, e29, hOUT]
  rw [extf_ideal]
  rfl

/-- %47, the entrywise maximum of %46 and zero, is the reference's activations. -/
theorem W4_v47 (hOUT : ((dat0 (F := Ideal) (V1 m) c).arrAt 2 cfg0.N : S100000x16.Idx → EReal)
      = val_main_v4 (F := Ideal) (m ((c.tc : Thread nD τ).loc main_arg0)) (m ((c.tc : Thread nD τ).loc main_arg3))) :
    (W4 m c (Proc.devRef .tc main_v47) : S100000x16.Idx → EReal)
      = val_main_v46 (F := Ideal) (m ((c.tc : Thread nD τ).loc main_arg0)) (m ((c.tc : Thread nD τ).loc main_arg1)) (m ((c.tc : Thread nD τ).loc main_arg3)) (m ((c.tc : Thread nD τ).loc main_arg4)) := by
  have h46 := W3_v46 m c hOUT
  show StableHlo.after hostOps1_1 (W3 m c) _ = _
  generalize W3 m c = V at h46 ⊢
  after_results_simp
  simp only [StableHlo.TRef.ofBuf, StableHlo.TRef.toBuf, cast_eq]
  rw [h46]
  rfl

/-- %62: the activations' rows gathered at the wrapped sources, scaled by the normalisation and summed at the
    destinations onto zeros — the neighbourhood sum `agg2`; the two format changes on the way are the identity. -/
theorem W5_v62 (hOUT : ((dat0 (F := Ideal) (V1 m) c).arrAt 2 cfg0.N : S100000x16.Idx → EReal)
      = val_main_v4 (F := Ideal) (m ((c.tc : Thread nD τ).loc main_arg0)) (m ((c.tc : Thread nD τ).loc main_arg3))) :
    (W5 m c (Proc.devRef .tc main_v62) : S100000x16.Idx → EReal)
      = Cert.Bridge.agg2 (m ((c.tc : Thread nD τ).loc main_arg0)) (m ((c.tc : Thread nD τ).loc main_arg1)) (m ((c.tc : Thread nD τ).loc main_arg3)) (m ((c.tc : Thread nD τ).loc main_arg4)) := by
  have h47 := W4_v47 m c hOUT
  have h5 := W4_v5 m c
  have h6 := W4_v6 m c
  have h28 := W4_v28 m c
  show StableHlo.after hostOps1_2 (W4 m c) _ = _
  generalize W4 m c = V at h47 h5 h6 h28 ⊢
  after_results_simp
  rw [h47, h5, h6, h28, extf_ideal, truncf_ideal]
  rfl

end AtIdeal

end Cert.KernelIdeal.Hand

end
-- ==== Proof.Bridge.LinearReads.lean ====
/-
  Reading lemmas for a row gather followed by a row scatter-add at the ideal instance, over abstract arrays.

  A two-axis operand `[N, W]`, an index array `[E, 1]` and updates `[E, W]`: the scatter whose update window is the
  second axis sends update `(e, b)` to `(idx[e,0], b)` (the index word read signed, the update dropped when that leaves
  the operand), and the gather whose offset axis is the second axis reads row `clamp (idx[e,0])` at the same column.
  Neither the landing condition nor the row read depends on the width `W`. On extended reals that are real numbers the
  neighbourhood sum commutes with a matrix product on the right.
-/
import Idealize.ShloMosaic.Lib.ValueIdx
import Idealize.ShloMosaic.Lib.IdealHost
import Idealize.ShloMosaic.PureOps.Ideal.Laws
import Mathlib.Data.EReal.Basic
import Mathlib.Algebra.BigOperators.Ring.Finset

noncomputable section

open scoped BigOperators

namespace Cert.Bridge

open Idealize.ShloMosaic Idealize.ShloMosaic.ValueIdx

/-! ## Extended reals that are real numbers -/

theorem real_zero : ∃ r : ℝ, (0 : EReal) = (r : EReal) := ⟨0, rfl⟩
theorem real_one : ∃ r : ℝ, (1 : EReal) = (r : EReal) := ⟨1, rfl⟩

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb; exact ⟨max x y, coe_max x y⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    rw [Finset.sum_insert ha]
    obtain ⟨x, hx, ex⟩ := h a (Finset.mem_insert_self a s)
    obtain ⟨y, hy, ey⟩ := ih fun i hi => h i (Finset.mem_insert_of_mem hi)
    exact ⟨x + y, add_nonneg hx hy, by rw [ex, ey, EReal.coe_add]⟩

/-- The reciprocal square root of a positive real is a real. -/
theorem real_rsqrt_pos {r : ℝ} (hr : 0 < r) : ∃ q : ℝ, Ideal.rsqrt (r : EReal) = (q : EReal) := by
  refine ⟨(Real.sqrt r)⁻¹, ?_⟩
  rw [Ideal.rsqrt_coe, if_neg (not_lt.2 hr.le), if_neg (ne_of_gt hr)]

/-- A scatter-add of reals onto reals is a real at every index. -/
theorem real_scatterAdd {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) :=
  real_add (hx i) (real_sum _ _ fun j _ => hu j)

/-- A scatter-add of nonnegative reals onto nonnegative reals is a nonnegative real at every index. -/
theorem nonneg_real_scatterAdd {s si su : Shape} (d : ScatterDims s si su) {w : Nat} (x : s.Idx → EReal) (idx : IVec si w)
    (upd : su.Idx → EReal) (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha, ea⟩ := hx i
  obtain ⟨b, hb, eb⟩ := nonneg_real_sum (Finset.univ.filter fun j => d.resultIdx? j idx = some i) upd fun j _ => hu j
  exact ⟨a + b, add_nonneg ha hb, by unfold Ideal.hostScatterAdd; rw [ea, eb, EReal.coe_add]⟩

theorem fin2_one_ne_zero : ¬ (1 : Fin 2) = 0 := by decide

/-- An axis is kept exactly when it is not one of the listed axes. -/
theorem mem_kept_iff {s : Shape} (axes : List (Fin s.rank)) (a : Fin s.rank) : a ∈ s.kept axes ↔ a ∉ axes := by
  simp [Shape.kept, List.mem_filter, List.mem_finRange]

/-! ## The row scatter: which update lands where -/

section Rows
variable {N E W w : Nat}

/-- The scatter's dimension numbers: the update's second axis is its window, the operand's first axis is the one the
    index word names. -/
abbrev rowScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- The index array's element of edge `e`. -/
abbrev wordIdx (e : Fin E) : (⟨2, ![E, 1]⟩ : Shape).Idx := ix2 e (⟨0, Nat.one_pos⟩ : Fin 1)

variable (wf : ScatterDims.WF ⟨2, ![N, W]⟩ ⟨2, ![E, 1]⟩ ⟨2, ![E, W]⟩ [1] [0] [0] 1)

theorem rowScatter_start0 (idx : IVec ⟨2, ![E, 1]⟩ w) (e : Fin E) (b : Fin W) :
    (rowScatter N E W wf).start (ix2 e b) idx 0 = (idx (wordIdx e)).toInt := by
  unfold ScatterDims.start
  rw [dif_pos (show (0 : Fin 2) ∈ (rowScatter N E W wf).scatterDimsToOperandDims from List.mem_singleton.mpr rfl)]
  have hsi : (rowScatter N E W wf).siIdx (ix2 e b) ⟨List.idxOf (0 : Fin 2) (rowScatter N E W wf).scatterDimsToOperandDims,
      List.idxOf_lt_length_iff.2 (List.mem_singleton.mpr rfl)⟩ = wordIdx e := by
    funext c; refine Fin.ext ?_
    match c with
    | ⟨0, _⟩ => rfl
    | ⟨1, _⟩ => rfl
  rw [hsi]

theorem rowScatter_start1 (idx : IVec ⟨2, ![E, 1]⟩ w) (e : Fin E) (b : Fin W) :
    (rowScatter N E W wf).start (ix2 e b) idx 1 = 0 := by
  unfold ScatterDims.start
  rw [dif_neg (show ¬ (1 : Fin 2) ∈ (rowScatter N E W wf).scatterDimsToOperandDims from
    fun h => absurd (List.mem_singleton.mp h) fin2_one_ne_zero)]

theorem rowScatter_window0 (e : Fin E) (b : Fin W) : (rowScatter N E W wf).window (ix2 e b) 0 = 0 := by
  unfold ScatterDims.window
  rw [dif_neg (show ¬ (0 : Fin 2) ∈ (rowScatter N E W wf).sKept from
    fun h => (mem_kept_iff _ _).1 h (List.mem_singleton.mpr rfl))]

theorem rowScatter_window1 (e : Fin E) (b : Fin W) : (rowScatter N E W wf).window (ix2 e b) 1 = b.val := by
  unfold ScatterDims.window
  rw [dif_pos (show (1 : Fin 2) ∈ (rowScatter N E W wf).sKept from
    (mem_kept_iff _ _).2 fun h => absurd (List.mem_singleton.mp h) fin2_one_ne_zero)]
  rfl

/-- Update `(e, b)` lands on `(n, k)` exactly when edge `e`'s index word, read signed, is `n` and `b = k`. -/
theorem rowScatter_resultIdx? (idx : IVec ⟨2, ![E, 1]⟩ w) (e : Fin E) (b : Fin W) (n : Fin N) (k : Fin W) :
    (rowScatter N E W wf).resultIdx? (ix2 e b) idx = some (ix2 n k) ↔ (idx (wordIdx e)).toInt = (n.val : Int) ∧ b = k := by
  unfold ScatterDims.resultIdx?
  constructor
  · intro h
    split at h
    · rename_i hall
      have hf := Option.some.inj h
      have h0 := congrArg (fun f => (f 0).val) hf
      have h1 := congrArg (fun f => (f 1).val) hf
      simp only [rowScatter_start0, rowScatter_start1, rowScatter_window0, rowScatter_window1] at h0 h1
      have p0 := (hall 0).1
      rw [rowScatter_start0, rowScatter_window0] at p0
      refine ⟨?_, Fin.ext ?_⟩
      · have : ((idx (wordIdx e)).toInt + ((0 : Nat) : Int)).toNat = n.val := h0
        omega
      · have : ((0 : Int) + ((b.val : Nat) : Int)).toNat = k.val := h1
        omega
    · exact absurd h (by simp)
  · rintro ⟨h0, rfl⟩
    have hall : ∀ a, 0 ≤ (rowScatter N E W wf).start (ix2 e b) idx a + (rowScatter N E W wf).window (ix2 e b) a ∧
        (rowScatter N E W wf).start (ix2 e b) idx a + (rowScatter N E W wf).window (ix2 e b) a
          < (⟨2, ![N, W]⟩ : Shape).size a := by
      intro a
      match a with
      | ⟨0, _⟩ =>
        show 0 ≤ (rowScatter N E W wf).start (ix2 e b) idx 0 + (rowScatter N E W wf).window (ix2 e b) 0 ∧
          (rowScatter N E W wf).start (ix2 e b) idx 0 + (rowScatter N E W wf).window (ix2 e b) 0 < (N : Int)
        rw [rowScatter_start0, rowScatter_window0, h0]
        have := n.isLt
        omega
      | ⟨1, _⟩ =>
        show 0 ≤ (rowScatter N E W wf).start (ix2 e b) idx 1 + (rowScatter N E W wf).window (ix2 e b) 1 ∧
          (rowScatter N E W wf).start (ix2 e b) idx 1 + (rowScatter N E W wf).window (ix2 e b) 1 < (W : Int)
        rw [rowScatter_start1, rowScatter_window1]
        have := b.isLt
        omega
    rw [dif_pos hall]
    congr 1
    funext a
    refine Fin.ext ?_
    match a with
    | ⟨0, _⟩ =>
      show ((rowScatter N E W wf).start (ix2 e b) idx 0 + (rowScatter N E W wf).window (ix2 e b) 0).toNat = n.val
      rw [rowScatter_start0, rowScatter_window0, h0]; omega
    | ⟨1, _⟩ =>
      show ((rowScatter N E W wf).start (ix2 e b) idx 1 + (rowScatter N E W wf).window (ix2 e b) 1).toNat = b.val
      rw [rowScatter_start1, rowScatter_window1]; omega

/-- THE ROW SCATTER-ADD READ AT `(n, k)`: the operand's element plus, over the edges whose index word is `n`, the
    update's element in column `k`. -/
theorem rowScatter_apply (x : (⟨2, ![N, W]⟩ : Shape).Idx → EReal) (idx : IVec ⟨2, ![E, 1]⟩ w)
    (upd : (⟨2, ![E, W]⟩ : Shape).Idx → EReal) (n : Fin N) (k : Fin W) :
    Ideal.hostScatterAdd (rowScatter N E W wf) x idx upd (ix2 n k)
      = x (ix2 n k) + ∑ e : Fin E, if (idx (wordIdx e)).toInt = (n.val : Int) then upd (ix2 e k) else 0 := by
  unfold Ideal.hostScatterAdd
  congr 1
  rw [Finset.sum_filter, sum_idx2]
  refine Finset.sum_congr rfl fun e _ => ?_
  have step : ∀ b : Fin W, (if (rowScatter N E W wf).resultIdx? (ix2 e b) idx = some (ix2 n k) then upd (ix2 e b) else 0)
      = if b = k then (if (idx (wordIdx e)).toInt = (n.val : Int) then upd (ix2 e b) else 0) else 0 := by
    intro b
    rw [if_congr (rowScatter_resultIdx? wf idx e b n k) rfl rfl]
    by_cases hb : b = k
    · rw [if_pos hb]; exact if_congr (and_iff_left hb) rfl rfl
    · rw [if_neg hb, if_neg (fun h => hb h.2)]
  rw [Finset.sum_congr rfl fun b _ => step b, Finset.sum_ite_eq' Finset.univ k, if_pos (Finset.mem_univ k)]

end Rows

/-! ## The row gather: which row it reads -/

section Gather
variable {N E W w : Nat} {α : Type}

/-- The gather's dimension numbers: one whole row per index word. -/
abbrev rowGather (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- An index word read signed and clamped to a row of an `N`-row array. -/
def clampRow (N : Nat) (hN : 0 < N) {w : Nat} (b : BitVec w) : Fin N := ⟨min b.toInt.toNat (N - 1), by omega⟩

variable (wf : GatherDims.WF ⟨2, ![N, W]⟩ ⟨2, ![E, 1]⟩ ⟨2, ![E, W]⟩ [1] [0] [] [0] [] 1 ![1, W])

/-- THE ROW GATHER READ AT `(e, k)`: the operand's row named by edge `e`'s clamped index word, column `k`. -/
theorem rowGather_apply (hN : 0 < N) (x : (⟨2, ![N, W]⟩ : Shape).Idx → α) (idx : IVec ⟨2, ![E, 1]⟩ w) (e : Fin E)
    (k : Fin W) :
    Host.gather (rowGather N E W wf) x idx (ix2 e k) = x (ix2 (clampRow N hN (idx (wordIdx e))) k) := by
  unfold Host.gather
  congr 1
  funext a
  refine Fin.ext ?_
  match a with
  | ⟨0, _⟩ =>
    show (rowGather N E W wf).start (ix2 e k) idx 0 + (rowGather N E W wf).batchCoord (ix2 e k) 0
      + (rowGather N E W wf).offCoord (ix2 e k) 0 = min (idx (wordIdx e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E W wf).startIndexMap from List.mem_singleton.mpr rfl)]
    have hsi : (rowGather N E W wf).siIdx (ix2 e k) ⟨List.idxOf (0 : Fin 2) (rowGather N E W wf).startIndexMap,
        List.idxOf_lt_length_iff.2 (List.mem_singleton.mpr rfl)⟩ = wordIdx e := by
      funext c; refine Fin.ext ?_
      match c with
      | ⟨0, _⟩ => rfl
      | ⟨1, _⟩ => rfl
    rw [hsi]
    rfl
  | ⟨1, _⟩ =>
    show (rowGather N E W wf).start (ix2 e k) idx 1 + (rowGather N E W wf).batchCoord (ix2 e k) 1
      + (rowGather N E W wf).offCoord (ix2 e k) 1 = k.val
    rw [GatherDims.batchCoord_eq_zero _ _ _ List.not_mem_nil]
    unfold GatherDims.start
    rw [dif_neg (show ¬ (1 : Fin 2) ∈ (rowGather N E W wf).startIndexMap from
      fun h => absurd (List.mem_singleton.mp h) fin2_one_ne_zero)]
    unfold GatherDims.offCoord
    rw [dif_pos (show (1 : Fin 2) ∈ (rowGather N E W wf).sKept from
      (GatherDims.mem_sKept _ _).2 ⟨fun h => absurd (List.mem_singleton.mp h) fin2_one_ne_zero, List.not_mem_nil⟩)]
    simp only [Nat.zero_add, Nat.add_zero]
    rfl

end Gather

/-! ## Gather rows, scale, scatter-add: the neighbourhood sum read at an index -/

theorem aggRows_apply {N E W w : Nat} (hN : 0 < N)
    (wfS : ScatterDims.WF ⟨2, ![N, W]⟩ ⟨2, ![E, 1]⟩ ⟨2, ![E, W]⟩ [1] [0] [0] 1)
    (wfG : GatherDims.WF ⟨2, ![N, W]⟩ ⟨2, ![E, 1]⟩ ⟨2, ![E, W]⟩ [1] [0] [] [0] [] 1 ![1, W])
    (z : (⟨2, ![N, W]⟩ : Shape).Idx → EReal) (dst src : IVec ⟨2, ![E, 1]⟩ w)
    (h : (⟨2, ![N, W]⟩ : Shape).Idx → EReal) (wts : (⟨2, ![E, W]⟩ : Shape).Idx → EReal) (n : Fin N) (k : Fin W) :
    Ideal.hostScatterAdd (rowScatter N E W wfS) z dst
        (fun i => Host.gather (rowGather N E W wfG) h src i * wts i) (ix2 n k)
      = z (ix2 n k) + ∑ e : Fin E, if (dst (wordIdx e)).toInt = (n.val : Int)
          then h (ix2 (clampRow N hN (src (wordIdx e))) k) * wts (ix2 e k) else 0 := by
  rw [rowScatter_apply]
  congr 1
  refine Finset.sum_congr rfl fun e _ => ?_
  rw [rowGather_apply wfG hN]

/-! ## The algebra: a neighbourhood sum of reals commutes with a matrix product on the right -/

theorem agg_linear {N E K : Nat} (c : Fin E → Prop) [DecidablePred c] (σ : Fin E → Fin N) (h : Fin N → Fin K → ℝ)
    (wt : Fin E → ℝ) (B : Fin K → ℝ) :
    (∑ k : Fin K, ((0 : EReal) + ∑ e : Fin E, if c e then ((h (σ e) k : ℝ) : EReal) * ((wt e : ℝ) : EReal) else 0)
        * ((B k : ℝ) : EReal))
      = 0 + ∑ e : Fin E, if c e then (∑ k : Fin K, ((h (σ e) k : ℝ) : EReal) * ((B k : ℝ) : EReal)) * ((wt e : ℝ) : EReal)
          else 0 := by
  have hl : ∀ k : Fin K, ((0 : EReal) + ∑ e : Fin E, if c e then ((h (σ e) k : ℝ) : EReal) * ((wt e : ℝ) : EReal) else 0)
      = ((∑ e : Fin E, if c e then h (σ e) k * wt e else 0 : ℝ) : EReal) := by
    intro k
    rw [zero_add, coe_sum]
    refine Finset.sum_congr rfl fun e _ => ?_
    split_ifs
    · exact (EReal.coe_mul _ _).symm
    · rfl
  have hr : ∀ e : Fin E, (if c e then (∑ k : Fin K, ((h (σ e) k : ℝ) : EReal) * ((B k : ℝ) : EReal)) * ((wt e : ℝ) : EReal)
      else 0) = ((if c e then (∑ k : Fin K, h (σ e) k * B k) * wt e else 0 : ℝ) : EReal) := by
    intro e
    split_ifs
    · rw [EReal.coe_mul, coe_sum]
      refine congrArg (fun t => t * ((wt e : ℝ) : EReal)) (Finset.sum_congr rfl fun k _ => ?_)
      exact (EReal.coe_mul _ _).symm
    · rfl
  rw [Finset.sum_congr rfl fun k _ => by rw [hl k, ← EReal.coe_mul], ← coe_sum,
    Finset.sum_congr rfl fun e _ => hr e, ← coe_sum, zero_add]
  congr 1
  simp only [Finset.sum_mul]
  rw [Finset.sum_comm]
  refine Finset.sum_congr rfl fun e _ => ?_
  split_ifs
  · exact Finset.sum_congr rfl fun k _ => by ring
  · simp

end Cert.Bridge

end
-- ==== Proof.Bridge.LinFinite.lean ====
/-
  Every stage of the first layer is a real number at the ideal values, when the node features, the first layer's
  weights and its bias are.

  The degree of a node is a sum of ones onto zero, a nonnegative real; its inverse square root, taken of the larger
  of the degree and one, is the inverse square root of a positive real, a real. An edge's normalisation is the product
  of two of those. The transformed features are finite sums of products of reals; a message is a transformed row
  times a normalisation; the neighbourhood sum adds finitely many messages onto zero; the bias is added and the
  rectifier takes the larger of that and zero. Which row a gather reads does not matter: every row is real.
-/
import proofs.«423774_j65060164600241_3_alg».proof.Proof.Bridge.Spec
import proofs.«423774_j65060164600241_3_alg».proof.Proof.Bridge.LinearReads

noncomputable section

namespace Cert.Bridge

open Cert.ReferenceIdeal Cert.ReferenceIdeal.Gen Cert.ReferenceIdeal.Read Idealize.ShloMosaic Idealize.ShloMosaic.ValueIdx

/-! ## Over abstract arrays -/

/-- The 32-bit words of 0.0 and 1.0 as extended reals that are real numbers. -/
theorem real_ofBits_zero : FloatOps.ofBits (F := Ideal) .f32 0x00000000#32 = ((0 : ℝ) : EReal) :=
  Ideal.ofBits_zero_f32.trans EReal.coe_zero.symm
theorem real_ofBits_one : FloatOps.ofBits (F := Ideal) .f32 0x3F800000#32 = ((1 : ℝ) : EReal) :=
  Ideal.ofBits_one_f32.trans EReal.coe_one.symm

/-- A gather of an array of reals reads a real, whichever element it reads. -/
theorem real_gather {s si t : Shape} {w : Nat} (d : GatherDims s si t) (x : s.Idx → EReal) (idx : IVec si w)
    (hx : ∀ i, ∃ r : ℝ, x i = (r : EReal)) (j : t.Idx) : ∃ r : ℝ, Host.gather d x idx j = (r : EReal) := hx _

/-- The host's accumulating scatter of reals onto reals is real; of nonnegative reals onto nonnegative reals,
    nonnegative. -/
theorem real_hostScatterAdd {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd (F := Ideal) d x idx upd i = (r : EReal) :=
  real_scatterAdd d x idx upd hx hu i
theorem nonneg_real_hostScatterAdd {s si su : Shape} (d : ScatterDims s si su) {w : Nat} (x : FVec Ideal s .f32) (idx : IVec si w)
    (upd : FVec Ideal su .f32) (hx : ∀ i, ∃ r : ℝ, 0 ≤ r ∧ x i = (r : EReal)) (hu : ∀ j, ∃ r : ℝ, 0 ≤ r ∧ upd j = (r : EReal))
    (i : s.Idx) : ∃ r : ℝ, 0 ≤ r ∧ Host.scatterAdd (F := Ideal) d x idx upd i = (r : EReal) :=
  nonneg_real_scatterAdd d x idx upd hx hu i

/-- The host's product, sum and larger-of of two reals, and the inverse square root of the larger of a nonnegative
    real and one. -/
theorem real_hostMul {a b : EReal} (ha : ∃ r : ℝ, a = (r : EReal)) (hb : ∃ r : ℝ, b = (r : EReal)) :
    ∃ r : ℝ, FloatOps.mulf (F := Ideal) (φ := .f32) a b = (r : EReal) := real_mul ha hb
theorem real_hostAdd {a b : EReal} (ha : ∃ r : ℝ, a = (r : EReal)) (hb : ∃ r : ℝ, b = (r : EReal)) :
    ∃ r : ℝ, FloatOps.addf (F := Ideal) (φ := .f32) a b = (r : EReal) := real_add ha hb
theorem real_hostMax {a b : EReal} (ha : ∃ r : ℝ, a = (r : EReal)) (hb : ∃ r : ℝ, b = (r : EReal)) :
    ∃ r : ℝ, FloatOps.maximumf (F := Ideal) (φ := .f32) a b = (r : EReal) := real_max ha hb
theorem real_rsqrt_max_one {a b : EReal} (ha : ∃ r : ℝ, 0 ≤ r ∧ a = (r : EReal)) (hb : b = ((1 : ℝ) : EReal)) :
    ∃ r : ℝ, FloatOps.hostUnary (F := Ideal) (φ := .f32) .rsqrt (FloatOps.maximumf (F := Ideal) (φ := .f32) a b) = (r : EReal) := by
  obtain ⟨d, hd, rfl⟩ := ha
  subst hb
  show ∃ r : ℝ, Ideal.rsqrt (max (d : EReal) ((1 : ℝ) : EReal)) = (r : EReal)
  rw [coe_max]
  exact real_rsqrt_pos (lt_of_lt_of_le zero_lt_one (le_max_right d 1))

/-- A neighbourhood sum over abstract arrays: rows of a real array gathered, each scaled by a real weight, added onto
    a real array. -/
theorem real_neighbourSum {s si su : Shape} {w : Nat} (dS : ScatterDims s si su) (dG : GatherDims s si su)
    (z h : FVec Ideal s .f32) (dst src : IVec si w) (wts : FVec Ideal su .f32)
    (hz : ∀ i, ∃ r : ℝ, z i = (r : EReal)) (hh : ∀ i, ∃ r : ℝ, h i = (r : EReal)) (hw : ∀ j, ∃ r : ℝ, wts j = (r : EReal))
    (i : s.Idx) :
    ∃ r : ℝ, Host.scatterAdd (F := Ideal) dS z dst (mulf (F := Ideal) (Host.gather dG h src) wts) i = (r : EReal) :=
  real_hostScatterAdd dS z dst (mulf (F := Ideal) (Host.gather dG h src) wts) hz
    (fun j => real_hostMul (real_gather dG h src hh j) (hw j)) i

/-! ## The stages -/

/-- A node's degree: ones added onto zero, a nonnegative real. -/
theorem deg_real (x1 : IVec S2x1600000 32) (i : S100000.Idx) :
    ∃ r : ℝ, 0 ≤ r ∧ val_main_v11 (F := Ideal) x1 i = (r : EReal) := by
  have h9 : ∀ i, ∃ r : ℝ, 0 ≤ r ∧ val_main_v9 (F := Ideal) i = (r : EReal) := fun i =>
    ⟨0, le_refl 0, by rw [val_main_v9_apply, val_main_cst_0_apply]; exact real_ofBits_zero⟩
  have h8 : ∀ j, ∃ r : ℝ, 0 ≤ r ∧ val_main_v8 (F := Ideal) j = (r : EReal) := fun j =>
    ⟨1, zero_le_one, by rw [val_main_v8_apply, val_main_cst_apply]; exact real_ofBits_one⟩
  unfold val_main_v11
  generalize val_main_v9 (F := Ideal) = z at h9 ⊢
  generalize val_main_v8 (F := Ideal) = u at h8 ⊢
  generalize val_main_v10 (F := Ideal) x1 = idx
  exact nonneg_real_hostScatterAdd _ z idx u h9 h8 i

/-- The inverse square root of the larger of the degree and one. -/
theorem dinv_real (x1 : IVec S2x1600000 32) (i : S100000.Idx) : ∃ r : ℝ, val_main_v14 (F := Ideal) x1 i = (r : EReal) := by
  have hd := deg_real x1 i
  have h1 : val_main_v12 (F := Ideal) i = ((1 : ℝ) : EReal) := by
    rw [val_main_v12_apply, val_main_cst_1_apply]; exact real_ofBits_one
  rw [val_main_v14_apply, val_main_v13_apply]
  generalize val_main_v11 (F := Ideal) x1 i = a at hd ⊢
  generalize val_main_v12 (F := Ideal) i = b at h1 ⊢
  exact real_rsqrt_max_one hd h1

/-- An edge's normalisation: the product of its two endpoints' inverse square roots. -/
theorem w_real (x1 : IVec S2x1600000 32) (e : S1700000.Idx) : ∃ r : ℝ, val_main_v29 (F := Ideal) x1 e = (r : EReal) := by
  have h21 : ∃ r : ℝ, val_main_v21 (F := Ideal) x1 e = (r : EReal) := by
    unfold val_main_v21
    generalize val_main_v20 (F := Ideal) x1 = idx
    exact real_gather _ _ idx (dinv_real x1) e
  have h28 : ∃ r : ℝ, val_main_v28 (F := Ideal) x1 e = (r : EReal) := by
    unfold val_main_v28
    generalize val_main_v27 (F := Ideal) x1 = idx
    exact real_gather _ _ idx (dinv_real x1) e
  rw [val_main_v29_apply]
  generalize val_main_v21 (F := Ideal) x1 e = a at h21 ⊢
  generalize val_main_v28 (F := Ideal) x1 e = b at h28 ⊢
  exact real_hostMul h21 h28

/-- The same, repeated along the sixteen columns. -/
theorem w38_real (x1 : IVec S2x1600000 32) (j : S1700000x16.Idx) : ∃ r : ℝ, val_main_v38 (F := Ideal) x1 j = (r : EReal) := by
  rw [val_main_v38_apply, val_main_v37_apply]
  exact w_real x1 _

/-- The transformed features: finite sums of products of reals. -/
theorem xw_real (x0 : FVec Ideal S100000x128 .f32) (x3 : FVec Ideal S128x16 .f32)
    (hx0 : ∀ i, ∃ r : ℝ, x0 i = (r : EReal)) (hx3 : ∀ i, ∃ r : ℝ, x3 i = (r : EReal)) (i : S100000x16.Idx) :
    ∃ r : ℝ, val_main_v4 (F := Ideal) x0 x3 i = (r : EReal) := by
  rw [val_main_v4_apply]
  exact real_sum _ _ fun k _ => real_mul (hx0 _) (hx3 _)

/-- Zero everywhere, as a real. -/
theorem zeros16_real (i : S100000x16.Idx) : ∃ r : ℝ, val_main_v40 (F := Ideal) i = (r : EReal) := by
  rw [val_main_v40_apply, val_main_cst_7_apply]; exact ⟨0, real_ofBits_zero⟩

/-- The first layer's neighbourhood sum of the transformed features. -/
theorem agg1_real (x0 : FVec Ideal S100000x128 .f32) (x1 : IVec S2x1600000 32) (x3 : FVec Ideal S128x16 .f32)
    (hx0 : ∀ i, ∃ r : ℝ, x0 i = (r : EReal)) (hx3 : ∀ i, ∃ r : ℝ, x3 i = (r : EReal)) (i : S100000x16.Idx) :
    ∃ r : ℝ, val_main_v42 (F := Ideal) x0 x1 x3 i = (r : EReal) := by
  have h36 : ∀ j, ∃ r : ℝ, val_main_v36 (F := Ideal) x0 x1 x3 j = (r : EReal) := fun j => by
    unfold val_main_v36
    generalize val_main_v35 (F := Ideal) x1 = idx
    exact real_gather _ _ idx (xw_real x0 x3 hx0 hx3) j
  have h39 : ∀ j, ∃ r : ℝ, val_main_v39 (F := Ideal) x0 x1 x3 j = (r : EReal) := fun j => by
    have ha := h36 j
    have hb := w38_real x1 j
    rw [val_main_v39_apply]
    generalize val_main_v36 (F := Ideal) x0 x1 x3 j = a at ha ⊢
    generalize val_main_v38 (F := Ideal) x1 j = b at hb ⊢
    exact real_hostMul ha hb
  have h40 := zeros16_real
  unfold val_main_v42
  generalize val_main_v39 (F := Ideal) x0 x1 x3 = u at h39 ⊢
  generalize val_main_v40 (F := Ideal) = z at h40 ⊢
  generalize val_main_v41 (F := Ideal) x1 = idx
  exact real_hostScatterAdd _ z idx u h40 h39 i

/-- The first layer's activations. -/
theorem h1_real (x0 : FVec Ideal S100000x128 .f32) (x1 : IVec S2x1600000 32) (x3 : FVec Ideal S128x16 .f32) (x4 : FVec Ideal S16 .f32)
    (hx0 : ∀ i, ∃ r : ℝ, x0 i = (r : EReal)) (hx3 : ∀ i, ∃ r : ℝ, x3 i = (r : EReal)) (hx4 : ∀ i, ∃ r : ℝ, x4 i = (r : EReal))
    (i : S100000x16.Idx) : ∃ r : ℝ, val_main_v46 (F := Ideal) x0 x1 x3 x4 i = (r : EReal) := by
  have h42 := agg1_real x0 x1 x3 hx0 hx3 i
  have h44 : ∃ r : ℝ, val_main_v44 (F := Ideal) x4 i = (r : EReal) := by
    rw [val_main_v44_apply, val_main_v43_apply]; exact hx4 _
  have h0 : ∃ r : ℝ, val_main_call0_v0 (F := Ideal) i = (r : EReal) := by
    rw [val_main_call0_v0_apply, val_main_call0_cst_apply]; exact ⟨0, real_ofBits_zero⟩
  rw [val_main_v46_apply, val_main_v45_apply]
  generalize val_main_v42 (F := Ideal) x0 x1 x3 i = a at h42 ⊢
  generalize val_main_v44 (F := Ideal) x4 i = b at h44 ⊢
  generalize val_main_call0_v0 (F := Ideal) i = c at h0 ⊢
  exact real_hostMax (real_hostAdd h42 h44) h0

/-- The neighbourhood sum of the activations: finitely many real messages added onto zero. -/
theorem agg2_finite (x0 : FVec Ideal S100000x128 .f32) (x1 : IVec S2x1600000 32) (x3 : FVec Ideal S128x16 .f32) (x4 : FVec Ideal S16 .f32)
    (hx0 : ∀ i, ∃ r : ℝ, x0 i = (r : EReal)) (hx3 : ∀ i, ∃ r : ℝ, x3 i = (r : EReal)) (hx4 : ∀ i, ∃ r : ℝ, x4 i = (r : EReal))
    (i : S100000x16.Idx) : ∃ r : ℝ, agg2 x0 x1 x3 x4 i = (r : EReal) := by
  have h46 := h1_real x0 x1 x3 x4 hx0 hx3 hx4
  have h38 := w38_real x1
  have h40 := zeros16_real
  unfold agg2
  generalize val_main_v46 (F := Ideal) x0 x1 x3 x4 = h at h46 ⊢
  generalize val_main_v38 (F := Ideal) x1 = wts at h38 ⊢
  generalize val_main_v40 (F := Ideal) = z at h40 ⊢
  generalize val_main_v35 (F := Ideal) x1 = src
  generalize val_main_v41 (F := Ideal) x1 = dst
  exact real_neighbourSum _ _ z h dst src wts h40 h46 h38 i

end Cert.Bridge

end
-- ==== Proof.Bridge.Linear.lean ====
/-
  Aggregate-then-transform equals transform-then-aggregate, at the ideal instance.

  The reference's second layer multiplies the activations `h1 = val_main_v46` (16 columns) by `x5` (16 × 128), gathers
  the rows of the product at each edge's source node, scales each row by the edge's normalisation and adds it onto the
  row of the edge's destination node (`val_main_v85`). `agg2` does the gather, the scaling and the addition on the
  16-wide rows of `h1` itself. Both neighbourhood sums range over the same edges, read the same source rows and use
  the same weights, because the stages of the second call that compute them are the first call's stages over again.
  When every entry of `h1`, every weight and every entry of `x5` is a real number, multiplying `agg2` by `x5` gives
  `val_main_v85`: distributivity and an exchange of two finite sums.
-/
import proofs.«423774_j65060164600241_3_alg».proof.Proof.Bridge.Spec
import proofs.«423774_j65060164600241_3_alg».proof.Proof.Bridge.LinearReads
import proofs.«423774_j65060164600241_3_alg».proof.Proof.Bridge.LinFinite

noncomputable section

open scoped BigOperators

namespace Cert.Bridge

open Cert.ReferenceIdeal Cert.ReferenceIdeal.Gen Cert.ReferenceIdeal.Read Idealize.ShloMosaic Idealize.ShloMosaic.TcCoe
  Idealize.ShloMosaic.StableHlo Idealize.ShloMosaic.ValueIdx

/-! ## The second call's index and normalisation stages are the first call's -/

section Stages
variable {F : FTy → Type} [FloatOps F]

/-- The destination index words of the second scatter are those of the first. -/
theorem v84_eq_v41 (x1 : (⟨S2x1600000, .i32⟩ : BufTy).Contents (Elt F)) :
    val_main_v84 (F := F) x1 = val_main_v41 (F := F) x1 := rfl

/-- The source index words of the second gather are those of the first. -/
theorem v78_eq_v35 (x1 : (⟨S2x1600000, .i32⟩ : BufTy).Contents (Elt F)) :
    val_main_v78 (F := F) x1 = val_main_v35 (F := F) x1 := rfl

/-- The edge normalisation of the second call is that of the first. -/
theorem v72_eq_v29 (x1 : (⟨S2x1600000, .i32⟩ : BufTy).Contents (Elt F)) :
    val_main_v72 (F := F) x1 = val_main_v29 (F := F) x1 := rfl

end Stages

/-! ## The stages at an index -/

/-- The 16-wide broadcast of the edge normalisation reads edge `e`'s weight in every column. -/
theorem v38_at (x1 : IVec S2x1600000 32) (e : Fin 1700000) (k : Fin 16) :
    val_main_v38 (F := Ideal) x1 (ix2 e k) = val_main_v29 (F := Ideal) x1 (ix1 e) := by
  rw [val_main_v38_apply, val_main_v37_apply]
  congr 1
  funext a
  match a with
  | ⟨0, _⟩ => rfl

/-- The 128-wide broadcast of the edge normalisation reads the same weight. -/
theorem v81_at (x1 : IVec S2x1600000 32) (e : Fin 1700000) (j : Fin 128) :
    val_main_v81 (F := Ideal) x1 (ix2 e j) = val_main_v29 (F := Ideal) x1 (ix1 e) := by
  rw [val_main_v81_apply, val_main_v80_apply, v72_eq_v29]
  congr 1
  funext a
  match a with
  | ⟨0, _⟩ => rfl

/-- The first scatter's operand is zero. -/
theorem v40_at (i : S100000x16.Idx) : val_main_v40 (F := Ideal) i = (0 : EReal) := by
  rw [val_main_v40_apply, val_main_cst_7_apply]
  exact Ideal.ofBits_zero_f32

/-- The second scatter's operand is zero. -/
theorem v83_at (i : S100000x128.Idx) : val_main_v83 (F := Ideal) i = (0 : EReal) := by
  rw [val_main_v83_apply, val_main_cst_17_apply]
  exact Ideal.ofBits_zero_f32

/-- The product `h1 · x5` at `(m, j)` is the sum over the 16 columns of `h1`'s row `m`. -/
theorem v47_at (x0 : FVec Ideal S100000x128 .f32) (x1 : IVec S2x1600000 32) (x3 : FVec Ideal S128x16 .f32)
    (x4 : FVec Ideal S16 .f32) (x5 : FVec Ideal S16x128 .f32) (m : Fin 100000) (j : Fin 128) :
    val_main_v47 (F := Ideal) x0 x1 x3 x4 x5 (ix2 m j)
      = ∑ k : Fin 16, val_main_v46 (F := Ideal) x0 x1 x3 x4 (ix2 m k) * x5 (ix2 k j) := by
  rw [val_main_v47_apply]
  refine Finset.sum_congr rfl fun k _ => ?_
  have el : lidx_main_v47 (ix2 m j) k = ix2 m k := by
    funext a
    match a with
    | ⟨0, _⟩ => rfl
    | ⟨1, _⟩ => rfl
  have er : ridx_main_v47 (ix2 m j) k = ix2 k j := by
    funext a
    match a with
    | ⟨0, _⟩ => rfl
    | ⟨1, _⟩ => rfl
  rw [el, er]

/-! ## The dimension-number records of the two layers are the row scatter and the row gather -/

theorem scatter16_eq : scatter_S100000x16_S1700000x1_S1700000x16_1_0_0_1
    = rowScatter 100000 1700000 16 Facts₀.scatter_S100000x16_S1700000x1_S1700000x16_1_0_0_1_wf := rfl
theorem gather16_eq : gather_S100000x16_S1700000x1_S1700000x16_1_0_n_n_0_1_116
    = rowGather 100000 1700000 16 Facts₀.gather_S100000x16_S1700000x1_S1700000x16_1_0_n_n_0_1_116_wf := rfl
theorem scatter128_eq : scatter_S100000x128_S1700000x1_S1700000x128_1_0_0_1
    = rowScatter 100000 1700000 128 Facts₀.scatter_S100000x128_S1700000x1_S1700000x128_1_0_0_1_wf := rfl
theorem gather128_eq : gather_S100000x128_S1700000x1_S1700000x128_1_0_n_n_0_1_1128
    = rowGather 100000 1700000 128 Facts₀.gather_S100000x128_S1700000x1_S1700000x128_1_0_n_n_0_1_1128_wf := rfl

/-- The neighbourhood sum as the host operations spell it: a scatter-add of the product of gathered rows and weights. -/
theorem aggRows_host_apply {N E W w : Nat} (hN : 0 < N)
    (wfS : ScatterDims.WF ⟨2, ![N, W]⟩ ⟨2, ![E, 1]⟩ ⟨2, ![E, W]⟩ [1] [0] [0] 1)
    (wfG : GatherDims.WF ⟨2, ![N, W]⟩ ⟨2, ![E, 1]⟩ ⟨2, ![E, W]⟩ [1] [0] [] [0] [] 1 ![1, W])
    (z : FVec Ideal ⟨2, ![N, W]⟩ .f32) (dst src : IVec ⟨2, ![E, 1]⟩ w)
    (h : FVec Ideal ⟨2, ![N, W]⟩ .f32) (wts : FVec Ideal ⟨2, ![E, W]⟩ .f32) (n : Fin N) (k : Fin W) :
    Host.scatterAdd (F := Ideal) (rowScatter N E W wfS) z dst
        (mulf (F := Ideal) (Host.gather (rowGather N E W wfG) h src) wts) (ix2 n k)
      = z (ix2 n k) + ∑ e : Fin E, if BitVec.toInt (dst (wordIdx e)) = (n.val : Int)
          then h (ix2 (clampRow N hN (src (wordIdx e))) k) * wts (ix2 e k) else 0 :=
  aggRows_apply hN wfS wfG z dst src h wts n k

/-- `agg2` at `(n, k)`: over the edges whose destination word is `n`, the source row of `h1` in column `k` times the
    edge's weight. -/
theorem agg2_apply (x0 : FVec Ideal S100000x128 .f32) (x1 : IVec S2x1600000 32) (x3 : FVec Ideal S128x16 .f32)
    (x4 : FVec Ideal S16 .f32) (n : Fin 100000) (k : Fin 16) :
    agg2 x0 x1 x3 x4 (ix2 n k) = val_main_v40 (F := Ideal) (ix2 n k) + ∑ e : Fin 1700000,
      if BitVec.toInt (val_main_v41 (F := Ideal) x1 (wordIdx e)) = (n.val : Int)
      then val_main_v46 (F := Ideal) x0 x1 x3 x4
          (ix2 (clampRow 100000 (by decide) (val_main_v35 (F := Ideal) x1 (wordIdx e))) k)
        * val_main_v38 (F := Ideal) x1 (ix2 e k)
      else 0 := by
  unfold agg2
  generalize val_main_v46 (F := Ideal) x0 x1 x3 x4 = h
  generalize val_main_v40 (F := Ideal) = z
  generalize val_main_v41 (F := Ideal) x1 = dst
  generalize val_main_v35 (F := Ideal) x1 = src
  generalize val_main_v38 (F := Ideal) x1 = wts
  rw [scatter16_eq, gather16_eq, aggRows_host_apply (by decide)]

/-- The reference's second aggregation at `(n, j)`: over the same edges, the source row of `h1 · x5` in column `j`
    times the edge's weight. -/
theorem v85_apply (x0 : FVec Ideal S100000x128 .f32) (x1 : IVec S2x1600000 32) (x3 : FVec Ideal S128x16 .f32)
    (x4 : FVec Ideal S16 .f32) (x5 : FVec Ideal S16x128 .f32) (n : Fin 100000) (j : Fin 128) :
    val_main_v85 (F := Ideal) x0 x1 x3 x4 x5 (ix2 n j) = val_main_v83 (F := Ideal) (ix2 n j) + ∑ e : Fin 1700000,
      if BitVec.toInt (val_main_v84 (F := Ideal) x1 (wordIdx e)) = (n.val : Int)
      then val_main_v47 (F := Ideal) x0 x1 x3 x4 x5
          (ix2 (clampRow 100000 (by decide) (val_main_v78 (F := Ideal) x1 (wordIdx e))) j)
        * val_main_v81 (F := Ideal) x1 (ix2 e j)
      else 0 := by
  unfold val_main_v85 val_main_v82 val_main_v79
  generalize val_main_v47 (F := Ideal) x0 x1 x3 x4 x5 = h
  generalize val_main_v83 (F := Ideal) = z
  generalize val_main_v84 (F := Ideal) x1 = dst
  generalize val_main_v78 (F := Ideal) x1 = src
  generalize val_main_v81 (F := Ideal) x1 = wts
  rw [scatter128_eq, gather128_eq, aggRows_host_apply (by decide)]

/-! ## The claim -/

/-- AGGREGATE, THEN TRANSFORM: the neighbourhood sum of the 16-wide activations times `x5` is the reference's
    neighbourhood sum of the transformed 128-wide rows, when the inputs are real numbers. -/
theorem lin (x0 : FVec Ideal S100000x128 .f32) (x1 : IVec S2x1600000 32) (x3 : FVec Ideal S128x16 .f32)
    (x4 : FVec Ideal S16 .f32) (x5 : FVec Ideal S16x128 .f32)
    (hx0 : ∀ i, ∃ r : ℝ, x0 i = (r : EReal)) (hx3 : ∀ i, ∃ r : ℝ, x3 i = (r : EReal))
    (hx4 : ∀ i, ∃ r : ℝ, x4 i = (r : EReal)) (hx5 : ∀ i, ∃ r : ℝ, x5 i = (r : EReal))
    (n : Fin 100000) (j : Fin 128) :
    (∑ k : Fin 16, agg2 x0 x1 x3 x4 (ix2 n k) * x5 (ix2 k j))
      = val_main_v85 (F := Ideal) x0 x1 x3 x4 x5 (ix2 n j) := by
  choose H hH using h1_real x0 x1 x3 x4 hx0 hx3 hx4
  choose Wt hWt using w_real x1
  choose B hB using hx5
  have L : ∀ k : Fin 16, agg2 x0 x1 x3 x4 (ix2 n k) = (0 : EReal) + ∑ e : Fin 1700000,
      if BitVec.toInt (val_main_v41 (F := Ideal) x1 (wordIdx e)) = (n.val : Int)
      then ((H (ix2 (clampRow 100000 (by decide) (val_main_v35 (F := Ideal) x1 (wordIdx e))) k) : ℝ) : EReal)
        * ((Wt (ix1 e) : ℝ) : EReal)
      else 0 := by
    intro k
    rw [agg2_apply, v40_at]
    refine congrArg (fun t : EReal => (0 : EReal) + t) (Finset.sum_congr rfl fun e _ => ?_)
    rw [v38_at, hH, hWt]
  have R : val_main_v85 (F := Ideal) x0 x1 x3 x4 x5 (ix2 n j) = (0 : EReal) + ∑ e : Fin 1700000,
      if BitVec.toInt (val_main_v41 (F := Ideal) x1 (wordIdx e)) = (n.val : Int)
      then (∑ k : Fin 16,
          ((H (ix2 (clampRow 100000 (by decide) (val_main_v35 (F := Ideal) x1 (wordIdx e))) k) : ℝ) : EReal)
            * ((B (ix2 k j) : ℝ) : EReal))
        * ((Wt (ix1 e) : ℝ) : EReal)
      else 0 := by
    rw [v85_apply, v83_at, v84_eq_v41, v78_eq_v35]
    refine congrArg (fun t : EReal => (0 : EReal) + t) (Finset.sum_congr rfl fun e _ => ?_)
    refine if_congr Iff.rfl ?_ rfl
    rw [v81_at, v47_at, hWt]
    refine congrArg (fun t => t * ((Wt (ix1 e) : ℝ) : EReal)) (Finset.sum_congr rfl fun k _ => ?_)
    rw [hH, hB]
  rw [Finset.sum_congr rfl fun k _ => by rw [L k, hB (ix2 k j)], R]
  exact agg_linear (N := 100000) (E := 1700000) (K := 16)
    (fun e => BitVec.toInt (val_main_v41 (F := Ideal) x1 (wordIdx e)) = (n.val : Int))
    (fun e => clampRow 100000 (by decide) (val_main_v35 (F := Ideal) x1 (wordIdx e)))
    (fun m k => H (ix2 m k)) (fun e => Wt (ix1 e)) (fun k => B (ix2 k j))

end Cert.Bridge

end
-- ==== Proof.Bridge.PoolPoint.lean ====
/-
  The pooling region's payloads read at an index, at the ideal instance (every float an extended real).

  At one block of 5000 rows the kernel forms the activated rows `h2 = max (a · w2 + b2, 0)` (5000×128), the one-hot
  matrix of the rows' graph ids (entry `(r, g)` is one when row `r`'s id is the word of `g`, else zero), and adds to the
  128×128 sums the product of the transposed one-hot matrix with `h2`, to the 128×1 counts its product with a column of
  ones. Read at `(g, d)` the sums' payload is what was there plus `∑ r, hot (id r) g * h2 r d`; read at `(g, 0)` the counts'
  payload is what was there plus `∑ r, hot (id r) g`. Format changes are the identity and a sum into a zero accumulator is
  the sum, so nothing here needs a finite value.
-/
import proofs.«423774_j65060164600241_3_alg».proof.Proof.KI.Defs
import proofs.«423774_j65060164600241_3_alg».proof.Proof.Bridge.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.Bridge

open Cert.KernelIdeal Cert.KernelIdeal.Gen Idealize.ShloMosaic Idealize.ShloMosaic.TcCoe Idealize.ShloMosaic.ValueIdx
open scoped BigOperators

/-- The one-hot weight of a graph-id word `w` at graph `g`: one when `w` is the 32-bit word of `g`, else zero. -/
def hot (w : BitVec 32) (g : Fin 128) : EReal := if w = BitVec.ofNat 32 g.val then 1 else 0

theorem hot_of_eq {w : BitVec 32} {g : Fin 128} (h : w = BitVec.ofNat 32 g.val) : hot w g = 1 := if_pos h
theorem hot_of_ne {w : BitVec 32} {g : Fin 128} (h : ¬ w = BitVec.ofNat 32 g.val) : hot w g = 0 := if_neg h

/-- A comparison bit widened to a word and converted signed is one when the words agree, zero when they differ. -/
theorem sitofp_extui_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  rw [toInt_setWidth_bit]
  by_cases h : x = y
  · subst h
    rw [if_pos rfl]
    have : IntOp.cmpi .eq x x = 1#1 := by simp [IntOp.cmpi]
    rw [this]; norm_num
  · rw [if_neg h]
    have hb : (x == y) = false := beq_false_of_ne h
    have : IntOp.cmpi .eq x y = 0#1 := by simp [IntOp.cmpi, hb]
    rw [this]; norm_num

/-- A `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel's one-hot block at row `r`, graph `g`: the one-hot weight of the row's graph-id word. -/
theorem k1_pay5_apply (bt : Vec Ideal S5000x1 .i32) (r : Fin 5000) (g : Fin 128) :
    k1_pay5 (F := Ideal) bt (ix2 r g) = hot (bt (ix2 r (0 : Fin 1))) g := by
  unfold k1_pay5
  simp only [shapeCast_self]
  rw [truncf_apply, sitofp_apply, extui_apply]
  show FloatOps.sitofp (F := Ideal) .f32 ((IntOp.cmpi .eq (broadcastTo S5000x128 bt broadcasts_S5000x1_S5000x128 (ix2 r g))
    (iota .tc S5000x128 32 [1] iota_S5000x128_d1_w32 (ix2 r g))).setWidth 32) = _
  rw [sitofp_extui_cmpi_eq, broadcastTo_a1_ab_apply, iota_single_apply]
  rfl

/-! ### The three products' operand indices -/

theorem lhs_lin_0 (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
theorem lhs_lin_1 (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
theorem rhs_lin_0 (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
theorem rhs_lin_1 (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

theorem lhs_pool_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_pool_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_pool_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_pool_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

theorem lhs_cnt_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
theorem lhs_cnt_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl
theorem rhs_cnt_0 (i : S128x1.Idx) (q : dot_S5000x128_S5000x1_S128x1_0_0_1_1_n_n.contr.Idx) :
    (dot_S5000x128_S5000x1_S128x1_0_0_1_1_n_n.rhsIdx i q 0).val = (q ⟨0, by decide⟩).val :=
  dot_S5000x128_S5000x1_S128x1_0_0_1_1_n_n.rhsIdx_val_of_single rfl i q

/-- The activated block at row `r`, column `d`: the rectified affine image of the row. -/
theorem h2blk_apply (a : Vec Ideal S5000x16 .f32) (w2 : Vec Ideal S16x128 .f32) (b2row : Vec Ideal S1x128 .f32) (r : Fin 5000) (d : Fin 128) :
    maximumf (F := Ideal) (addf (matmul dot_S5000x16_S16x128_S5000x128_1_0_0_1_n_n none (truncf .bf16 a bitsLt_bf16_f32) (truncf .bf16 w2 bitsLt_bf16_f32) (constant S5000x128 .f32 0x00000000#32))
        (broadcastTo S5000x128 b2row broadcasts_S1x128_S5000x128)) (broadcast S5000x128 (Scalar.ofBits .f32 0x00000000#32)) (ix2 r d)
      = max ((∑ k : Fin 16, a (ix2 r k) * w2 (ix2 k d)) + b2row (ix2 (0 : Fin 1) d)) 0 := by
  rw [maximumf_apply, addf_apply, broadcast_apply, broadcastTo_1b_ab_apply]
  simp only [matmul]
  rw [Ideal.matmul_constant_zero_apply, ← Equiv.sum_comp (contrEquiv1 dot_S5000x16_S16x128_S5000x128_1_0_0_1_n_n 16 rfl rfl).symm]
  have hz : (Scalar.ofBits .f32 0x00000000#32 : Ideal .f32) = 0 := Ideal.ofBits_zero_f32
  rw [hz]
  congr 2
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 r d) ((contrEquiv1 dot_S5000x16_S16x128_S5000x128_1_0_0_1_n_n 16 rfl rfl).symm k) = ix2 r k := funext fun ax => Fin.ext (by
    match ax with
    | ⟨0, _⟩ => exact lhs_lin_0 _ _
    | ⟨1, _⟩ => exact (lhs_lin_1 _ _).trans hk)
  have er : dot_S5000x16_S16x128_S5000x128_1_0_0_1_n_n.rhsIdx (ix2 r d) ((contrEquiv1 dot_S5000x16_S16x128_S5000x128_1_0_0_1_n_n 16 rfl rfl).symm k) = ix2 k d := funext fun ax => Fin.ext (by
    match ax with
    | ⟨0, _⟩ => exact (rhs_lin_0 _ _).trans hk
    | ⟨1, _⟩ => exact rhs_lin_1 _ _)
  rw [el, er, truncf_apply, truncf_apply]

/-- The pooled-sum payload at graph `g`, column `d`: what was there plus, over the block's rows, the one-hot weight of the
    row's graph id times the row's activated value. -/
theorem k1_pay6_apply (a : Vec Ideal S5000x16 .f32) (w2 : Vec Ideal S16x128 .f32) (b2row : Vec Ideal S1x128 .f32)
    (bt : Vec Ideal S5000x1 .i32) (P : Vec Ideal S128x128 .f32) (g d : Fin 128) :
    k1_pay6 (F := Ideal) a w2 b2row bt P (ix2 g d)
      = P (ix2 g d) + ∑ r : Fin 5000, hot (bt (ix2 r (0 : Fin 1))) g
          * max ((∑ k : Fin 16, a (ix2 r k) * w2 (ix2 k d)) + b2row (ix2 (0 : Fin 1) d)) 0 := by
  unfold k1_pay6
  simp only [shapeCast_self]
  rw [addf_apply]
  congr 1
  simp only [matmul]
  rw [Ideal.matmul_constant_zero_apply, ← Equiv.sum_comp (contrEquiv1 dot_S5000x128_S5000x128_S128x128_0_0_1_1_n_n 5000 rfl rfl).symm]
  refine Finset.sum_congr rfl fun r _ => ?_
  have hk := contrEquiv1_symm_val dot_S5000x128_S5000x128_S128x128_0_0_1_1_n_n 5000 rfl rfl r
  have el : dot_S5000x128_S5000x128_S128x128_0_0_1_1_n_n.lhsIdx (ix2 g d) ((contrEquiv1 dot_S5000x128_S5000x128_S128x128_0_0_1_1_n_n 5000 rfl rfl).symm r) = ix2 r g := funext fun ax => Fin.ext (by
    match ax with
    | ⟨0, _⟩ => exact (lhs_pool_0 _ _).trans hk
    | ⟨1, _⟩ => exact lhs_pool_1 _ _)
  have er : dot_S5000x128_S5000x128_S128x128_0_0_1_1_n_n.rhsIdx (ix2 g d) ((contrEquiv1 dot_S5000x128_S5000x128_S128x128_0_0_1_1_n_n 5000 rfl rfl).symm r) = ix2 r d := funext fun ax => Fin.ext (by
    match ax with
    | ⟨0, _⟩ => exact (rhs_pool_0 _ _).trans hk
    | ⟨1, _⟩ => exact rhs_pool_1 _ _)
  rw [el, er, k1_pay5_apply, truncf_apply, h2blk_apply]

/-- The count payload at graph `g`: what was there plus the number of the block's rows whose graph id is `g`. -/
theorem k1_pay7_apply (bt : Vec Ideal S5000x1 .i32) (C : Vec Ideal S128x1 .f32) (g : Fin 128) :
    k1_pay7 (F := Ideal) bt C (ix2 g (0 : Fin 1)) = C (ix2 g (0 : Fin 1)) + ∑ r : Fin 5000, hot (bt (ix2 r (0 : Fin 1))) g := by
  unfold k1_pay7
  simp only [matmul]
  rw [addf_apply]
  refine congrArg (C (ix2 g (0 : Fin 1)) + ·) ?_
  rw [Ideal.matmul_constant_zero_apply, ← Equiv.sum_comp (contrEquiv1 dot_S5000x128_S5000x1_S128x1_0_0_1_1_n_n 5000 rfl rfl).symm]
  refine Finset.sum_congr rfl fun r _ => ?_
  have hk := contrEquiv1_symm_val dot_S5000x128_S5000x1_S128x1_0_0_1_1_n_n 5000 rfl rfl r
  have el : dot_S5000x128_S5000x1_S128x1_0_0_1_1_n_n.lhsIdx (ix2 g (0 : Fin 1)) ((contrEquiv1 dot_S5000x128_S5000x1_S128x1_0_0_1_1_n_n 5000 rfl rfl).symm r) = ix2 r g := funext fun ax => Fin.ext (by
    match ax with
    | ⟨0, _⟩ => exact (lhs_cnt_0 _ _).trans hk
    | ⟨1, _⟩ => exact lhs_cnt_1 _ _)
  have h1 : (Scalar.ofBits .bf16 0x3F80#16 : Ideal .bf16) = 1 := Ideal.ofBits_one_bf16
  rw [el, k1_pay5_apply, broadcast_apply, h1, mul_one]

/-- The store of the counts is a cast to the same shape. -/
theorem k1_pay1_eq (v : FVec Ideal S128x1 .f32) : k1_pay1 (F := Ideal) v = v := by
  unfold k1_pay1
  exact shapeCast_self _ _

/-- The first block starts from zero sums … -/
theorem k1_pay3_apply (i : S128x128.Idx) : k1_pay3 (F := Ideal) i = 0 := by
  unfold k1_pay3
  simp only [shapeCast_self]
  rw [broadcast_apply]
  exact Ideal.ofBits_zero_f32

/-- … and zero counts. -/
theorem k1_pay4_apply (i : S128x1.Idx) : k1_pay4 (F := Ideal) i = 0 := by
  unfold k1_pay4
  simp only [shapeCast_self]
  rw [broadcast_apply]
  exact Ideal.ofBits_zero_f32

end Cert.Bridge

end
-- ==== Proof.Bridge.PoolRef.lean ====
/-
  The reference's pooling, read at an index. It pools the 100000 rows of activations into 128 graphs with two
  scatter-adds driven by the rows' graph words x2: the sums (a 128×128 array, from zero, row n's 128 entries added into
  row x2[n]) and the counts (a 128-vector, from zero, one added at x2[n]). A scatter-add at an index is the base entry plus
  the sum of the updates that land there; an update lands where its start index, read signed and not clamped, plus its
  window coordinate point, and is dropped if that is outside the array.

  Here both are brought to one-hot-weighted sums over the rows:
    sums(g, d) = Σ_n [x2[n] = g] · act(n, d),      counts(g) = Σ_n [x2[n] = g],
  with [·] the indicator, 1 or 0, and g compared as the 32-bit word of the graph number. No finiteness is used:
  1 · a = a and 0 · a = 0 hold for every extended real a.

  `PoolRef.resultIdx?_eq_some_iff` characterises landing for any dimension numbers; `PoolRef.sums_lands` and
  `PoolRef.counts_lands` evaluate it for the two scatters of this program; `ref_sums_apply` and `ref_counts_apply` are
  the two readings.
-/
import proofs.«423774_j65060164600241_3_alg».proof.Proof.Bridge.Spec
import Idealize.ShloMosaic.Lib.ValueIdx
import Idealize.ShloMosaic.Lib.Pipeline.Value
import Idealize.ShloMosaic.Lib.IdealHost
import Idealize.ShloMosaic.PureOps.Ideal.Laws

noncomputable section

namespace Cert.Bridge

open Cert.ReferenceIdeal Cert.ReferenceIdeal.Gen Cert.ReferenceIdeal.Read Idealize.ShloMosaic Idealize.ShloMosaic.TcCoe
  Idealize.ShloMosaic.StableHlo Idealize.ShloMosaic.ValueIdx
open scoped BigOperators

namespace PoolRef

/-- Where an update lands: update index j lands on operand index i exactly when, on every operand axis, the start
    (read signed, not clamped) plus the window coordinate is i's coordinate. -/
theorem resultIdx?_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  split
  · rename_i h
    rw [Option.some.injEq]
    constructor
    · intro e a
      have e1 : (D.start j idx a + (D.window j a : ℤ)).toNat = (i a).val := congrArg (fun f => (f a).val) e
      have := h a
      omega
    · intro e
      funext a
      refine Fin.ext ?_
      show (D.start j idx a + (D.window j a : ℤ)).toNat = (i a).val
      have := e a
      omega
  · rename_i h
    constructor
    · intro e; exact absurd e (by simp)
    · intro e
      exact absurd (fun a => by have := e a; have := (i a).isLt; omega) h

/-- A 32-bit word read signed is a number below 2^31 exactly when it is that number's word. -/
theorem toInt_eq_small_iff (w : BitVec 32) (g : ℕ) (hg : g < 2 ^ 31) : w.toInt = (g : ℤ) ↔ w = BitVec.ofNat 32 g := by
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    have hm : g % 2 ^ 32 = g := Nat.mod_eq_of_lt (by omega)
    rw [hm]
    split <;> omega

/-- THE SUMS' SCATTER (operand 128×128, indices 100000×1, updates 100000×128; axis 0 of the operand addressed by the index,
    axis 1 carried by the update's column): update (n, b) lands on (g, d) exactly when row n's index word is g's word and
    b is d. -/
theorem sums_lands (idx : IVec S100000x1 32) (n : Fin 100000) (b g d : Fin 128) :
    scatter_S128x128_S100000x1_S100000x128_1_0_0_1.resultIdx? (ix2 n b) idx = some (ix2 g d)
      ↔ idx (ix2 n (0 : Fin 1)) = BitVec.ofNat 32 g.val ∧ b = d := by
  rw [resultIdx?_eq_some_iff]
  have hs0 : scatter_S128x128_S100000x1_S100000x128_1_0_0_1.start (ix2 n b) idx ⟨0, by decide⟩
      = (idx (ix2 n (0 : Fin 1))).toInt := by
    unfold ScatterDims.start
    rw [dif_pos (show (⟨0, by decide⟩ : Fin S128x128.rank) ∈ scatter_S128x128_S100000x1_S100000x128_1_0_0_1.scatterDimsToOperandDims
      from List.mem_singleton.mpr rfl)]
    refine congrArg (fun k => (idx k).toInt) ?_
    funext c
    refine Fin.ext ?_
    match c with
    | ⟨0, _⟩ => rfl
    | ⟨1, _⟩ => rfl
  have hs1 : scatter_S128x128_S100000x1_S100000x128_1_0_0_1.start (ix2 n b) idx ⟨1, by decide⟩ = 0 := by
    unfold ScatterDims.start
    rw [dif_neg (by decide)]
  have hw0 : scatter_S128x128_S100000x1_S100000x128_1_0_0_1.window (ix2 n b) ⟨0, by decide⟩ = 0 := by
    unfold ScatterDims.window
    rw [dif_neg (by decide)]
  have hw1 : scatter_S128x128_S100000x1_S100000x128_1_0_0_1.window (ix2 n b) ⟨1, by decide⟩ = b.val := by
    unfold ScatterDims.window
    rw [dif_pos (by decide)]
    rfl
  have hg := g.isLt
  constructor
  · intro h
    have h0 : (idx (ix2 n (0 : Fin 1))).toInt + ((0 : ℕ) : ℤ) = (g.val : ℤ) := by
      have := h ⟨0, by decide⟩
      rwa [hs0, hw0] at this
    have h1 : (0 : ℤ) + ((b.val : ℕ) : ℤ) = (d.val : ℤ) := by
      have := h ⟨1, by decide⟩
      rwa [hs1, hw1] at this
    exact ⟨(toInt_eq_small_iff _ g.val (by omega)).1 (by omega), Fin.ext (by omega)⟩
  · rintro ⟨h0, rfl⟩ a
    have h0' := (toInt_eq_small_iff _ g.val (by omega)).2 h0
    match a with
    | ⟨0, _⟩ => rw [hs0, hw0]; show _ = (g.val : ℤ); omega
    | ⟨1, _⟩ => rw [hs1, hw1]; show _ = (b.val : ℤ); omega

/-- THE COUNTS' SCATTER (operand 128, indices 100000×1, updates 100000; the operand's one axis addressed by the index):
    update n lands on g exactly when row n's index word is g's word. -/
theorem counts_lands (idx : IVec S100000x1 32) (n : Fin 100000) (g : Fin 128) :
    scatter_S128_S100000x1_S100000_n_0_0_1.resultIdx? (ix1 n) idx = some (ix1 g)
      ↔ idx (ix2 n (0 : Fin 1)) = BitVec.ofNat 32 g.val := by
  rw [resultIdx?_eq_some_iff]
  have hs0 : scatter_S128_S100000x1_S100000_n_0_0_1.start (ix1 n) idx ⟨0, by decide⟩
      = (idx (ix2 n (0 : Fin 1))).toInt := by
    unfold ScatterDims.start
    rw [dif_pos (show (⟨0, by decide⟩ : Fin S128.rank) ∈ scatter_S128_S100000x1_S100000_n_0_0_1.scatterDimsToOperandDims
      from List.mem_singleton.mpr rfl)]
    refine congrArg (fun k => (idx k).toInt) ?_
    funext c
    refine Fin.ext ?_
    match c with
    | ⟨0, _⟩ => rfl
    | ⟨1, _⟩ => rfl
  have hw0 : scatter_S128_S100000x1_S100000_n_0_0_1.window (ix1 n) ⟨0, by decide⟩ = 0 := by
    unfold ScatterDims.window
    rw [dif_neg (by decide)]
  have hg := g.isLt
  constructor
  · intro h
    have h0 : (idx (ix2 n (0 : Fin 1))).toInt + ((0 : ℕ) : ℤ) = (g.val : ℤ) := by
      have := h ⟨0, by decide⟩
      rwa [hs0, hw0] at this
    exact (toInt_eq_small_iff _ g.val (by omega)).1 (by omega)
  · intro h0 a
    have h0' := (toInt_eq_small_iff _ g.val (by omega)).2 h0
    match a with
    | ⟨0, _⟩ => rw [hs0, hw0]; show _ = (g.val : ℤ); omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end PoolRef

open PoolRef

/-- THE REFERENCE'S POOLED SUMS AT (g, d): the scatter-add starts from zero and adds row n's entry (n, d) of the activations
    wherever row n's graph word is g's word, so it is the sum over all 100000 rows of that entry weighted by the
    one-hot indicator of "row n belongs to graph g". Holds for every extended-real input. -/
theorem ref_sums_apply (x0 : FVec Ideal S100000x128 .f32) (x1 : IVec S2x1600000 32) (x2 : IVec S100000 32) (x3 : FVec Ideal S128x16 .f32)
    (x4 : FVec Ideal S16 .f32) (x5 : FVec Ideal S16x128 .f32) (x6 : FVec Ideal S128 .f32) (g d : Fin 128) :
    val_main_v92 (F := Ideal) x0 x1 x2 x3 x4 x5 x6 (ix2 g d)
      = ∑ n : Fin 100000, (if x2 (ix1 n) = BitVec.ofNat 32 g.val then (1 : EReal) else 0)
          * val_main_v89 (F := Ideal) x0 x1 x3 x4 x5 x6 (ix2 n d) := by
  unfold val_main_v92
  simp only [Host.scatterAdd, Ideal.hostScatterAdd_def, Ideal.hostScatterAdd]
  rw [val_main_v90_apply, val_main_cst_18_apply, Ideal.ofBits_def, Ideal.ofBits_zero_f32, zero_add, Finset.sum_filter, sum_idx2]
  refine Finset.sum_congr rfl fun n _ => ?_
  have hrow : val_main_v91 (F := Ideal) x2 (ix2 n (0 : Fin 1)) = x2 (ix1 n) := by
    rw [val_main_v91_apply]
    exact congrArg x2 (funext fun a => match a with | ⟨0, _⟩ => rfl)
  by_cases hc : x2 (ix1 n) = BitVec.ofNat 32 g.val
  · rw [if_pos hc, one_mul]
    have hb : ∀ b : Fin 128, scatter_S128x128_S100000x1_S100000x128_1_0_0_1.resultIdx? (ix2 n b) (val_main_v91 (F := Ideal) x2)
        = some (ix2 g d) ↔ b = d := fun b => by
      rw [sums_lands, hrow]
      exact ⟨fun h => h.2, fun h => ⟨hc, h⟩⟩
    simp only [hb, Finset.sum_ite_eq', Finset.mem_univ, if_true]
  · rw [if_neg hc, zero_mul]
    refine Finset.sum_eq_zero fun b _ => if_neg fun h => hc ?_
    have := ((sums_lands _ n b g d).1 h).1
    rwa [hrow] at this

/-- THE REFERENCE'S COUNTS AT g: the scatter-add starts from zero and adds one wherever row n's graph word is g's word, so
    it is the number of rows of graph g, as the sum over all 100000 rows of the one-hot indicator. -/
theorem ref_counts_apply (x2 : IVec S100000 32) (g : Fin 128) :
    val_main_v96 (F := Ideal) x2 (ix1 g)
      = ∑ n : Fin 100000, (if x2 (ix1 n) = BitVec.ofNat 32 g.val then (1 : EReal) else 0) := by
  unfold val_main_v96
  simp only [Host.scatterAdd, Ideal.hostScatterAdd_def, Ideal.hostScatterAdd]
  rw [val_main_v94_apply, val_main_cst_20_apply, Ideal.ofBits_def, Ideal.ofBits_zero_f32, zero_add, Finset.sum_filter, sum_idx1]
  refine Finset.sum_congr rfl fun n _ => ?_
  have hrow : val_main_v95 (F := Ideal) x2 (ix2 n (0 : Fin 1)) = x2 (ix1 n) := by
    rw [val_main_v95_apply]
    exact congrArg x2 (funext fun a => match a with | ⟨0, _⟩ => rfl)
  rw [val_main_v93_apply, val_main_cst_19_apply, Ideal.ofBits_def, Ideal.ofBits_one_f32]
  exact if_congr (by rw [counts_lands, hrow]) rfl rfl

end Cert.Bridge

end
-- ==== Proof.Bridge.Pool.lean ====
/-
  The kernel's blockwise one-hot pooling is the reference's segment sum, at the ideal instance.

  The kernel walks the 100000 rows in 20 blocks of 5000. At each block it adds to a 128×128 accumulator, at `(g, d)`, the sum
  over the block's rows `r` of `hot (id r) g * h2 r d` (`hot` the one-hot weight of the row's graph id, `h2` the rectified
  affine image of the row), and to a 128×1 counter the sum of the weights. Extended-real addition is commutative and
  associative, so after the last block the accumulator holds the sum over all 100000 rows, row `5000 t + r` being row `r`
  of block `t`. The reference scatters row `n` of its `h2` into row `id n` of a zero 128×128 array (and a one into a zero
  128 vector): read at `(g, d)` that is the same one-hot-weighted sum over the rows. No value need be finite: `0 * x = 0`
  and `1 * x = x` hold for every extended real.
-/
import proofs.«423774_j65060164600241_3_alg».proof.Proof.Bridge.PoolPoint
import proofs.«423774_j65060164600241_3_alg».proof.Proof.Bridge.PoolRef
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.Bridge

open Cert.KernelIdeal Cert.KernelIdeal.Gen Idealize.ShloMosaic Idealize.ShloMosaic.TcCoe Idealize.ShloMosaic.ValueIdx
open scoped BigOperators

open Cert.ReferenceIdeal.Read

/-- The pooled sums and counts after block `n` over abstract blocks: the first block adds its contribution to zeros,
    every later block to what the block before left. -/
def accP (a : Fin cfg1.N → Vec Ideal S5000x16 .f32) (bt : Fin cfg1.N → IVec S5000x1 32) (w2 : Vec Ideal S16x128 .f32)
    (b2row : Vec Ideal S1x128 .f32) : (n : ℕ) → n < cfg1.N → Vec Ideal S128x128 .f32 × Vec Ideal S128x1 .f32
  | 0, hn =>
    (k1_pay6 (F := Ideal) (a ⟨0, hn⟩) w2 b2row (bt ⟨0, hn⟩) (k1_pay3 (F := Ideal)),
     k1_pay1 (F := Ideal) (k1_pay7 (F := Ideal) (bt ⟨0, hn⟩) (k1_pay4 (F := Ideal))))
  | n + 1, hn =>
    (k1_pay6 (F := Ideal) (a ⟨n + 1, hn⟩) w2 b2row (bt ⟨n + 1, hn⟩) (accP a bt w2 b2row n (Nat.lt_of_succ_lt hn)).1,
     k1_pay1 (F := Ideal) (k1_pay7 (F := Ideal) (bt ⟨n + 1, hn⟩) (accP a bt w2 b2row n (Nat.lt_of_succ_lt hn)).2))

namespace Pool

/-- One block's contribution to the sums at graph `g`, column `d`. -/
def blkSum (a : Fin cfg1.N → Vec Ideal S5000x16 .f32) (bt : Fin cfg1.N → IVec S5000x1 32) (w2 : Vec Ideal S16x128 .f32)
    (b2row : Vec Ideal S1x128 .f32) (t : Fin cfg1.N) (g d : Fin 128) : EReal :=
  ∑ r : Fin 5000, hot (bt t (ix2 r (0 : Fin 1))) g
    * max ((∑ k : Fin 16, a t (ix2 r k) * w2 (ix2 k d)) + b2row (ix2 (0 : Fin 1) d)) 0

/-- One block's contribution to the counts at graph `g`. -/
def blkCnt (bt : Fin cfg1.N → IVec S5000x1 32) (t : Fin cfg1.N) (g : Fin 128) : EReal :=
  ∑ r : Fin 5000, hot (bt t (ix2 r (0 : Fin 1))) g

/-- After block `n` the sums hold the contributions of blocks `0 … n`. -/
theorem accP_sums (a : Fin cfg1.N → Vec Ideal S5000x16 .f32) (bt : Fin cfg1.N → IVec S5000x1 32) (w2 : Vec Ideal S16x128 .f32)
    (b2row : Vec Ideal S1x128 .f32) (g d : Fin 128) : ∀ (n : ℕ) (hn : n < cfg1.N),
    (accP a bt w2 b2row n hn).1 (ix2 g d)
      = ∑ t : Fin (n + 1), blkSum a bt w2 b2row ⟨t.val, Nat.lt_of_lt_of_le t.isLt (Nat.succ_le_of_lt hn)⟩ g d
  | 0, hn => by
    simp only [accP]
    rw [k1_pay6_apply, k1_pay3_apply, zero_add, Fin.sum_univ_one]
    rfl
  | n + 1, hn => by
    simp only [accP]
    rw [k1_pay6_apply, accP_sums a bt w2 b2row g d n (Nat.lt_of_succ_lt hn)]
    exact (Fin.sum_univ_castSucc (fun t : Fin (n + 1 + 1) =>
      blkSum a bt w2 b2row ⟨t.val, Nat.lt_of_lt_of_le t.isLt (Nat.succ_le_of_lt hn)⟩ g d)).symm

/-- After block `n` the counts hold the contributions of blocks `0 … n`. -/
theorem accP_counts (a : Fin cfg1.N → Vec Ideal S5000x16 .f32) (bt : Fin cfg1.N → IVec S5000x1 32) (w2 : Vec Ideal S16x128 .f32)
    (b2row : Vec Ideal S1x128 .f32) (g : Fin 128) : ∀ (n : ℕ) (hn : n < cfg1.N),
    (accP a bt w2 b2row n hn).2 (ix2 g (0 : Fin 1))
      = ∑ t : Fin (n + 1), blkCnt bt ⟨t.val, Nat.lt_of_lt_of_le t.isLt (Nat.succ_le_of_lt hn)⟩ g
  | 0, hn => by
    simp only [accP]
    rw [k1_pay1_eq, k1_pay7_apply, k1_pay4_apply, zero_add, Fin.sum_univ_one]
    rfl
  | n + 1, hn => by
    simp only [accP]
    rw [k1_pay1_eq, k1_pay7_apply, accP_counts a bt w2 b2row g n (Nat.lt_of_succ_lt hn)]
    exact (Fin.sum_univ_castSucc (fun t : Fin (n + 1 + 1) =>
      blkCnt bt ⟨t.val, Nat.lt_of_lt_of_le t.isLt (Nat.succ_le_of_lt hn)⟩ g)).symm

/-- A sum over the 100000 rows is the sum over the 20 blocks of the sums over each block's 5000 rows. -/
theorem sum_blocks (G : Fin 100000 → EReal) :
    ∑ t : Fin 20, ∑ r : Fin 5000, G ⟨5000 * t.val + r.val, by have := t.isLt; have := r.isLt; omega⟩ = ∑ n : Fin 100000, G n := by
  rw [← Equiv.sum_comp ((finProdFinEquiv (m := 20) (n := 5000)).trans (finCongr (by norm_num : 20 * 5000 = 100000))) G,
    Fintype.sum_prod_type]
  refine Finset.sum_congr rfl fun t _ => Finset.sum_congr rfl fun r _ => congrArg G (Fin.ext ?_)
  show 5000 * t.val + r.val = r.val + 5000 * t.val
  omega

/-- The reference's activated row `n`, column `d`: the rectified sum of the aggregated linear image and the bias. -/
theorem h2_apply (x0 : FVec Ideal S100000x128 .f32) (x1 : IVec S2x1600000 32) (x3 : FVec Ideal S128x16 .f32) (x4 : FVec Ideal S16 .f32)
    (x5 : FVec Ideal S16x128 .f32) (x6 : FVec Ideal S128 .f32) (n : Fin 100000) (d : Fin 128) :
    val_main_v89 (F := Ideal) x0 x1 x3 x4 x5 x6 (ix2 n d)
      = max (val_main_v85 (F := Ideal) x0 x1 x3 x4 x5 (ix2 n d) + x6 (ix1 d)) 0 := by
  rw [val_main_v89_apply, val_main_v88_apply, val_main_v87_apply, val_main_v86_apply, val_main_call1_v0_apply, val_main_call1_cst_apply]
  have hi : idx_main_v86 (idx_main_v87 (ix2 n d)) = ix1 d := funext fun ax => Fin.ext (by
    match ax with
    | ⟨0, _⟩ => rfl)
  rw [hi]
  show max (_ + _) (Ideal.ofBits .f32 0x00000000#32) = _
  rw [Ideal.ofBits_zero_f32]

end Pool

/-- THE KERNEL'S BLOCKWISE ONE-HOT POOLING IS THE REFERENCE'S SEGMENT SUM. When the blocks are the consecutive 5000-row
    blocks of the aggregated activations and of the graph ids, the weights and bias are the reference's, and the
    16-wide product is the reference's aggregated linear image, the accumulators after the last block are the
    reference's scattered sums and counts. -/
theorem pool_eq (a : Fin cfg1.N → Vec Ideal S5000x16 .f32) (bt : Fin cfg1.N → IVec S5000x1 32) (w2 : Vec Ideal S16x128 .f32)
    (b2row : Vec Ideal S1x128 .f32)
    (x0 : FVec Ideal S100000x128 .f32) (x1 : IVec S2x1600000 32) (x2 : IVec S100000 32) (x3 : FVec Ideal S128x16 .f32)
    (x4 : FVec Ideal S16 .f32) (x5 : FVec Ideal S16x128 .f32) (x6 : FVec Ideal S128 .f32)
    (ha : ∀ (t : Fin cfg1.N) (r : Fin 5000) (k : Fin 16) (h : 5000 * t.val + r.val < 100000),
      a t (ix2 r k) = agg2 x0 x1 x3 x4 (ix2 ⟨5000 * t.val + r.val, h⟩ k))
    (hb : ∀ (t : Fin cfg1.N) (r : Fin 5000) (h : 5000 * t.val + r.val < 100000),
      bt t (ix2 r (0 : Fin 1)) = x2 (ix1 ⟨5000 * t.val + r.val, h⟩))
    (hw : w2 = x5) (hb2 : ∀ j : Fin 128, b2row (ix2 (0 : Fin 1) j) = x6 (ix1 j))
    (hlin : ∀ (n : Fin 100000) (j : Fin 128),
      (∑ k : Fin 16, agg2 x0 x1 x3 x4 (ix2 n k) * x5 (ix2 k j)) = val_main_v85 (F := Ideal) x0 x1 x3 x4 x5 (ix2 n j))
    (h19 : 19 < cfg1.N) :
    (accP a bt w2 b2row 19 h19).1 = val_main_v92 (F := Ideal) x0 x1 x2 x3 x4 x5 x6
      ∧ ∀ g : Fin 128, (accP a bt w2 b2row 19 h19).2 (ix2 g (0 : Fin 1)) = val_main_v96 (F := Ideal) x2 (ix1 g) := by
  refine ⟨funext fun i => ?_, fun g => ?_⟩
  · obtain ⟨g, d, rfl⟩ : ∃ (g : Fin 128) (d : Fin 128), i = ix2 g d := ⟨i 0, i 1, eq_ix2 i⟩
    have e2 := Pool.sum_blocks (fun n : Fin 100000 => (if x2 (ix1 n) = BitVec.ofNat 32 g.val then (1 : EReal) else 0)
      * val_main_v89 (F := Ideal) x0 x1 x3 x4 x5 x6 (ix2 n d))
    rw [Pool.accP_sums a bt w2 b2row g d 19 h19, ref_sums_apply, ← e2]
    refine Finset.sum_congr rfl fun t _ => ?_
    unfold Pool.blkSum
    refine Finset.sum_congr rfl fun r _ => ?_
    have h : 5000 * t.val + r.val < 100000 := by have := t.isLt; have := r.isLt; omega
    have e1 : (∑ k : Fin 16, a ⟨t.val, Nat.lt_of_lt_of_le t.isLt (Nat.succ_le_of_lt h19)⟩ (ix2 r k) * w2 (ix2 k d))
        = val_main_v85 (F := Ideal) x0 x1 x3 x4 x5 (ix2 ⟨5000 * t.val + r.val, h⟩ d) := by
      rw [← hlin ⟨5000 * t.val + r.val, h⟩ d]
      exact Finset.sum_congr rfl fun k _ => by rw [ha ⟨t.val, Nat.lt_of_lt_of_le t.isLt (Nat.succ_le_of_lt h19)⟩ r k h, hw]
    rw [e1, hb ⟨t.val, Nat.lt_of_lt_of_le t.isLt (Nat.succ_le_of_lt h19)⟩ r h, hb2 d]
    show _ = _ * val_main_v89 (F := Ideal) x0 x1 x3 x4 x5 x6 (ix2 ⟨5000 * t.val + r.val, h⟩ d)
    rw [Pool.h2_apply]
    rfl
  · have e2 := Pool.sum_blocks (fun n : Fin 100000 => (if x2 (ix1 n) = BitVec.ofNat 32 g.val then (1 : EReal) else 0))
    rw [Pool.accP_counts a bt w2 b2row g 19 h19, ref_counts_apply, ← e2]
    refine Finset.sum_congr rfl fun t _ => ?_
    unfold Pool.blkCnt
    refine Finset.sum_congr rfl fun r _ => ?_
    have h : 5000 * t.val + r.val < 100000 := by have := t.isLt; have := r.isLt; omega
    rw [hb ⟨t.val, Nat.lt_of_lt_of_le t.isLt (Nat.succ_le_of_lt h19)⟩ r h]
    rfl

open Cert.KernelIdeal.Hand in
/-- The region's recursion over the window blocks of a valuation is `accP` over those blocks, once the weight and bias
    windows read the same block at every point. -/
theorem accAt1_eq_accP (V : (c : Dev nD) → (b : Ref sig .tc) → Buf (Elt Ideal) ((c : Thread nD τ).loc b)) (c : Dev nD)
    (w2 : Vec Ideal S16x128 .f32) (b2row : Vec Ideal S1x128 .f32)
    (hw : ∀ t : Fin cfg1.N, iblk1 V c 2 t = w2) (hb : ∀ t : Fin cfg1.N, iblk1 V c 3 t = b2row) :
    ∀ (n : ℕ) (hn : n < cfg1.N),
      accAt1 V c n hn = accP (fun t => iblk1 V c 0 t) (fun t => iblk1 V c 1 t) w2 b2row n hn
  | 0, hn => by
    simp only [accAt1, accP]
    rw [hw, hb]
  | n + 1, hn => by
    simp only [accAt1, accP]
    rw [hw, hb, accAt1_eq_accP V c w2 b2row hw hb n (Nat.lt_of_succ_lt hn)]

end Cert.Bridge

end
-- ==== Proof.Bridge.Tail.lean ====
/-
  The kernel's final step is the reference's tail.

  At its last grid point the kernel holds the pooled sums `S` (one row of 128 features per graph), the node counts as a
  column `C2`, and the two dense layers' weights, the biases as rows. It forms the mean `S / max C2 1`, the first dense
  layer with a rectifier, the second dense layer, and the log-softmax along the two classes. The reference computes the
  same chain on the host from the counts as a vector `C` and the biases as vectors. At the ideal instance every
  operation is exact and a change of format is the identity, so the two chains agree stage by stage:

  * the mean: a quotient entry by entry, the clamped count of graph `g` read from the column at `(g, 0)` on one side
    and from the vector at `g` on the other;
  * a dense layer: the matrix product into the zero accumulator is the sum over the contraction index of the products,
    which is also what the host's product is, over the same dimension numbers; the bias row broadcast over the graphs
    reads the bias at the column on both sides;
  * the log-softmax: the row maximum is the fold of `max` over the two classes from `-∞` on both sides, the row sum of
    the exponentials is the sum over the two classes (the host adds it to an initial zero), and the column-shaped
    intermediate values are broadcast over the two classes in the same way.

  Each stage is stated over abstract operands; the last theorem chains them.
-/
import proofs.«423774_j65060164600241_3_alg».proof.Proof.Bridge.Spec
import proofs.«423774_j65060164600241_3_alg».proof.Proof.Gen.KernelIdeal.Skeleton
import Idealize.ShloMosaic.Lib.ValueLayout

noncomputable section

namespace Cert.Bridge

open Cert.ReferenceIdeal Cert.ReferenceIdeal.Gen Cert.ReferenceIdeal.Read Idealize.ShloMosaic Idealize.ShloMosaic.TcCoe
  Idealize.ShloMosaic.StableHlo Idealize.ShloMosaic.ValueIdx

namespace Tail

/-! ## Columns and their broadcasts, read at an index -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- The host's broadcast of a vector `[a]` along axis 0 into the column `[a, 1]` reads, at `(p, z)`, the vector at `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ ![0] h x (ix2 p z) = x (ix1 p) := by
  refine broadcastInDim_apply _ h x (ix2 p z) (ix1 p) fun ax => ?_
  match ax with
  | ⟨0, _⟩ =>
    show p.val = if a = 1 then 0 else p.val
    split
    · have := p.isLt; omega
    · rfl

/-- The host's broadcast of a column `[a, 1]` to `[a, b]` reads, at `(p, c)`, the column at `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The two ways of writing a vector as a column agree. -/
theorem column_eq {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext i
  obtain ⟨p, z, rfl⟩ : ∃ (p : Fin a) (z : Fin 1), i = ix2 p z := ⟨i 0, i 1, eq_ix2 i⟩
  rw [shapeCast_a_a1_apply, broadcastInDim_a_a1_apply]

/-- The two ways of broadcasting a column over `b` lanes agree. -/
theorem columnBroadcast_eq {a b : ℕ} (x : (⟨2, ![a, 1]⟩ : Shape).Idx → α) (h : (⟨2, ![a, 1]⟩ : Shape).Broadcasts ⟨2, ![a, b]⟩)
    (h' : (⟨2, ![a, 1]⟩ : Shape).BroadcastsInDim ⟨2, ![a, b]⟩ (![0, 1] : Fin 2 → Fin 2)) :
    broadcastTo ⟨2, ![a, b]⟩ x h = broadcastInDim ⟨2, ![a, b]⟩ ![0, 1] h' x := by
  funext i
  obtain ⟨p, c, rfl⟩ : ∃ (p : Fin a) (c : Fin b), i = ix2 p c := ⟨i 0, i 1, eq_ix2 i⟩
  rw [broadcastTo_a1_ab_apply, broadcastInDim_a1_ab_apply]

end Layout

/-! ## The host's pointwise operations are the vector unit's, at the ideal values -/

section Pointwise
variable {s : Shape}

/-- The quotient: both are the extended reals' division, entry by entry. -/
theorem divf_eq_hostDivf (a b : FVec Ideal s .f32) : divf (F := Ideal) a b = Host.divf (F := Ideal) a b := rfl

/-- The exponential, entry by entry. -/
theorem exp_eq_hostExp (a : FVec Ideal s .f32) : exp (F := Ideal) a = Host.exp (F := Ideal) a := rfl

/-- The logarithm, entry by entry. -/
theorem log_eq_hostLog (a : FVec Ideal s .f32) : log (F := Ideal) a = Host.log (F := Ideal) a := rfl

/-- A matrix product of the operands narrowed to sixteen bits, into the zero accumulator, is the host's product of the
    operands: both are, at each entry, the sum over the contraction index of the products, and narrowing is the identity. -/
theorem matmul_eq_dotGeneral {sl sr so : Shape} (d : DotDims sl sr so) (A : FVec Ideal sl .f32) (B : FVec Ideal sr .f32)
    (hb : FTy.bits .bf16 < FTy.bits .f32) :
    matmul (F := Ideal) d none (truncf (F := Ideal) .bf16 A hb) (truncf (F := Ideal) .bf16 B hb) (constant (F := Ideal) so .f32 0x00000000#32)
      = Host.dotGeneral (F := Ideal) d none A B := by
  funext j
  show FloatOps.matmul d none (truncf (F := Ideal) .bf16 A hb) (truncf (F := Ideal) .bf16 B hb) (constant (F := Ideal) so .f32 0x00000000#32) j
    = FloatOps.dotGeneral d none .single A B j
  rw [Ideal.matmul_constant_zero_apply, Ideal.dotGeneral_apply]
  rfl

end Pointwise

/-! ## The two programs' dimension numbers are the same records -/

theorem dims1_eq : Cert.KernelIdeal.dot_S128x128_S128x128_S128x128_1_0_0_1_n_n = dot_S128x128_S128x128_S128x128_1_0_0_1_n_n := rfl

theorem dims2_eq : Cert.KernelIdeal.dot_S128x128_S128x2_S128x2_1_0_0_1_n_n = dot_S128x128_S128x2_S128x2_1_0_0_1_n_n := rfl

/-! ## The kernel's stages -/

/-- The kernel's mean: the pooled sums over the count column clamped below by one and broadcast along the features. -/
def kPooled (S : FVec Ideal S128x128 .f32) (C2 : FVec Ideal S128x1 .f32) : FVec Ideal S128x128 .f32 :=
  divf (F := Ideal) S
    (broadcastTo S128x128 (maximumf (F := Ideal) C2 (broadcast S128x1 (Scalar.ofBits (F := Ideal) .f32 0x3F800000#32)))
      Cert.KernelIdeal.Gen.broadcasts_S128x1_S128x128)

/-- The kernel's first dense layer with its rectifier. -/
def kDense1 (P x7 : FVec Ideal S128x128 .f32) (x8row : FVec Ideal S1x128 .f32) : FVec Ideal S128x128 .f32 :=
  maximumf (F := Ideal)
    (addf (F := Ideal)
      (matmul (F := Ideal) Cert.KernelIdeal.dot_S128x128_S128x128_S128x128_1_0_0_1_n_n none
        (truncf (F := Ideal) .bf16 P Cert.KernelIdeal.Gen.bitsLt_bf16_f32)
        (truncf (F := Ideal) .bf16 x7 Cert.KernelIdeal.Gen.bitsLt_bf16_f32) (constant (F := Ideal) S128x128 .f32 0x00000000#32))
      (broadcastTo S128x128 (shapeCast S1x128 x8row Cert.KernelIdeal.Gen.shapeCasts_S1x128_S1x128)
        Cert.KernelIdeal.Gen.broadcasts_S1x128_S128x128))
    (broadcast S128x128 (Scalar.ofBits (F := Ideal) .f32 0x00000000#32))

/-- The kernel's second dense layer. -/
def kDense2 (Z1 : FVec Ideal S128x128 .f32) (x9 : FVec Ideal S128x2 .f32) (x10row : FVec Ideal S1x2 .f32) : FVec Ideal S128x2 .f32 :=
  addf (F := Ideal)
    (matmul (F := Ideal) Cert.KernelIdeal.dot_S128x128_S128x2_S128x2_1_0_0_1_n_n none
      (truncf (F := Ideal) .bf16 Z1 Cert.KernelIdeal.Gen.bitsLt_bf16_f32)
      (truncf (F := Ideal) .bf16 x9 Cert.KernelIdeal.Gen.bitsLt_bf16_f32) (constant (F := Ideal) S128x2 .f32 0x00000000#32))
    (broadcastTo S128x2 (shapeCast S1x2 x10row Cert.KernelIdeal.Gen.shapeCasts_S1x2_S1x2) Cert.KernelIdeal.Gen.broadcasts_S1x2_S128x2)

/-- The kernel's row maximum over the two classes, from `-∞`. -/
def kRowMax (Z : FVec Ideal S128x2 .f32) : FVec Ideal S128 .f32 :=
  multiReduction (F := Ideal) .maximumf [1] S128 Z 0xFF800000#32 Cert.KernelIdeal.Gen.reduces_S128x2_S128 (.inl rfl) rfl

/-- The kernel's row sum over the two classes. -/
def kRowSum (E : FVec Ideal S128x2 .f32) : FVec Ideal S128 .f32 :=
  multiReduction (F := Ideal) .add [1] S128 E 0x00000000#32 Cert.KernelIdeal.Gen.reduces_S128x2_S128 (.inl rfl) rfl

/-- The kernel's logits less their row maximum. -/
def kShift (Z : FVec Ideal S128x2 .f32) : FVec Ideal S128x2 .f32 :=
  subf (F := Ideal) Z
    (broadcastTo S128x2
      (shapeCast S128x1 (maximumf (F := Ideal) (broadcast S128 (Scalar.ofBits (F := Ideal) .f32 0xFF800000#32)) (kRowMax Z))
        Cert.KernelIdeal.Gen.shapeCasts_S128_S128x1)
      Cert.KernelIdeal.Gen.broadcasts_S128x1_S128x2)

/-- The kernel's log-softmax along the two classes. -/
def kLogSoftmax (Z : FVec Ideal S128x2 .f32) : FVec Ideal S128x2 .f32 :=
  subf (F := Ideal) (kShift Z)
    (broadcastTo S128x2
      (log (F := Ideal) (shapeCast S128x1 (kRowSum (exp (F := Ideal) (kShift Z))) Cert.KernelIdeal.Gen.shapeCasts_S128_S128x1))
      Cert.KernelIdeal.Gen.broadcasts_S128x1_S128x2)

/-- The kernel's final value is the chain of its stages. -/
theorem k1_pay2_eq (S : FVec Ideal S128x128 .f32) (C2 : FVec Ideal S128x1 .f32) (x7 : FVec Ideal S128x128 .f32)
    (x8row : FVec Ideal S1x128 .f32) (x9 : FVec Ideal S128x2 .f32) (x10row : FVec Ideal S1x2 .f32) :
    Cert.KernelIdeal.Gen.k1_pay2 (F := Ideal) S C2 x7 x8row x9 x10row
      = kLogSoftmax (kDense2 (kDense1 (kPooled S C2) x7 x8row) x9 x10row) := rfl

/-! ## The reference's stages -/

/-- The reference's mean. -/
def rPooled (S : FVec Ideal S128x128 .f32) (C : FVec Ideal S128 .f32) : FVec Ideal S128x128 .f32 :=
  Host.divf (F := Ideal) S
    (broadcastInDim S128x128 ![0, 1] bcast_S128x1_S128x128_0_1
      (broadcastInDim S128x1 ![0] bcast_S128_S128x1_0 (maximumf (F := Ideal) C (val_main_v97 (F := Ideal)))))

/-- The reference's first dense layer with its rectifier. -/
def rDense1 (P x7 : FVec Ideal S128x128 .f32) (x8 : FVec Ideal S128 .f32) : FVec Ideal S128x128 .f32 :=
  maximumf (F := Ideal)
    (addf (F := Ideal) (Host.dotGeneral (F := Ideal) dot_S128x128_S128x128_S128x128_1_0_0_1_n_n none P x7) (val_main_v104 (F := Ideal) x8))
    (val_main_call2_v0 (F := Ideal))

/-- The reference's second dense layer. -/
def rDense2 (Z1 : FVec Ideal S128x128 .f32) (x9 : FVec Ideal S128x2 .f32) (x10 : FVec Ideal S2 .f32) : FVec Ideal S128x2 .f32 :=
  addf (F := Ideal) (Host.dotGeneral (F := Ideal) dot_S128x128_S128x2_S128x2_1_0_0_1_n_n none Z1 x9) (val_main_v109 (F := Ideal) x10)

/-- The reference's logits less their row maximum. -/
def rShift (Z : FVec Ideal S128x2 .f32) : FVec Ideal S128x2 .f32 :=
  subf (F := Ideal) Z
    (broadcastInDim S128x2 ![0, 1] bcast_S128x1_S128x2_0_1
      (broadcastInDim S128x1 ![0] bcast_S128_S128x1_0
        (maximumf (F := Ideal) (val_main_call3_v1 (F := Ideal))
          (Host.reduce (FloatOps.maximumf (F := Ideal)) Z (val_main_call3_cst (F := Ideal)) reducesTo_S128x2_S128_d1 h_S_))))

/-- The reference's log-softmax along the two classes. -/
def rLogSoftmax (Z : FVec Ideal S128x2 .f32) : FVec Ideal S128x2 .f32 :=
  subf (F := Ideal) (rShift Z)
    (broadcastInDim S128x2 ![0, 1] bcast_S128x1_S128x2_0_1
      (Host.log (F := Ideal) (broadcastInDim S128x1 ![0] bcast_S128_S128x1_0
        (Host.reduceAdd (F := Ideal) (Host.exp (F := Ideal) (rShift Z)) (val_main_call3_cst_1 (F := Ideal)) reducesTo_S128x2_S128_d1 h_S_))))

/-- The reference's tail is the chain of its stages. -/
theorem tailR_eq (S : FVec Ideal S128x128 .f32) (C : FVec Ideal S128 .f32) (x7 : FVec Ideal S128x128 .f32) (x8 : FVec Ideal S128 .f32)
    (x9 : FVec Ideal S128x2 .f32) (x10 : FVec Ideal S2 .f32) :
    tailR S C x7 x8 x9 x10 = rLogSoftmax (rDense2 (rDense1 (rPooled S C) x7 x8) x9 x10) := rfl

/-! ## The stages agree -/

/-- The clamped counts: the kernel's column at `(g, 0)` and the reference's vector at `g` hold the same count, and both
    are clamped below by the same word for one. -/
theorem clampedCounts_eq (C2 : FVec Ideal S128x1 .f32) (C : FVec Ideal S128 .f32)
    (hC : ∀ g : Fin 128, C2 (ix2 g (0 : Fin 1)) = C (ix1 g)) :
    maximumf (F := Ideal) C2 (broadcast S128x1 (Scalar.ofBits (F := Ideal) .f32 0x3F800000#32))
      = broadcastInDim S128x1 ![0] bcast_S128_S128x1_0 (maximumf (F := Ideal) C (val_main_v97 (F := Ideal))) := by
  funext i
  obtain ⟨g, z, rfl⟩ : ∃ (g : Fin 128) (z : Fin 1), i = ix2 g z := ⟨i 0, i 1, eq_ix2 i⟩
  obtain rfl : z = 0 := Subsingleton.elim _ _
  rw [broadcastInDim_a_a1_apply, maximumf_apply, maximumf_apply, broadcast_apply, hC g, val_main_v97_apply, val_main_cst_21_apply]

/-- The mean. -/
theorem pooled_eq (S : FVec Ideal S128x128 .f32) (C2 : FVec Ideal S128x1 .f32) (C : FVec Ideal S128 .f32)
    (hC : ∀ g : Fin 128, C2 (ix2 g (0 : Fin 1)) = C (ix1 g)) : kPooled S C2 = rPooled S C := by
  unfold kPooled rPooled
  rw [divf_eq_hostDivf, columnBroadcast_eq _ _ bcast_S128x1_S128x128_0_1, clampedCounts_eq C2 C hC]

/-- The first bias, a row broadcast over the graphs: at `(g, j)` both sides read the bias at `j`. -/
theorem biasRow1_eq (x8 : FVec Ideal S128 .f32) (x8row : FVec Ideal S1x128 .f32)
    (h8 : ∀ j : Fin 128, x8row (ix2 (0 : Fin 1) j) = x8 (ix1 j)) :
    broadcastTo S128x128 (shapeCast S1x128 x8row Cert.KernelIdeal.Gen.shapeCasts_S1x128_S1x128) Cert.KernelIdeal.Gen.broadcasts_S1x128_S128x128
      = val_main_v104 (F := Ideal) x8 := by
  funext i
  obtain ⟨g, j, rfl⟩ : ∃ (g : Fin 128) (j : Fin 128), i = ix2 g j := ⟨i 0, i 1, eq_ix2 i⟩
  rw [broadcastTo_1b_ab_apply, shapeCast_self, h8 j, val_main_v104_apply, val_main_v103_apply]
  exact congrArg x8 (funext fun a => Fin.ext (by match a with | ⟨0, _⟩ => rfl))

/-- The second bias likewise. -/
theorem biasRow2_eq (x10 : FVec Ideal S2 .f32) (x10row : FVec Ideal S1x2 .f32)
    (h10 : ∀ j : Fin 2, x10row (ix2 (0 : Fin 1) j) = x10 (ix1 j)) :
    broadcastTo S128x2 (shapeCast S1x2 x10row Cert.KernelIdeal.Gen.shapeCasts_S1x2_S1x2) Cert.KernelIdeal.Gen.broadcasts_S1x2_S128x2
      = val_main_v109 (F := Ideal) x10 := by
  funext i
  obtain ⟨g, j, rfl⟩ : ∃ (g : Fin 128) (j : Fin 2), i = ix2 g j := ⟨i 0, i 1, eq_ix2 i⟩
  rw [broadcastTo_1b_ab_apply, shapeCast_self, h10 j, val_main_v109_apply, val_main_v108_apply]
  exact congrArg x10 (funext fun a => Fin.ext (by match a with | ⟨0, _⟩ => rfl))

/-- The rectifier's zeros. -/
theorem zeros_eq : broadcast S128x128 (Scalar.ofBits (F := Ideal) .f32 0x00000000#32) = val_main_call2_v0 (F := Ideal) :=
  funext fun i => ((val_main_call2_v0_apply (F := Ideal) i).trans (val_main_call2_cst_apply (F := Ideal) _)).symm

/-- The row maximum's `-∞`. -/
theorem negInf_eq : broadcast S128 (Scalar.ofBits (F := Ideal) .f32 0xFF800000#32) = val_main_call3_v1 (F := Ideal) :=
  funext fun i => ((val_main_call3_v1_apply (F := Ideal) i).trans (val_main_call3_cst_0_apply (F := Ideal) _)).symm

/-- The first dense layer with its rectifier. -/
theorem dense1_eq (P x7 : FVec Ideal S128x128 .f32) (x8 : FVec Ideal S128 .f32) (x8row : FVec Ideal S1x128 .f32)
    (h8 : ∀ j : Fin 128, x8row (ix2 (0 : Fin 1) j) = x8 (ix1 j)) : kDense1 P x7 x8row = rDense1 P x7 x8 := by
  unfold kDense1 rDense1
  rw [matmul_eq_dotGeneral, dims1_eq, biasRow1_eq x8 x8row h8, zeros_eq]

/-- The second dense layer. -/
theorem dense2_eq (Z1 : FVec Ideal S128x128 .f32) (x9 : FVec Ideal S128x2 .f32) (x10 : FVec Ideal S2 .f32) (x10row : FVec Ideal S1x2 .f32)
    (h10 : ∀ j : Fin 2, x10row (ix2 (0 : Fin 1) j) = x10 (ix1 j)) : kDense2 Z1 x9 x10row = rDense2 Z1 x9 x10 := by
  unfold kDense2 rDense2
  rw [matmul_eq_dotGeneral, dims2_eq, biasRow2_eq x10 x10row h10]

/-- The row maximum: on both sides the fold of `max` over the two classes, from `-∞`. -/
theorem rowMax_eq (Z : FVec Ideal S128x2 .f32) :
    kRowMax Z = Host.reduce (FloatOps.maximumf (F := Ideal)) Z (val_main_call3_cst (F := Ideal)) reducesTo_S128x2_S128_d1 h_S_ := by
  funext j
  unfold kRowMax
  refine (Ideal.multiReduction_maximumf_single Z 0xFF800000#32 Cert.KernelIdeal.Gen.reduces_S128x2_S128 (.inl rfl) rfl j).trans ?_
  exact (Host.reduce_eq_fold_single (FloatOps.maximumf (F := Ideal)) Z (val_main_call3_cst (F := Ideal)) reducesTo_S128x2_S128_d1
    Cert.KernelIdeal.Gen.reduces_S128x2_S128 h_S_ j).symm

/-- The row sum: the sum over the two classes, which the host adds to an initial zero. -/
theorem rowSum_eq (E : FVec Ideal S128x2 .f32) :
    kRowSum E = Host.reduceAdd (F := Ideal) E (val_main_call3_cst_1 (F := Ideal)) reducesTo_S128x2_S128_d1 h_S_ := by
  funext j
  unfold kRowSum
  refine (Ideal.multiReduction_add_single E 0x00000000#32 Cert.KernelIdeal.Gen.reduces_S128x2_S128 (.inl rfl) rfl j).trans ?_
  simp only [Host.reduceAdd, Ideal.hostReduceAdd_def]
  rw [Ideal.hostReduceAdd_single reducesTo_S128x2_S128_d1 Cert.KernelIdeal.Gen.reduces_S128x2_S128, val_main_call3_cst_1_apply,
    Ideal.ofBits_def, Ideal.ofBits_zero_f32, zero_add]

/-- The logits less their row maximum. -/
theorem shift_eq (Z : FVec Ideal S128x2 .f32) : kShift Z = rShift Z := by
  unfold kShift rShift
  rw [rowMax_eq, negInf_eq, column_eq _ _ bcast_S128_S128x1_0, columnBroadcast_eq _ _ bcast_S128x1_S128x2_0_1]

/-- The log-softmax along the two classes. -/
theorem logSoftmax_eq (Z : FVec Ideal S128x2 .f32) : kLogSoftmax Z = rLogSoftmax Z := by
  unfold kLogSoftmax rLogSoftmax
  rw [shift_eq, exp_eq_hostExp, rowSum_eq, column_eq _ _ bcast_S128_S128x1_0, log_eq_hostLog,
    columnBroadcast_eq _ _ bcast_S128x1_S128x2_0_1]

end Tail

/-! ## The kernel's final step is the reference's tail -/

open Tail in
theorem tail_eq (S : FVec Ideal S128x128 .f32) (C2 : FVec Ideal S128x1 .f32) (C : FVec Ideal S128 .f32)
    (hC : ∀ g : Fin 128, C2 (ValueIdx.ix2 g (0 : Fin 1)) = C (ValueIdx.ix1 g))
    (x7 : FVec Ideal S128x128 .f32) (x8 : FVec Ideal S128 .f32) (x8row : FVec Ideal S1x128 .f32)
    (h8 : ∀ j : Fin 128, x8row (ValueIdx.ix2 (0 : Fin 1) j) = x8 (ValueIdx.ix1 j))
    (x9 : FVec Ideal S128x2 .f32) (x10 : FVec Ideal S2 .f32) (x10row : FVec Ideal S1x2 .f32)
    (h10 : ∀ j : Fin 2, x10row (ValueIdx.ix2 (0 : Fin 1) j) = x10 (ValueIdx.ix1 j)) :
    Cert.KernelIdeal.Gen.k1_pay2 (F := Ideal) S C2 x7 x8row x9 x10row = tailR S C x7 x8 x9 x10 := by
  rw [k1_pay2_eq, tailR_eq, pooled_eq S C2 C hC, dense1_eq _ x7 x8 x8row h8, dense2_eq _ x9 x10 x10row h10, logSoftmax_eq]

end Cert.Bridge

end
-- ==== Proof.Bridge.Finite.lean ====
/-
  The precondition of the claim is, on every device, the conjunction of nine tests, one per float argument in the order
  x, W1, b1, W2, b2, LW1, Lb1, LW2, Lb2; each test is all(|a| < +∞), the conjunction over every entry of a of the
  comparison of max a (-a) with +∞. At the ideal instance a float is an extended real, so a test that holds says that no
  entry of its argument is -∞ or +∞: every entry is a real number.

  `Finite.real_of_all_abs_lt_inf` reads one such test over an arbitrary shape; `finite_of_pre` splits the conjunction and
  reads its first four tests, those of x, W1, b1 and W2 (arguments 0, 3, 4, 5).
-/
import proofs.«423774_j65060164600241_3_alg».proof.Defs
import Idealize.ShloMosaic.Lib.ReduceAll
import Idealize.ShloMosaic.Lib.ValueIdx
import Mathlib.Data.EReal.Basic

noncomputable section

namespace Cert.Bridge

open Idealize.ShloMosaic Idealize.SL.Sem

namespace Finite

/-- An extended real whose absolute value max x (-x) lies strictly below +∞ is a real number: at -∞ and at +∞ the
    maximum is +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The 32-bit word 0x7F800000 (sign 0, exponent all ones, fraction 0) denotes +∞. -/
theorem ofBits_inf : Ideal.ofBits .f32 0x7F800000#32 = (⊤ : EReal) := by
  simp [Ideal.ofBits, Ideal.ieee]

/-- all(|x| < +∞) = 1 over any shape s: the conjunction over all of s being 1, each entry's comparison is 1, that is
    max (x i) (-(x i)) < +∞, and so x i is a real number. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (e : Host.reduce IntOp.andi
          (cmpf .olt (Host.absf (F := Ideal) x)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  -- the rank-0 result has a single index
  haveI : Subsingleton (⟨0, ![]⟩ : Shape).Idx := ⟨fun a b => funext fun d => d.elim0⟩
  have hi := Host.reduce_andi_all _ _ hr hu ValueIdx.ix0 e i
  have hlt : max (x i) (-(x i)) < (⊤ : EReal) := by
    have h2 : BitVec.ofBool (decide (max (x i) (-(x i)) < Ideal.ofBits .f32 0x7F800000#32)) = 1#1 := hi
    rw [ofBits_inf] at h2
    by_contra hn
    rw [decide_eq_false hn] at h2
    exact absurd h2 (by decide)
  exact real_of_abs_lt_top (x i) hlt

end Finite

/-- From the precondition to real entries: on every device, the node features x (argument 0), the first layer's weights
    and bias W1, b1 (arguments 3, 4) and the second layer's weights W2 (argument 5) have only real entries. The
    precondition is the conjunction, in argument order and associated to the left, of nine all(|a| < +∞) tests; its first
    four conjuncts are the ones read here. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨h3, h7⟩, h12⟩, h17⟩, _⟩, _⟩, _⟩, _⟩, _⟩ := h0
  exact ⟨Finite.real_of_all_abs_lt_inf _ _ _ _ h3, Finite.real_of_all_abs_lt_inf _ _ _ _ h7,
    Finite.real_of_all_abs_lt_inf _ _ _ _ h12, Finite.real_of_all_abs_lt_inf _ _ _ _ h17⟩

end Cert.Bridge

end
-- ==== Proof.KI.Final.lean ====
/-
  The idealized kernel program's result, as a function of the argument arrays, is the reference's.

  Region 0's product array is the reference's first dense product; the host stretches between the regions compute the
  normalised neighbourhood sums of the first layer's activations; region 1's accumulators after the last block are the
  reference's pooled sums and counts (aggregating before or after the second layer's weights is the same on real
  numbers, and every quantity involved is a real under the precondition); the last block's stored value is the
  reference's pooled mean, dense layers and log-softmax of them.
-/
import proofs.«423774_j65060164600241_3_alg».proof.Proof.KI.Run
import proofs.«423774_j65060164600241_3_alg».proof.Proof.KI.Value0
import proofs.«423774_j65060164600241_3_alg».proof.Proof.KI.Blocks1
import proofs.«423774_j65060164600241_3_alg».proof.Proof.KI.HostVals
import proofs.«423774_j65060164600241_3_alg».proof.Proof.Bridge.Linear
import proofs.«423774_j65060164600241_3_alg».proof.Proof.Bridge.Pool
import proofs.«423774_j65060164600241_3_alg».proof.Proof.Bridge.Tail
import proofs.«423774_j65060164600241_3_alg».proof.Proof.Bridge.Finite

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable (m : (ℓ : Loc nD τ sig) → Buf (Elt Ideal) ℓ)

/-- Under the precondition the result array after the run is the reference's result function of the arguments. -/
theorem kernel_value [hPre_finite_inputs : Cert.Pre_finite_inputs.Facts] (hpre : Cert.Pre_KernelIdeal m) (c : Dev nD) :
    ((dat1 (F := Ideal) (V5 m) c).arrAt 8 cfg1.N : S128x2.Idx → EReal)
      = Cert.ReferenceIdeal.Read.val_main_v111 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  obtain ⟨h0, h3, h4, h5⟩ := Cert.Bridge.finite_of_pre m hpre c
  have hOUT := final0 (V1 m) c
  rw [show V1 m c main_arg0 = m ((c.tc : Thread nD τ).loc main_arg0) from W1_arg0 m c,
    show V1 m c main_arg3 = m ((c.tc : Thread nD τ).loc main_arg3) from W1_arg3 m c] at hOUT
  have h62 := W5_v62 m c hOUT
  have h19 : 19 < cfg1.N := by rw [show cfg1.N = 20 from N_1]; decide
  rw [final1 (V5 m) c ⟨19, h19⟩ rfl]
  unfold out1_8
  rw [Cert.Bridge.accAt1_eq_accP (V5 m) c (V5 m c main_arg5) (V5 m c main_v64) (fun t => iblk1_2 (V5 m) c t) (fun t => iblk1_3 (V5 m) c t)]
  obtain ⟨hS, hC⟩ := Cert.Bridge.pool_eq (fun t => iblk1 (V5 m) c 0 t) (fun t => iblk1 (V5 m) c 1 t) (V5 m c main_arg5) (V5 m c main_v64)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))
    (fun t r k h => (iblk1_0 (V5 m) c t r k h).trans (congrFun h62 _))
    (fun t r h => (iblk1_1 (V5 m) c t r h).trans (W5_v63 m c _))
    (W5_arg5 m c) (W5_v64 m c)
    (Cert.Bridge.lin _ _ _ _ _ h0 h3 h4 h5) h19
  rw [Cert.Bridge.ref_eq_tailR, iblk1_4, iblk1_5, iblk1_6, iblk1_7]
  rw [show V5 m c main_arg7 = m ((c.tc : Thread nD τ).loc main_arg7) from W5_arg7 m c,
    show V5 m c main_arg9 = m ((c.tc : Thread nD τ).loc main_arg9) from W5_arg9 m c, hS]
  exact Cert.Bridge.tail_eq _ _ _ hC _ _ _ (W5_v65 m c) _ _ _ (W5_v66 m c)

end Cert.KernelIdeal.Hand

end
-- ==== Proof.lean ====
/-
  The certificate of the graph-convolution kernel against its jnp reference: the three frames, the (empty)
  idealization ledger, and the equality of the two idealized programs' results over the extended reals.

  Both kernel programs (read at the word level and at the ideal instance) run as: host operations, a blockwise product
  of the node features with the first weights (kernel region 0), host operations that aggregate over the edges, and a
  second kernel region that applies the second weights block by block, pools the rows by graph into two accumulators
  carried across the blocks, and finishes with the dense layers and the log-softmax. Their frames are the run of these
  items in order (K/Run.lean, KI/Run.lean); the reference's frame is its run with the result dropped. For the value
  claim the kernel's result array is read off the same run (KI/Final.lean) and is the reference's result function of
  the arguments; the reference's run ends at that function of arguments that agree.
-/
import proofs.«423774_j65060164600241_3_alg».proof.Defs
import proofs.«423774_j65060164600241_3_alg».proof.Proof.Gen.Kernel
import proofs.«423774_j65060164600241_3_alg».proof.Proof.Gen.KernelIdeal
import proofs.«423774_j65060164600241_3_alg».proof.Proof.Gen.ReferenceIdeal
import proofs.«423774_j65060164600241_3_alg».proof.Proof.Gen.Pre_finite_inputs
import proofs.«423774_j65060164600241_3_alg».proof.Proof.Gen.ReferenceIdeal.Run
import proofs.«423774_j65060164600241_3_alg».proof.Proof.Gen.ReferenceIdeal.Read
import proofs.«423774_j65060164600241_3_alg».proof.Proof.K.Run
import proofs.«423774_j65060164600241_3_alg».proof.Proof.KI.Final
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's result function of the (agreeing) arguments. -/
theorem algebraic : Cert.algebraic_KernelIdeal_ReferenceIdeal := by
  intro m ρ m' ρ' hpre hagree
  refine ⟨fun c => Cert.ReferenceIdeal.Read.val_main_v111 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Hand.run_all (F := Ideal) m ρ)
    refine ⟨((h c _ (Cert.KernelIdeal.Hand.mem_uc Cert.KernelIdeal.main_v67 (by decide))).trans
        (Cert.KernelIdeal.Hand.W6_arr m c 8)).trans (Cert.KernelIdeal.Hand.kernel_value m hpre c), ?_⟩
    exact ⟨(h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v111_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
